-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v35)) (v1 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_v36) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000x128 : Shape := ⟨2, ![800000, 128]⟩
abbrev S128x128 : Shape := ⟨2, ![128, 128]⟩
abbrev S800000 : Shape := ⟨1, ![800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x128 : S_.BroadcastsInDim S800000x128 (![] : Fin 0 → Fin S800000x128.rank)
  reducesTo_S800000x128_S_d0_1 : S800000x128.ReducesTo [0, 1] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg4 : FVec F S128x128 .f32) (main_arg5 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  main_v28

def fn {F : FTy → Type} [FloatOps F] (main_arg0 : FVec F S50000x128 .f32) (main_arg1 : FVec F S800000x128 .f32) (main_arg2 : FVec F S128x128 .f32) (main_arg3 : FVec F S128x128 .f32) (main_arg4 : FVec F S128x128 .f32) (main_arg5 : FVec F S128x128 .f32) (main_arg6 : IVec S800000 32) (main_arg7 : IVec S800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x128 .f32 := Host.absf main_arg1
  let main_cst_0 : FVec F S_ .f32 := constant S_ .f32 0x7F800000#32
  let main_v5 : FVec F S800000x128 .f32 := broadcastInDim S800000x128 ![] bcast_S_S800000x128 main_cst_0
  let main_v6 : IVec S800000x128 1 := cmpf .olt main_v4 main_v5
  let main_c_1 : IVec S_ 1 := constantI S_ 1 1#1
  let main_v7 : IVec S_ 1 := (fun x v => Host.reduce IntOp.andi x v reducesTo_S800000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_v13 main_v16
-- ==== Kernel.lean ====
abbrev S50000x128 : Shape := ⟨2, ![50000, 128]⟩
abbrev S800000x128 : Shape := ⟨2, ![800000, 128]⟩
abbrev S128x128 : Shape := ⟨2, ![128, 128]⟩
abbrev S800000 : Shape := ⟨1, ![800000]⟩
abbrev S128x8 : Shape := ⟨2, ![128, 8]⟩
abbrev S8x128 : Shape := ⟨2, ![8, 128]⟩
abbrev S128x384 : Shape := ⟨2, ![128, 384]⟩
abbrev S50000x384 : Shape := ⟨2, ![50000, 384]⟩
abbrev S50000x256 : Shape := ⟨2, ![50000, 256]⟩
abbrev S_ : Shape := ⟨0, ![]⟩
abbrev S800000x1 : Shape := ⟨2, ![800000, 1]⟩
abbrev S800000x256 : Shape := ⟨2, ![800000, 256]⟩
abbrev S800000x8 : Shape := ⟨2, ![800000, 8]⟩
abbrev S4000x128 : Shape := ⟨2, ![4000, 128]⟩
abbrev S4000x256 : Shape := ⟨2, ![4000, 256]⟩
abbrev S4000x8 : Shape := ⟨2, ![4000, 8]⟩
abbrev S50000x8 : Shape := ⟨2, ![50000, 8]⟩
abbrev S50000x8x16 : Shape := ⟨3, ![50000, 8, 16]⟩
abbrev S50000x8x1 : Shape := ⟨3, ![50000, 8, 1]⟩
abbrev S800000x8x16 : Shape := ⟨3, ![800000, 8, 16]⟩

abbrev nBuf : Space → Nat
  | .hbm => 56
  | .vmem => 15
  | .smem => 0
  | _ => 0

abbrev bufTy : (tb : Table) → Fin (tcTables nBuf tb) → BufTy
  | .hbm, ⟨0, _⟩ => ⟨S50000x128, .f32⟩
  | .hbm, ⟨1, _⟩ => ⟨S800000x128, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S800000, .i32⟩
  | .hbm, ⟨7, _⟩ => ⟨S800000, .i32⟩
  | .hbm, ⟨8, _⟩ => ⟨S128x8, .f32⟩
  | .hbm, ⟨9, _⟩ => ⟨S8x128, .f32⟩
  | .hbm, ⟨10, _⟩ => ⟨S128x384, .f32⟩
  | .hbm, ⟨11, _⟩ => ⟨S50000x384, .f32⟩
  | .hbm, ⟨12, _⟩ => ⟨S50000x128, .f32⟩
  | .hbm, ⟨13, _⟩ => ⟨S50000x128, .f32⟩
  | .hbm, ⟨14, _⟩ => ⟨S50000x128, .f32⟩
  | .hbm, ⟨15, _⟩ => ⟨S50000x256, .f32⟩
  | .hbm, ⟨16, _⟩ => ⟨S50000x256, .bf16⟩
  | .hbm, ⟨17, _⟩ => ⟨S50000x128, .bf16⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x256, .bf16⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x128, .bf16⟩
  | .hbm, ⟨36, _⟩ => ⟨S128x128, .bf16⟩
  | .hbm, ⟨37, _⟩ => ⟨S800000x128, .f32⟩
  | .hbm, ⟨38, _⟩ => ⟨S800000x128, .f32⟩
  | .hbm, ⟨39, _⟩ => ⟨S800000x8, .f32⟩
  | .hbm, ⟨40, _⟩ => ⟨S_, .f32⟩
  | .hbm, ⟨41, _⟩ => ⟨S50000x128, .f32⟩
  | .hbm, ⟨42, _⟩ => ⟨S800000x1, .i32⟩
  | .hbm, ⟨43, _⟩ => ⟨S50000x128, .f32⟩
  | .hbm, ⟨44, _⟩ => ⟨S_, .f32⟩
  | .hbm, ⟨45, _⟩ => ⟨S50000x8, .f32⟩
  | .hbm, ⟨46, _⟩ => ⟨S800000x1, .i32⟩
  | .hbm, ⟨47, _⟩ => ⟨S50000x8, .f32⟩
  | .hbm, ⟨48, _⟩ => ⟨S50000x8x16, .f32⟩
  | .hbm, ⟨49, _⟩ => ⟨S50000x8x1, .f32⟩
  | .hbm, ⟨50, _⟩ => ⟨S_, .f32⟩
  | .hbm, ⟨51, _⟩ => ⟨S50000x8x1, .f32⟩
  | .hbm, ⟨52, _⟩ => ⟨S50000x8x1, .f32⟩
  | .hbm, ⟨53, _⟩ => ⟨S50000x8x16, .f32⟩
  | .hbm, ⟨54, _⟩ => ⟨S50000x8x16, .f32⟩
  | .hbm, ⟨55, _⟩ => ⟨S800000x8x16, .f32⟩
  | .local _ .vmem, ⟨0, _⟩ => ⟨S4000x128, .f32⟩
  | .local _ .vmem, ⟨1, _⟩ => ⟨S4000x128, .f32⟩
  | .local _ .vmem, ⟨2, _⟩ => ⟨S128x128, .bf16⟩
  | .local _ .vmem, ⟨3, _⟩ => ⟨S4000x256, .bf16⟩
  | .local _ .vmem, ⟨4, _⟩ => ⟨S4000x256, .bf16⟩
  | .local _ .vmem, ⟨5, _⟩ => ⟨S4000x128, .bf16⟩
  | .local _ .vmem, ⟨6, _⟩ => ⟨S4000x128, .bf16⟩
  | .local _ .vmem, ⟨7, _⟩ => ⟨S128x8, .f32⟩
  | .local _ .vmem, ⟨8, _⟩ => ⟨S8x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S4000x8, .f32⟩
  | .local _ .vmem, ⟨14, _⟩ => ⟨S4000x8, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_cst_0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c : Ref sig .tc := ⟨.hbm, 18, rfl⟩
abbrev main_v8 : Ref sig .tc := ⟨.hbm, 19, rfl⟩
abbrev main_v9 : Ref sig .tc := ⟨.hbm, 20, rfl⟩
abbrev main_c_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_2 : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23_0 : Ref sig .tc := ⟨.hbm, 37, rfl⟩
abbrev main_v23_1 : Ref sig .tc := ⟨.hbm, 38, rfl⟩
abbrev main_v23_2 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4000x8 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  concatenates_S128x128_S128x128_S128x128_S128x384_d1 : Shape.Concatenates [S128x128, S128x128, S128x128] S128x384 1
  slices_S50000x384_S50000x128_0_0 : S50000x384.Slices ![0, 0] S50000x128
  slices_S50000x384_S50000x128_0_128 : S50000x384.Slices ![0, 128] S50000x128
  slices_S50000x384_S50000x128_0_256 : S50000x384.Slices ![0, 256] S50000x128
  concatenates_S50000x128_S50000x128_S50000x256_d1 : Shape.Concatenates [S50000x128, S50000x128] S50000x256 1
  bitsLt_bf16_f32 : FTy.bits .bf16 < FTy.bits .f32
  bcast_S_S800000 : S_.BroadcastsInDim S800000 (![] : Fin 0 → Fin S800000.rank)
  bcast_S800000_S800000x1_0 : S800000.BroadcastsInDim S800000x1 (![0] : Fin 1 → Fin S800000x1.rank)
  inb_S4000x128_S4000x128_0_0 : ∀ a, (![0, 0] : Fin 2 → Nat) a + S4000x128.size a ≤ S4000x128.size a
  h_S4000x128 : 0 < S4000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S4000x256_S4000x256_0_0 : ∀ a, (![0, 0] : Fin 2 → Nat) a + S4000x256.size a ≤ S4000x256.size a
  h_S4000x256 : 0 < S4000x256.numel
  shapeCasts_S4000x256_S4000x256 : S4000x256.ShapeCasts S4000x256
  slices_S4000x256_o0_0_S4000x128 : S4000x256.Slices ![0, 0] S4000x128
  slices_S4000x256_o0_128_S4000x128 : S4000x256.Slices ![0, 128] S4000x128
  shapeCasts_S4000x128_S4000x128 : S4000x128.ShapeCasts S4000x128
  inb_S128x8_S128x8_0_0 : ∀ a, (![0, 0] : Fin 2 → Nat) a + S128x8.size a ≤ S128x8.size a
  h_S128x8 : 0 < S128x8.numel
  inb_S8x128_S8x128_0_0 : ∀ a, (![0, 0] : Fin 2 → Nat) a + S8x128.size a ≤ S8x128.size a
  h_S8x128 : 0 < S8x128.numel
  inb_S4000x8_S4000x8_0_0 : ∀ a, (![0, 0] : Fin 2 → Nat) a + S4000x8.size a ≤ S4000x8.size a
  h_S4000x8 : 0 < S4000x8.numel
  bcast_S_S50000x128 : S_.BroadcastsInDim S50000x128 (![] : Fin 0 → Fin S50000x128.rank)
  bcast_S_S50000x8 : S_.BroadcastsInDim S50000x8 (![] : Fin 0 → Fin S50000x8.rank)
  shapeCasts_S50000x128_S50000x8x16 : S50000x128.ShapeCasts S50000x8x16
  shapeCasts_S50000x8_S50000x8x1 : S50000x8.ShapeCasts S50000x8x1
  bcast_S_S50000x8x1 : S_.BroadcastsInDim S50000x8x1 (![] : Fin 0 → Fin S50000x8x1.rank)
  bcast_S50000x8x1_S50000x8x16_0_1_2 : S50000x8x1.BroadcastsInDim S50000x8x16 (![0, 1, 2] : Fin 3 → Fin S50000x8x16.rank)
  shapeCasts_S800000x128_S800000x8x16 : S800000x128.ShapeCasts S800000x8x16
  dot_S50000x128_S128x384_S50000x384_1_0_0_1_n_n_wf : DotDims.WF S50000x128 S128x384 S50000x384 [1] [0] [0] [1] [] []
  gather_S50000x256_S800000x1_S800000x256_1_0_n_n_0_1_1256_wf : GatherDims.WF S50000x256 S800000x1 S800000x256 [1] [0] [] [0] [] 1 ![1, 256]
  gather_S50000x128_S800000x1_S800000x128_1_0_n_n_0_1_1128_wf : GatherDims.WF S50000x128 S800000x1 S800000x128 [1] [0] [] [0] [] 1 ![1, 128]
  dot_S4000x128_S128x128_S4000x128_1_0_0_1_n_n_wf : DotDims.WF S4000x128 S128x128 S4000x128 [1] [0] [0] [1] [] []
  dot_S4000x128_S128x8_S4000x8_1_0_0_1_n_n_wf : DotDims.WF S4000x128 S128x8 S4000x8 [1] [0] [0] [1] [] []
  dot_S4000x8_S8x128_S4000x128_1_0_0_1_n_n_wf : DotDims.WF S4000x8 S8x128 S4000x128 [1] [0] [0] [1] [] []
  scatter_S50000x128_S800000x1_S800000x128_1_0_0_1_wf : ScatterDims.WF S50000x128 S800000x1 S800000x128 [1] [0] [0] 1
  scatter_S50000x8_S800000x1_S800000x8_1_0_0_1_wf : ScatterDims.WF S50000x8 S800000x1 S800000x8 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S800000x128.size a
  hwx0_0 : ∀ i : grid0.Coords, EltTy.bits .f32 = 32 ∨ (Rect.block (s := S800000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x256.size a ≤ S800000x256.size a
  hwx0_2 : ∀ i : grid0.Coords, EltTy.bits .bf16 = 32 ∨ (Rect.block (s := S800000x256) S4000x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S800000x128.size a
  hwx0_3 : ∀ i : grid0.Coords, EltTy.bits .bf16 = 32 ∨ (Rect.block (s := S800000x128) S4000x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x8.size a ≤ S128x8.size a
  hwx0_4 : ∀ i : grid0.Coords, EltTy.bits .f32 = 32 ∨ (Rect.block (s := S128x8) S128x8.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x128.size a ≤ S8x128.size a
  hwx0_5 : ∀ i : grid0.Coords, EltTy.bits .f32 = 32 ∨ (Rect.block (s := S8x128) S8x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S800000x128.size a
  hwx0_6 : ∀ i : grid0.Coords, EltTy.bits .f32 = 32 ∨ (Rect.block (s := S800000x128) S4000x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x128.size a ≤ S800000x128.size a
  hwx0_7 : ∀ i : grid0.Coords, EltTy.bits .f32 = 32 ∨ (Rect.block (s := S800000x128) S4000x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4000x8.size a ≤ S800000x8.size a
  hwx0_8 : ∀ i : grid0.Coords, EltTy.bits .f32 = 32 ∨ (Rect.block (s := S800000x8) S4000x8.size (cc0_transform_8 i) (hinb0_8 i)).WholeWords (EltTy.packing .f32)

variable [Facts₀]

def dot_S50000x128_S128x384_S50000x384_1_0_0_1_n_n : DotDims S50000x128 S128x384 S50000x384 where
  lhsContracting := [1]
  rhsContracting := [0]
  lhsNonContracting := [0]
  rhsNonContracting := [1]
  lhsBatch := []
  rhsBatch := []
  wf := dot_S50000x128_S128x384_S50000x384_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x8_S4000x8_1_0_0_1_n_n : DotDims S4000x128 S128x8 S4000x8 where
  lhsContracting := [1]
  rhsContracting := [0]
  lhsNonContracting := [0]
  rhsNonContracting := [1]
  lhsBatch := []
  rhsBatch := []
  wf := dot_S4000x128_S128x8_S4000x8_1_0_0_1_n_n_wf
def dot_S4000x8_S8x128_S4000x128_1_0_0_1_n_n : DotDims S4000x8 S8x128 S4000x128 where
  lhsContracting := [1]
  rhsContracting := [0]
  lhsNonContracting := [0]
  rhsNonContracting := [1]
  lhsBatch := []
  rhsBatch := []
  wf := dot_S4000x8_S8x128_S4000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x8_S800000x1_S800000x8_1_0_0_1 : ScatterDims S50000x8 S800000x1 S800000x8 where
  updateWindowDims := [1]
  insertedWindowDims := [0]
  scatterDimsToOperandDims := [0]
  indexVectorDim := 1
  wf := scatter_S50000x8_S800000x1_S800000x8_1_0_0_1_wf

abbrev win0_0 : Pipeline.Window sig grid0 :=
  Pipeline.Window.ofSpec (Memref.whole main_arg1) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S4000x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S4000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_cst) S128x8.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_cst_0) S8x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23_0) S4000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v23_1) S4000x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v23_2) S4000x8.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S50000x128 : Shape := ⟨2, ![50000, 128]⟩
abbrev S800000x128 : Shape := ⟨2, ![800000, 128]⟩
abbrev S128x128 : Shape := ⟨2, ![128, 128]⟩
abbrev S800000 : Shape := ⟨1, ![800000]⟩
abbrev S50000x8x16 : Shape := ⟨3, ![50000, 8, 16]⟩
abbrev S800000x8x16 : Shape := ⟨3, ![800000, 8, 16]⟩
abbrev S_ : Shape := ⟨0, ![]⟩
abbrev S800000x1 : Shape := ⟨2, ![800000, 1]⟩
abbrev S800000x8 : Shape := ⟨2, ![800000, 8]⟩
abbrev S800000x8x1 : Shape := ⟨3, ![800000, 8, 1]⟩
abbrev S50000x8x1 : Shape := ⟨3, ![50000, 8, 1]⟩

abbrev nBuf : Space → Nat
  | .hbm => 83
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000x128, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S800000, .i32⟩
  | .hbm, ⟨7, _⟩ => ⟨S800000, .i32⟩
  | .hbm, ⟨8, _⟩ => ⟨S50000x128, .f32⟩
  | .hbm, ⟨9, _⟩ => ⟨S50000x8x16, .f32⟩
  | .hbm, ⟨10, _⟩ => ⟨S50000x128, .f32⟩
  | .hbm, ⟨11, _⟩ => ⟨S50000x8x16, .f32⟩
  | .hbm, ⟨12, _⟩ => ⟨S50000x128, .f32⟩
  | .hbm, ⟨13, _⟩ => ⟨S50000x8x16, .f32⟩
  | .hbm, ⟨14, _⟩ => ⟨S800000x128, .f32⟩
  | .hbm, ⟨15, _⟩ => ⟨S800000x8x16, .f32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x8x16, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x8x16, .f32⟩
  | .hbm, ⟨34, _⟩ => ⟨S800000x8x16, .f32⟩
  | .hbm, ⟨35, _⟩ => ⟨S_, .f32⟩
  | .hbm, ⟨36, _⟩ => ⟨S800000x8x16, .f32⟩
  | .hbm, ⟨37, _⟩ => ⟨S800000x8x16, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S800000x8x16, .f32⟩
  | .hbm, ⟨42, _⟩ => ⟨S800000x8x16, .f32⟩
  | .hbm, ⟨43, _⟩ => ⟨S_, .f32⟩
  | .hbm, ⟨44, _⟩ => ⟨S800000x8x16, .f32⟩
  | .hbm, ⟨45, _⟩ => ⟨S800000x8x16, .f32⟩
  | .hbm, ⟨46, _⟩ => ⟨S800000x8x16, .f32⟩
  | .hbm, ⟨47, _⟩ => ⟨S_, .f32⟩
  | .hbm, ⟨48, _⟩ => ⟨S800000x8, .f32⟩
  | .hbm, ⟨49, _⟩ => ⟨S800000x8x1, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S800000x8x1, .f32⟩
  | .hbm, ⟨54, _⟩ => ⟨S800000x8x1, .f32⟩
  | .hbm, ⟨55, _⟩ => ⟨S_, .f32⟩
  | .hbm, ⟨56, _⟩ => ⟨S800000x8x1, .f32⟩
  | .hbm, ⟨57, _⟩ => ⟨S800000x8x1, .f32⟩
  | .hbm, ⟨58, _⟩ => ⟨S800000x8x1, .f32⟩
  | .hbm, ⟨59, _⟩ => ⟨S_, .i32⟩
  | .hbm, ⟨60, _⟩ => ⟨S800000, .i32⟩
  | .hbm, ⟨61, _⟩ => ⟨S800000, .i1⟩
  | .hbm, ⟨62, _⟩ => ⟨S_, .i32⟩
  | .hbm, ⟨63, _⟩ => ⟨S800000, .i32⟩
  | .hbm, ⟨64, _⟩ => ⟨S800000, .i32⟩
  | .hbm, ⟨65, _⟩ => ⟨S800000, .i32⟩
  | .hbm, ⟨66, _⟩ => ⟨S800000x1, .i32⟩
  | .hbm, ⟨67, _⟩ => ⟨S800000x8x16, .f32⟩
  | .hbm, ⟨68, _⟩ => ⟨S800000x8x16, .f32⟩
  | .hbm, ⟨69, _⟩ => ⟨S800000x8x16, .f32⟩
  | .hbm, ⟨70, _⟩ => ⟨S_, .f32⟩
  | .hbm, ⟨71, _⟩ => ⟨S50000x8x16, .f32⟩
  | .hbm, ⟨72, _⟩ => ⟨S800000x1, .i32⟩
  | .hbm, ⟨73, _⟩ => ⟨S50000x8x16, .f32⟩
  | .hbm, ⟨74, _⟩ => ⟨S_, .f32⟩
  | .hbm, ⟨75, _⟩ => ⟨S50000x8x1, .f32⟩
  | .hbm, ⟨76, _⟩ => ⟨S800000x1, .i32⟩
  | .hbm, ⟨77, _⟩ => ⟨S50000x8x1, .f32⟩
  | .hbm, ⟨78, _⟩ => ⟨S_, .f32⟩
  | .hbm, ⟨79, _⟩ => ⟨S50000x8x1, .f32⟩
  | .hbm, ⟨80, _⟩ => ⟨S50000x8x1, .f32⟩
  | .hbm, ⟨81, _⟩ => ⟨S50000x8x16, .f32⟩
  | .hbm, ⟨82, _⟩ => ⟨S50000x8x16, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_c_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_1 : Ref sig .tc := ⟨.hbm, 25, rfl⟩
abbrev main_v15 : Ref sig .tc := ⟨.hbm, 26, rfl⟩
abbrev main_v16 : Ref sig .tc := ⟨.hbm, 27, rfl⟩
abbrev main_c_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_cst_4 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_v25 : Ref sig .tc := ⟨.hbm, 45, rfl⟩
abbrev main_v26 : Ref sig .tc := ⟨.hbm, 46, rfl⟩
abbrev main_cst_5 : Ref sig .tc := ⟨.hbm, 47, rfl⟩
abbrev main_v27 : Ref sig .tc := ⟨.hbm, 48, rfl⟩
abbrev main_v28 : Ref sig .tc := ⟨.hbm, 49, rfl⟩
abbrev main_cst_6 : Ref sig .tc := ⟨.hbm, 50, rfl⟩
abbrev main_cst_7 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_v29 : Ref sig .tc := ⟨.hbm, 57, rfl⟩
abbrev main_v30 : Ref sig .tc := ⟨.hbm, 58, rfl⟩
abbrev main_c_8 : Ref sig .tc := ⟨.hbm, 59, rfl⟩
abbrev main_v31 : Ref sig .tc := ⟨.hbm, 60, rfl⟩
abbrev main_v32 : Ref sig .tc := ⟨.hbm, 61, rfl⟩
abbrev main_c_9 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_cst_10 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_cst_11 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_cst_12 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩

abbrev nD : Nat := 1
abbrev τ : Topo := Topo.v7x

variable {F : FTy → Type} [FloatOps F]

class Facts₀ : Prop where
  shapeCasts_S50000x128_S50000x8x16 : S50000x128.ShapeCasts S50000x8x16
  shapeCasts_S800000x128_S800000x8x16 : S800000x128.ShapeCasts S800000x8x16
  bcast_S_S800000 : S_.BroadcastsInDim S800000 (![] : Fin 0 → Fin S800000.rank)
  bcast_S800000_S800000x1_0 : S800000.BroadcastsInDim S800000x1 (![0] : Fin 1 → Fin S800000x1.rank)
  bcast_S_S800000x8x16 : S_.BroadcastsInDim S800000x8x16 (![] : Fin 0 → Fin S800000x8x16.rank)
  reducesTo_S800000x8x16_S800000x8_d2 : S800000x8x16.ReducesTo [2] S800000x8
  h_S_ : 0 < S_.numel
  bcast_S800000x8_S800000x8x1_0_1 : S800000x8.BroadcastsInDim S800000x8x1 (![0, 1] : Fin 2 → Fin S800000x8x1.rank)
  bcast_S_S800000x8x1 : S_.BroadcastsInDim S800000x8x1 (![] : Fin 0 → Fin S800000x8x1.rank)
  bcast_S800000x8x1_S800000x8x16_0_1_2 : S800000x8x1.BroadcastsInDim S800000x8x16 (![0, 1, 2] : Fin 3 → Fin S800000x8x16.rank)
  bcast_S_S50000x8x16 : S_.BroadcastsInDim S50000x8x16 (![] : Fin 0 → Fin S50000x8x16.rank)
  bcast_S_S50000x8x1 : S_.BroadcastsInDim S50000x8x1 (![] : Fin 0 → Fin S50000x8x1.rank)
  bcast_S50000x8x1_S50000x8x16_0_1_2 : S50000x8x1.BroadcastsInDim S50000x8x16 (![0, 1, 2] : Fin 3 → Fin S50000x8x16.rank)
  dot_S50000x128_S128x128_S50000x128_1_0_0_1_n_n_wf : DotDims.WF S50000x128 S128x128 S50000x128 [1] [0] [0] [1] [] []
  dot_S800000x128_S128x128_S800000x128_1_0_0_1_n_n_wf : DotDims.WF S800000x128 S128x128 S800000x128 [1] [0] [0] [1] [] []
  gather_S50000x8x16_S800000x1_S800000x8x16_12_0_n_n_0_1_1816_wf : GatherDims.WF S50000x8x16 S800000x1 S800000x8x16 [1, 2] [0] [] [0] [] 1 ![1, 8, 16]
  scatter_S50000x8x16_S800000x1_S800000x8x16_12_0_0_1_wf : ScatterDims.WF S50000x8x16 S800000x1 S800000x8x16 [1, 2] [0] [0] 1
  scatter_S50000x8x1_S800000x1_S800000x8x1_12_0_0_1_wf : ScatterDims.WF S50000x8x1 S800000x1 S800000x8x1 [1, 2] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def gather_S50000x8x16_S800000x1_S800000x8x16_12_0_n_n_0_1_1816 : GatherDims S50000x8x16 S800000x1 S800000x8x16 where
  offsetDims := [1, 2]
  collapsedSliceDims := [0]
  operandBatchingDims := []
  startIndicesBatchingDims := []
  startIndexMap := [0]
  indexVectorDim := 1
  sliceSizes := ![1, 8, 16]
  wf := gather_S50000x8x16_S800000x1_S800000x8x16_12_0_n_n_0_1_1816_wf
def scatter_S50000x8x16_S800000x1_S800000x8x16_12_0_0_1 : ScatterDims S50000x8x16 S800000x1 S800000x8x16 where
  updateWindowDims := [1, 2]
  insertedWindowDims := [0]
  scatterDimsToOperandDims := [0]
  indexVectorDim := 1
  wf := scatter_S50000x8x16_S800000x1_S800000x8x16_12_0_0_1_wf
def scatter_S50000x8x1_S800000x1_S800000x8x1_12_0_0_1 : ScatterDims S50000x8x1 S800000x1 S800000x8x1 where
  updateWindowDims := [1, 2]
  insertedWindowDims := [0]
  scatterDimsToOperandDims := [0]
  indexVectorDim := 1
  wf := scatter_S50000x8x1_S800000x1_S800000x8x1_12_0_0_1_wf

class Facts : Prop extends Facts₀ where

variable [Facts]
-- ==== Proof.EntryBits.lean ====
/-
  What the kernel's region finds in each TensorCore buffer: the launch contents run through the host operations that
  stand before the region (the projections of the node rows, the two row gathers, the cast of the edge weights and the
  two 0/1 grouping tables).
-/
import proofs.«410480_j64037962384023_3_alg».proof.Proof.Gen.Kernel.Launch
import Idealize.ShloMosaic.Lib.Pipeline.FrameSuffix

noncomputable section

namespace Cert.Kernel.Hand

open Idealize.ShloMosaic Idealize.ShloMosaic.TcCoe
open Idealize.SL Idealize.SL.Sem
open Cert.Kernel Cert.Kernel.Gen

variable {F : FTy → Type} [FloatOps F]
variable (m : (ℓ : Loc nD τ sig) → Buf (Elt F) ℓ)

/-- Core `c`'s buffer contents when the region is entered, as a valuation. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

end Cert.Kernel.Hand

end
-- ==== Proof.FrameBits.lean ====
/-
  The kernel's run on one core, at any float instance: the host operations before the region, the region over its
  200 grid points, the host operations after it.

  At a grid point the body is handed nine staging buffers. Six it only reads: the point's 4000 edge rows, the edge
  weights, the 4000 gathered key|value rows, the 4000 gathered query rows and the two 0/1 grouping tables. Three it
  overwrites whole, after reading them once: the scores, the messages and the head weights of those 4000 edges, each a
  pure function of the six it read. Nothing is kept from one point to the next, so what the region leaves in its three
  result arrays is, block by block, that function of the blocks of its six operand arrays; and no host operation, before
  or after, writes an argument of the program.
-/
import proofs.«410480_j64037962384023_3_alg».proof.Proof.EntryBits
import proofs.«410480_j64037962384023_3_alg».proof.Proof.Gen.Kernel.Skeleton
import proofs.«410480_j64037962384023_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations around the region -/

/-- No host operation allocates. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the operations before the region, the region, and the operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the region touch only unscoped TensorCore buffers, -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- allocate nothing, -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- and write none of the region's nine arrays: each writes its own result buffer. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.reshape_writes, Finset.mem_singleton] <;> exact StableHlo.devRef_ne_of_ne (by decide)

/-! ## The body's accesses and what it leaves -/

abbrev rEdge : Rect S4000x128 := Rect.unit (s := S4000x128) ![0, 0] S4000x128.size inb_S4000x128_S4000x128_0_0
abbrev rWts : Rect S128x128 := Rect.unit (s := S128x128) ![0, 0] S128x128.size inb_S128x128_S128x128_0_0
abbrev rKv : Rect S4000x256 := Rect.unit (s := S4000x256) ![0, 0] S4000x256.size inb_S4000x256_S4000x256_0_0
abbrev rG : Rect S128x8 := Rect.unit (s := S128x8) ![0, 0] S128x8.size inb_S128x8_S128x8_0_0
abbrev rGb : Rect S8x128 := Rect.unit (s := S8x128) ![0, 0] S8x128.size inb_S8x128_S8x128_0_0
abbrev rHead : Rect S4000x8 := Rect.unit (s := S4000x8) ![0, 0] S4000x8.size inb_S4000x8_S4000x8_0_0

/-- The scores the body stores, from the blocks it read. -/
def scoreBlk (x0 : Vec F S4000x128 .f32) (x1 : Vec F S128x128 .bf16) (x2 : Vec F S4000x256 .bf16) (x3 : Vec F S4000x128 .bf16) :
    Vec F S4000x128 .f32 :=
  View.canon [⟨rEdge, k0_pay2 (View.ld x0 rEdge) (View.ld x1 rWts) (View.ld x2 rKv) (View.ld x3 rEdge)⟩]
/-- The messages. -/
def msgBlk (x0 : Vec F S4000x128 .f32) (x1 : Vec F S128x128 .bf16) (x2 : Vec F S4000x256 .bf16) (x3 : Vec F S4000x128 .bf16)
    (x4 : Vec F S128x8 .f32) (x5 : Vec F S8x128 .f32) : Vec F S4000x128 .f32 :=
  View.canon [⟨rEdge, k0_pay4 (View.ld x0 rEdge) (View.ld x1 rWts) (View.ld x2 rKv) (View.ld x3 rEdge) (View.ld x4 rG) (View.ld x5 rGb)⟩]
/-- The head weights. -/
def headBlk (x0 : Vec F S4000x128 .f32) (x1 : Vec F S128x128 .bf16) (x2 : Vec F S4000x256 .bf16) (x3 : Vec F S4000x128 .bf16)
    (x4 : Vec F S128x8 .f32) : Vec F S4000x8 .f32 :=
  View.canon [⟨rHead, k0_pay3 (View.ld x0 rEdge) (View.ld x1 rWts) (View.ld x2 rKv) (View.ld x3 rEdge) (View.ld x4 rG)⟩]

/-- One whole-buffer store covers the buffer. -/
theorem coverEdge (p : Vec F S4000x128 .f32) (y : S4000x128.Idx) :
    ∃ pc ∈ ([⟨rEdge, p⟩] : List (View.Piece (Elt F) S4000x128 .f32)), y ∈ pc.1.set :=
  View.cover_of_tiled [⟨rEdge, p⟩] S4000x128.size (by rfl) y
theorem coverHead (p : Vec F S4000x8 .f32) (y : S4000x8.Idx) :
    ∃ pc ∈ ([⟨rHead, p⟩] : List (View.Piece (Elt F) S4000x8 .f32)), y ∈ pc.1.set :=
  View.cover_of_tiled [⟨rHead, p⟩] S4000x8.size (by rfl) y

/-! ## The body's triple -/

set_option maxHeartbeats 4000000 in
/-- The body on whole staging buffers, the six it reads at contents `x0 … x5` and the three it writes at anything, runs to
    the continuation with the six as they were and the three at the scores, messages and head weights of `x0 … x5`. -/
theorem sound_kernel (c : Dev nD) (E : Set ℕ) (i : grid0.Coords)
    (arg1 : Memref sig .tc .vmem S4000x128 .f32) (harg1 : arg1.IsWhole) (arg2 : Memref sig .tc .vmem S128x128 .bf16) (harg2 : arg2.IsWhole)
    (arg3 : Memref sig .tc .vmem S4000x256 .bf16) (harg3 : arg3.IsWhole) (arg4 : Memref sig .tc .vmem S4000x128 .bf16) (harg4 : arg4.IsWhole)
    (arg5 : Memref sig .tc .vmem S128x8 .f32) (harg5 : arg5.IsWhole) (arg6 : Memref sig .tc .vmem S8x128 .f32) (harg6 : arg6.IsWhole)
    (arg7 : Memref sig .tc .vmem S4000x128 .f32) (harg7 : arg7.IsWhole) (arg8 : Memref sig .tc .vmem S4000x128 .f32) (harg8 : arg8.IsWhole)
    (arg9 : Memref sig .tc .vmem S4000x8 .f32) (harg9 : arg9.IsWhole)
    (x0 : Vec F S4000x128 .f32) (x1 : Vec F S128x128 .bf16) (x2 : Vec F S4000x256 .bf16) (x3 : Vec F S4000x128 .bf16)
    (x4 : Vec F S128x8 .f32) (x5 : Vec F S8x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (scoreBlk x0 x1 x2 x3) ∗ owns (c : Thread nD τ) arg8 fullShare (msgBlk x0 x1 x2 x3 x4 x5)
            ∗ owns (c : Thread nD τ) arg9 fullShare (headBlk x0 x1 x2 x3 x4)) -∗ K ⟨⟩))
      ⊢ wp frame (wpE (defs₀ (F := F)) Variants.none c none) E
          (cc0__fused_edge_kernel i arg1 harg1 arg2 harg2 arg3 harg3 arg4 harg4 arg5 harg5 arg6 harg6 arg7 harg7 arg8 harg8 arg9 harg9) K := by
  simp only [cc0__fused_edge_kernel_eq_skeleton]; unfold cc0__fused_edge_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%d6, %f6, -, H6⟩, ⟨%d7, %f7, -, H7⟩, ⟨%d8, %f8, -, H8⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (coverEdge _)
  isplitl [H7]
  · iexists _; isplitr
    swap; · iexact H7
    ipureintro
    exact View.read_writes_eq_canon _ _ _ (coverEdge _)
  iexists _; isplitr
  swap; · iexact H8
  ipureintro
  exact View.read_writes_eq_canon _ _ _ (coverHead _)

/-! ## The arguments through the host operations -/

/-- "No operation of this list writes this buffer", operation by operation: each operation writes its own result
    buffer, which is another reference. -/
local macro "no_host_write " l:ident : tactic => `(tactic| (
  refine List.forall_iff_forall_mem.mp ?_
  simp only [$l:ident, List.flatten_cons, List.flatten_nil, List.append_nil, List.cons_append, List.nil_append, List.Forall,
    StableHlo.nullary_writes, StableHlo.unary_writes, StableHlo.binary_writes, StableHlo.ternary_writes, StableHlo.nary_writes,
    StableHlo.reshape_writes, Finset.mem_singleton]
  repeat' apply And.intro
  all_goals exact StableHlo.devRef_ne_of_ne (by decide)))

/-- No host operation before the region writes an argument of the program: the region finds each as launched. -/
theorem V_main_arg0 (c : Dev nD) : V m c main_arg0 = m ((c : Thread nD τ).loc main_arg0) :=
  StableHlo.after_of_forall_not_mem (b := Proc.devRef .tc main_arg0) _ _ (by no_host_write hostOps0)
theorem V_main_arg1 (c : Dev nD) : V m c main_arg1 = m ((c : Thread nD τ).loc main_arg1) :=
  StableHlo.after_of_forall_not_mem (b := Proc.devRef .tc main_arg1) _ _ (by no_host_write hostOps0)
theorem V_main_arg2 (c : Dev nD) : V m c main_arg2 = m ((c : Thread nD τ).loc main_arg2) :=
  StableHlo.after_of_forall_not_mem (b := Proc.devRef .tc main_arg2) _ _ (by no_host_write hostOps0)
theorem V_main_arg3 (c : Dev nD) : V m c main_arg3 = m ((c : Thread nD τ).loc main_arg3) :=
  StableHlo.after_of_forall_not_mem (b := Proc.devRef .tc main_arg3) _ _ (by no_host_write hostOps0)
theorem V_main_arg4 (c : Dev nD) : V m c main_arg4 = m ((c : Thread nD τ).loc main_arg4) :=
  StableHlo.after_of_forall_not_mem (b := Proc.devRef .tc main_arg4) _ _ (by no_host_write hostOps0)
theorem V_main_arg5 (c : Dev nD) : V m c main_arg5 = m ((c : Thread nD τ).loc main_arg5) :=
  StableHlo.after_of_forall_not_mem (b := Proc.devRef .tc main_arg5) _ _ (by no_host_write hostOps0)
theorem V_main_arg6 (c : Dev nD) : V m c main_arg6 = m ((c : Thread nD τ).loc main_arg6) :=
  StableHlo.after_of_forall_not_mem (b := Proc.devRef .tc main_arg6) _ _ (by no_host_write hostOps0)
theorem V_main_arg7 (c : Dev nD) : V m c main_arg7 = m ((c : Thread nD τ).loc main_arg7) :=
  StableHlo.after_of_forall_not_mem (b := Proc.devRef .tc main_arg7) _ _ (by no_host_write hostOps0)

/-- A buffer that no operation after the region writes and no window stages ends at what the region found in it. -/
theorem tail_keeps_of (dats : (p : Fin 1) → (c : Dev nD) → Dat τ (Elt F) Unit ℕ (UR sig nD τ) ℕ (cfgs p) c) (c : Dev nD)
    (b : Ref sig .tc)
    (hw : ∀ op ∈ (List.flatten [hostOps1] : List (HloOp τ sig (Elt F))), Proc.devRef .tc b ∉ op.writes)
    (hb : ∀ w, Pipeline.arrRef spec0 w ≠ b) :
    Pipeline.afterTail₀ cfgs dats 0 (V0 m) [hostOps1] c b = V m c b := by
  unfold Pipeline.afterTail₀
  rw [StableHlo.after_of_forall_not_mem (b := Proc.devRef .tc b) _ _ hw, Pipeline.withArrays_of_ne _ c (V0 m c) _ b hb]

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The proof data -/

/-- On core `c`: the arrays as the region finds them; after the body at point `t` each operand's buffer still at its
    block and the three results' at the scores, messages and head weights of the six blocks; nothing owed, full shares,
    and of the rest of the core only what the region never touches. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => scoreBlk (iblk m c 0 t) (iblk m c 1 t) (iblk m c 2 t) (iblk m c 3 t)
    | ⟨7, _⟩ => msgBlk (iblk m c 0 t) (iblk m c 1 t) (iblk m c 2 t) (iblk m c 3 t) (iblk m c 4 t) (iblk m c 5 t)
    | ⟨8, _⟩ => headBlk (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) :
    (dats m 0 c).after 6 t = scoreBlk (iblk m c 0 t) (iblk m c 1 t) (iblk m c 2 t) (iblk m c 3 t) := by dsimp only [dats]
theorem after7 (c : Dev nD) (t : Fin cfg0.N) :
    (dats m 0 c).after 7 t = msgBlk (iblk m c 0 t) (iblk m c 1 t) (iblk m c 2 t) (iblk m c 3 t) (iblk m c 4 t) (iblk m c 5 t) := by
  dsimp only [dats]
theorem after8 (c : Dev nD) (t : Fin cfg0.N) :
    (dats m 0 c).after 8 t = headBlk (iblk m c 0 t) (iblk m c 1 t) (iblk m c 2 t) (iblk m c 3 t) (iblk m c 4 t) := by dsimp only [dats]

/-- An operand's staging buffer holds its block at every point, whether the point fetched it or the block index has not
    moved since the last fetch (the edge weights and the two tables are fetched once, at the first point). -/
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl)
    (fun t => by rw [after4]; unfold Dat.blockOf iblk; rw [A_eq]; try rfl) t d).trans
    (by unfold Dat.fetched Dat.blockOf iblk; rw [A_eq]; try rfl)
theorem before5 (c : Dev nD) (t : Fin cfg0.N) (d) : (dats m 0 c).before 5 t d = iblk m c 5 t :=
  ((dats m 0 c).before_in_eq_fetched 5 rfl (fun _ => rfl) (fun _ _ _ => rfl)
    (fun t => by rw [after5]; unfold Dat.blockOf iblk; rw [A_eq]; try rfl) t d).trans
    (by unfold Dat.fetched Dat.blockOf iblk; rw [A_eq]; try rfl)

/-! ## The body obligation -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 2000000 in
/-- The body at any point: the operands' buffers hold their blocks, so the triple applies; the rest of the core and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6, after7, after8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates without a fault, each of the region's arrays ending at what the
    proof data compute for it and every other unscoped buffer as the operations after the region leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-- From the library's post of the run, every argument of the program ends as launched. The edge rows are an array the
    region stages and only reads; the other seven arguments no window stages and no host operation writes. -/
theorem kept_of_post (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨((h c).2 main_arg0 (Pipeline.mem_restRefs_of main_arg0 (by decide) (by decide))).trans
      ((tail_keeps_of m (dats m) c main_arg0 (by no_host_write hostOps1) (by decide)).trans (V_main_arg0 m c)),
    ((h c).1 0).trans (((dats m 0 c).arrAt_in 0 rfl _).trans ((A_eq m c 0).trans (V_main_arg1 m c))),
    ((h c).2 main_arg2 (Pipeline.mem_restRefs_of main_arg2 (by decide) (by decide))).trans
      ((tail_keeps_of m (dats m) c main_arg2 (by no_host_write hostOps1) (by decide)).trans (V_main_arg2 m c)),
    ((h c).2 main_arg3 (Pipeline.mem_restRefs_of main_arg3 (by decide) (by decide))).trans
      ((tail_keeps_of m (dats m) c main_arg3 (by no_host_write hostOps1) (by decide)).trans (V_main_arg3 m c)),
    ((h c).2 main_arg4 (Pipeline.mem_restRefs_of main_arg4 (by decide) (by decide))).trans
      ((tail_keeps_of m (dats m) c main_arg4 (by no_host_write hostOps1) (by decide)).trans (V_main_arg4 m c)),
    ((h c).2 main_arg5 (Pipeline.mem_restRefs_of main_arg5 (by decide) (by decide))).trans
      ((tail_keeps_of m (dats m) c main_arg5 (by no_host_write hostOps1) (by decide)).trans (V_main_arg5 m c)),
    ((h c).2 main_arg6 (Pipeline.mem_restRefs_of main_arg6 (by decide) (by decide))).trans
      ((tail_keeps_of m (dats m) c main_arg6 (by no_host_write hostOps1) (by decide)).trans (V_main_arg6 m c)),
    ((h c).2 main_arg7 (Pipeline.mem_restRefs_of main_arg7 (by decide) (by decide))).trans
      ((tail_keeps_of m (dats m) c main_arg7 (by no_host_write hostOps1) (by decide)).trans (V_main_arg7 m c))⟩

/-- A result buffer of the host operations after the region ends at what those operations leave in it. -/
theorem result_of_post (r : PUnit × MemSt nD τ sig (Elt F))
    (h : Pipeline.FramePost cfgs (dats m) 0 (Pipeline.afterTail₀ cfgs (dats m) 0 (V0 m) [hostOps1]) r) (c : Dev nD)
    (b : Ref sig .tc) (hb : b ∈ Pipeline.restRefs sig spec0) :
    r.2.mem ((c.tc : Thread nD τ).loc b) = Pipeline.afterTail₀ cfgs (dats m) 0 (V0 m) [hostOps1] c b :=
  (h c).2 b hb

/-- The frame: every weakly fair execution of @main terminates without a fault and every argument ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => kept_of_post m r h c) (run_main m ρ)

end Cert.Kernel.Hand

end
-- ==== Proof.Entry.lean ====
/-
  What the kernel's region finds in each TensorCore buffer: the launch contents run through the host operations that
  stand before the region (the projections of the node rows, the two row gathers, the cast of the edge weights and the
  two 0/1 grouping tables).
-/
import proofs.«410480_j64037962384023_3_alg».proof.Proof.Gen.KernelIdeal.Launch
import Idealize.ShloMosaic.Lib.Pipeline.FrameSuffix

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F]
variable (m : (ℓ : Loc nD τ sig) → Buf (Elt F) ℓ)

/-- Core `c`'s buffer contents when the region is entered, as a valuation. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

end Cert.KernelIdeal.Hand

end
-- ==== Proof.Frame.lean ====
/-
  The kernel's run on one core, at any float instance: the host operations before the region, the region over its
  200 grid points, the host operations after it.

  At a grid point the body is handed nine staging buffers. Six it only reads: the point's 4000 edge rows, the edge
  weights, the 4000 gathered key|value rows, the 4000 gathered query rows and the two 0/1 grouping tables. Three it
  overwrites whole, after reading them once: the scores, the messages and the head weights of those 4000 edges, each a
  pure function of the six it read. Nothing is kept from one point to the next, so what the region leaves in its three
  result arrays is, block by block, that function of the blocks of its six operand arrays; and no host operation, before
  or after, writes an argument of the program.
-/
import proofs.«410480_j64037962384023_3_alg».proof.Proof.Entry
import proofs.«410480_j64037962384023_3_alg».proof.Proof.Gen.KernelIdeal.Skeleton
import proofs.«410480_j64037962384023_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations around the region -/

/-- No host operation allocates. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the operations before the region, the region, and the operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the region touch only unscoped TensorCore buffers, -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- allocate nothing, -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- and write none of the region's nine arrays: each writes its own result buffer. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.reshape_writes, Finset.mem_singleton] <;> exact StableHlo.devRef_ne_of_ne (by decide)

/-! ## The body's accesses and what it leaves -/

abbrev rEdge : Rect S4000x128 := Rect.unit (s := S4000x128) ![0, 0] S4000x128.size inb_S4000x128_S4000x128_0_0
abbrev rWts : Rect S128x128 := Rect.unit (s := S128x128) ![0, 0] S128x128.size inb_S128x128_S128x128_0_0
abbrev rKv : Rect S4000x256 := Rect.unit (s := S4000x256) ![0, 0] S4000x256.size inb_S4000x256_S4000x256_0_0
abbrev rG : Rect S128x8 := Rect.unit (s := S128x8) ![0, 0] S128x8.size inb_S128x8_S128x8_0_0
abbrev rGb : Rect S8x128 := Rect.unit (s := S8x128) ![0, 0] S8x128.size inb_S8x128_S8x128_0_0
abbrev rHead : Rect S4000x8 := Rect.unit (s := S4000x8) ![0, 0] S4000x8.size inb_S4000x8_S4000x8_0_0

/-- The scores the body stores, from the blocks it read. -/
def scoreBlk (x0 : Vec F S4000x128 .f32) (x1 : Vec F S128x128 .bf16) (x2 : Vec F S4000x256 .bf16) (x3 : Vec F S4000x128 .bf16) :
    Vec F S4000x128 .f32 :=
  View.canon [⟨rEdge, k0_pay2 (View.ld x0 rEdge) (View.ld x1 rWts) (View.ld x2 rKv) (View.ld x3 rEdge)⟩]
/-- The messages. -/
def msgBlk (x0 : Vec F S4000x128 .f32) (x1 : Vec F S128x128 .bf16) (x2 : Vec F S4000x256 .bf16) (x3 : Vec F S4000x128 .bf16)
    (x4 : Vec F S128x8 .f32) (x5 : Vec F S8x128 .f32) : Vec F S4000x128 .f32 :=
  View.canon [⟨rEdge, k0_pay4 (View.ld x0 rEdge) (View.ld x1 rWts) (View.ld x2 rKv) (View.ld x3 rEdge) (View.ld x4 rG) (View.ld x5 rGb)⟩]
/-- The head weights. -/
def headBlk (x0 : Vec F S4000x128 .f32) (x1 : Vec F S128x128 .bf16) (x2 : Vec F S4000x256 .bf16) (x3 : Vec F S4000x128 .bf16)
    (x4 : Vec F S128x8 .f32) : Vec F S4000x8 .f32 :=
  View.canon [⟨rHead, k0_pay3 (View.ld x0 rEdge) (View.ld x1 rWts) (View.ld x2 rKv) (View.ld x3 rEdge) (View.ld x4 rG)⟩]

/-- One whole-buffer store covers the buffer. -/
theorem coverEdge (p : Vec F S4000x128 .f32) (y : S4000x128.Idx) :
    ∃ pc ∈ ([⟨rEdge, p⟩] : List (View.Piece (Elt F) S4000x128 .f32)), y ∈ pc.1.set :=
  View.cover_of_tiled [⟨rEdge, p⟩] S4000x128.size (by rfl) y
theorem coverHead (p : Vec F S4000x8 .f32) (y : S4000x8.Idx) :
    ∃ pc ∈ ([⟨rHead, p⟩] : List (View.Piece (Elt F) S4000x8 .f32)), y ∈ pc.1.set :=
  View.cover_of_tiled [⟨rHead, p⟩] S4000x8.size (by rfl) y

/-! ## The body's triple -/

set_option maxHeartbeats 4000000 in
/-- The body on whole staging buffers, the six it reads at contents `x0 … x5` and the three it writes at anything, runs to
    the continuation with the six as they were and the three at the scores, messages and head weights of `x0 … x5`. -/
theorem sound_kernel (c : Dev nD) (E : Set ℕ) (i : grid0.Coords)
    (arg1 : Memref sig .tc .vmem S4000x128 .f32) (harg1 : arg1.IsWhole) (arg2 : Memref sig .tc .vmem S128x128 .bf16) (harg2 : arg2.IsWhole)
    (arg3 : Memref sig .tc .vmem S4000x256 .bf16) (harg3 : arg3.IsWhole) (arg4 : Memref sig .tc .vmem S4000x128 .bf16) (harg4 : arg4.IsWhole)
    (arg5 : Memref sig .tc .vmem S128x8 .f32) (harg5 : arg5.IsWhole) (arg6 : Memref sig .tc .vmem S8x128 .f32) (harg6 : arg6.IsWhole)
    (arg7 : Memref sig .tc .vmem S4000x128 .f32) (harg7 : arg7.IsWhole) (arg8 : Memref sig .tc .vmem S4000x128 .f32) (harg8 : arg8.IsWhole)
    (arg9 : Memref sig .tc .vmem S4000x8 .f32) (harg9 : arg9.IsWhole)
    (x0 : Vec F S4000x128 .f32) (x1 : Vec F S128x128 .bf16) (x2 : Vec F S4000x256 .bf16) (x3 : Vec F S4000x128 .bf16)
    (x4 : Vec F S128x8 .f32) (x5 : Vec F S8x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (scoreBlk x0 x1 x2 x3) ∗ owns (c : Thread nD τ) arg8 fullShare (msgBlk x0 x1 x2 x3 x4 x5)
            ∗ owns (c : Thread nD τ) arg9 fullShare (headBlk x0 x1 x2 x3 x4)) -∗ K ⟨⟩))
      ⊢ wp frame (wpE (defs₀ (F := F)) Variants.none c none) E
          (cc0__fused_edge_kernel i arg1 harg1 arg2 harg2 arg3 harg3 arg4 harg4 arg5 harg5 arg6 harg6 arg7 harg7 arg8 harg8 arg9 harg9) K := by
  simp only [cc0__fused_edge_kernel_eq_skeleton]; unfold cc0__fused_edge_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%d6, %f6, -, H6⟩, ⟨%d7, %f7, -, H7⟩, ⟨%d8, %f8, -, H8⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (coverEdge _)
  isplitl [H7]
  · iexists _; isplitr
    swap; · iexact H7
    ipureintro
    exact View.read_writes_eq_canon _ _ _ (coverEdge _)
  iexists _; isplitr
  swap; · iexact H8
  ipureintro
  exact View.read_writes_eq_canon _ _ _ (coverHead _)

/-! ## The arguments through the host operations -/

/-- "No operation of this list writes this buffer", operation by operation: each operation writes its own result
    buffer, which is another reference. -/
local macro "no_host_write " l:ident : tactic => `(tactic| (
  refine List.forall_iff_forall_mem.mp ?_
  simp only [$l:ident, List.flatten_cons, List.flatten_nil, List.append_nil, List.cons_append, List.nil_append, List.Forall,
    StableHlo.nullary_writes, StableHlo.unary_writes, StableHlo.binary_writes, StableHlo.ternary_writes, StableHlo.nary_writes,
    StableHlo.reshape_writes, Finset.mem_singleton]
  repeat' apply And.intro
  all_goals exact StableHlo.devRef_ne_of_ne (by decide)))

/-- No host operation before the region writes an argument of the program: the region finds each as launched. -/
theorem V_main_arg0 (c : Dev nD) : V m c main_arg0 = m ((c : Thread nD τ).loc main_arg0) :=
  StableHlo.after_of_forall_not_mem (b := Proc.devRef .tc main_arg0) _ _ (by no_host_write hostOps0)
theorem V_main_arg1 (c : Dev nD) : V m c main_arg1 = m ((c : Thread nD τ).loc main_arg1) :=
  StableHlo.after_of_forall_not_mem (b := Proc.devRef .tc main_arg1) _ _ (by no_host_write hostOps0)
theorem V_main_arg2 (c : Dev nD) : V m c main_arg2 = m ((c : Thread nD τ).loc main_arg2) :=
  StableHlo.after_of_forall_not_mem (b := Proc.devRef .tc main_arg2) _ _ (by no_host_write hostOps0)
theorem V_main_arg3 (c : Dev nD) : V m c main_arg3 = m ((c : Thread nD τ).loc main_arg3) :=
  StableHlo.after_of_forall_not_mem (b := Proc.devRef .tc main_arg3) _ _ (by no_host_write hostOps0)
theorem V_main_arg4 (c : Dev nD) : V m c main_arg4 = m ((c : Thread nD τ).loc main_arg4) :=
  StableHlo.after_of_forall_not_mem (b := Proc.devRef .tc main_arg4) _ _ (by no_host_write hostOps0)
theorem V_main_arg5 (c : Dev nD) : V m c main_arg5 = m ((c : Thread nD τ).loc main_arg5) :=
  StableHlo.after_of_forall_not_mem (b := Proc.devRef .tc main_arg5) _ _ (by no_host_write hostOps0)
theorem V_main_arg6 (c : Dev nD) : V m c main_arg6 = m ((c : Thread nD τ).loc main_arg6) :=
  StableHlo.after_of_forall_not_mem (b := Proc.devRef .tc main_arg6) _ _ (by no_host_write hostOps0)
theorem V_main_arg7 (c : Dev nD) : V m c main_arg7 = m ((c : Thread nD τ).loc main_arg7) :=
  StableHlo.after_of_forall_not_mem (b := Proc.devRef .tc main_arg7) _ _ (by no_host_write hostOps0)

/-- A buffer that no operation after the region writes and no window stages ends at what the region found in it. -/
theorem tail_keeps_of (dats : (p : Fin 1) → (c : Dev nD) → Dat τ (Elt F) Unit ℕ (UR sig nD τ) ℕ (cfgs p) c) (c : Dev nD)
    (b : Ref sig .tc)
    (hw : ∀ op ∈ (List.flatten [hostOps1] : List (HloOp τ sig (Elt F))), Proc.devRef .tc b ∉ op.writes)
    (hb : ∀ w, Pipeline.arrRef spec0 w ≠ b) :
    Pipeline.afterTail₀ cfgs dats 0 (V0 m) [hostOps1] c b = V m c b := by
  unfold Pipeline.afterTail₀
  rw [StableHlo.after_of_forall_not_mem (b := Proc.devRef .tc b) _ _ hw, Pipeline.withArrays_of_ne _ c (V0 m c) _ b hb]

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The proof data -/

/-- On core `c`: the arrays as the region finds them; after the body at point `t` each operand's buffer still at its
    block and the three results' at the scores, messages and head weights of the six blocks; nothing owed, full shares,
    and of the rest of the core only what the region never touches. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => scoreBlk (iblk m c 0 t) (iblk m c 1 t) (iblk m c 2 t) (iblk m c 3 t)
    | ⟨7, _⟩ => msgBlk (iblk m c 0 t) (iblk m c 1 t) (iblk m c 2 t) (iblk m c 3 t) (iblk m c 4 t) (iblk m c 5 t)
    | ⟨8, _⟩ => headBlk (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) :
    (dats m 0 c).after 6 t = scoreBlk (iblk m c 0 t) (iblk m c 1 t) (iblk m c 2 t) (iblk m c 3 t) := by dsimp only [dats]
theorem after7 (c : Dev nD) (t : Fin cfg0.N) :
    (dats m 0 c).after 7 t = msgBlk (iblk m c 0 t) (iblk m c 1 t) (iblk m c 2 t) (iblk m c 3 t) (iblk m c 4 t) (iblk m c 5 t) := by
  dsimp only [dats]
theorem after8 (c : Dev nD) (t : Fin cfg0.N) :
    (dats m 0 c).after 8 t = headBlk (iblk m c 0 t) (iblk m c 1 t) (iblk m c 2 t) (iblk m c 3 t) (iblk m c 4 t) := by dsimp only [dats]

/-- An operand's staging buffer holds its block at every point, whether the point fetched it or the block index has not
    moved since the last fetch (the edge weights and the two tables are fetched once, at the first point). -/
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl)
    (fun t => by rw [after4]; unfold Dat.blockOf iblk; rw [A_eq]; try rfl) t d).trans
    (by unfold Dat.fetched Dat.blockOf iblk; rw [A_eq]; try rfl)
theorem before5 (c : Dev nD) (t : Fin cfg0.N) (d) : (dats m 0 c).before 5 t d = iblk m c 5 t :=
  ((dats m 0 c).before_in_eq_fetched 5 rfl (fun _ => rfl) (fun _ _ _ => rfl)
    (fun t => by rw [after5]; unfold Dat.blockOf iblk; rw [A_eq]; try rfl) t d).trans
    (by unfold Dat.fetched Dat.blockOf iblk; rw [A_eq]; try rfl)

/-! ## The body obligation -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 2000000 in
/-- The body at any point: the operands' buffers hold their blocks, so the triple applies; the rest of the core and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6, after7, after8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates without a fault, each of the region's arrays ending at what the
    proof data compute for it and every other unscoped buffer as the operations after the region leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-- From the library's post of the run, every argument of the program ends as launched. The edge rows are an array the
    region stages and only reads; the other seven arguments no window stages and no host operation writes. -/
theorem kept_of_post (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨((h c).2 main_arg0 (Pipeline.mem_restRefs_of main_arg0 (by decide) (by decide))).trans
      ((tail_keeps_of m (dats m) c main_arg0 (by no_host_write hostOps1) (by decide)).trans (V_main_arg0 m c)),
    ((h c).1 0).trans (((dats m 0 c).arrAt_in 0 rfl _).trans ((A_eq m c 0).trans (V_main_arg1 m c))),
    ((h c).2 main_arg2 (Pipeline.mem_restRefs_of main_arg2 (by decide) (by decide))).trans
      ((tail_keeps_of m (dats m) c main_arg2 (by no_host_write hostOps1) (by decide)).trans (V_main_arg2 m c)),
    ((h c).2 main_arg3 (Pipeline.mem_restRefs_of main_arg3 (by decide) (by decide))).trans
      ((tail_keeps_of m (dats m) c main_arg3 (by no_host_write hostOps1) (by decide)).trans (V_main_arg3 m c)),
    ((h c).2 main_arg4 (Pipeline.mem_restRefs_of main_arg4 (by decide) (by decide))).trans
      ((tail_keeps_of m (dats m) c main_arg4 (by no_host_write hostOps1) (by decide)).trans (V_main_arg4 m c)),
    ((h c).2 main_arg5 (Pipeline.mem_restRefs_of main_arg5 (by decide) (by decide))).trans
      ((tail_keeps_of m (dats m) c main_arg5 (by no_host_write hostOps1) (by decide)).trans (V_main_arg5 m c)),
    ((h c).2 main_arg6 (Pipeline.mem_restRefs_of main_arg6 (by decide) (by decide))).trans
      ((tail_keeps_of m (dats m) c main_arg6 (by no_host_write hostOps1) (by decide)).trans (V_main_arg6 m c)),
    ((h c).2 main_arg7 (Pipeline.mem_restRefs_of main_arg7 (by decide) (by decide))).trans
      ((tail_keeps_of m (dats m) c main_arg7 (by no_host_write hostOps1) (by decide)).trans (V_main_arg7 m c))⟩

/-- A result buffer of the host operations after the region ends at what those operations leave in it. -/
theorem result_of_post (r : PUnit × MemSt nD τ sig (Elt F))
    (h : Pipeline.FramePost cfgs (dats m) 0 (Pipeline.afterTail₀ cfgs (dats m) 0 (V0 m) [hostOps1]) r) (c : Dev nD)
    (b : Ref sig .tc) (hb : b ∈ Pipeline.restRefs sig spec0) :
    r.2.mem ((c.tc : Thread nD τ).loc b) = Pipeline.afterTail₀ cfgs (dats m) 0 (V0 m) [hostOps1] c b :=
  (h c).2 b hb

/-- The frame: every weakly fair execution of @main terminates without a fault and every argument ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => kept_of_post m r h c) (run_main m ρ)

end Cert.KernelIdeal.Hand

end
-- ==== Proof.Spec.lean ====
/-
  Edge attention over a graph, as both programs compute it on the extended reals.

  Nodes carry feature rows, edges carry feature rows and two endpoints. Every node row is projected three ways
  (query, key, value), every edge row once. On edge `e` and lane `k` the key at the edge's source times the query at
  its destination, scaled and clamped to [lo, hi], times the edge's own projection, is the edge's SCORE. The 128 lanes
  are 8 heads of 16: a head's WEIGHT on an edge is the exponential of its clamped lane sum, and the edge's MESSAGE on a
  lane is the source's value there times the weight of that lane's head. A node's output on a lane is the sum of the
  messages of the edges that arrive at it over the sum of their weights plus a small constant.

  The endpoints come as three arrays of 32-bit words, opaque here: the row each edge gathers from (`si`, `di`: read
  signed and clamped into the node range, as a gather clamps its start) and the row each edge's message is added into
  (`dr`: read signed, an edge whose word names no node adds nothing).
-/
import Idealize.ShloMosaic.PureOps.Ideal
import Idealize.ShloMosaic.Lib.ValueIdx

noncomputable section

open scoped BigOperators

namespace Cert.EdgeAttention

open Idealize.ShloMosaic Idealize.ShloMosaic.ValueIdx

/-- A matrix of extended reals. -/
abbrev Mat (a b : Nat) : Type := (⟨2, ![a, b]⟩ : Shape).Idx → EReal
/-- One 32-bit word per edge, as a column. -/
abbrev Col : Type := IVec (⟨2, ![800000, 1]⟩ : Shape) 32

/-- The scale 1/4, the clamp's bounds -5 and 5 and the denominator's constant, each by the word both programs print. -/
def quarter : EReal := Ideal.ofBits .f32 0x3E800000#32
def lo : EReal := Ideal.ofBits .f32 0xC0A00000#32
def hi : EReal := Ideal.ofBits .f32 0x40A00000#32
def eps : EReal := Ideal.ofBits .f32 0x358637BD#32

/-- Clamp into [lo, hi]. -/
def clip (x : EReal) : EReal := min hi (max lo x)

/-- Row `i` of `x` against column `k` of `W`. -/
def proj {n : Nat} (x : Mat n 128) (W : Mat 128 128) (i : Fin n) (k : Fin 128) : EReal :=
  ∑ j : Fin 128, x (ix2 i j) * W (ix2 j k)

/-- The node row edge `e` gathers from: its word read signed, clamped into the node range. -/
def row (idx : Col) (e : Fin 800000) : Fin 50000 :=
  ⟨min (idx (ix2 e 0)).toInt.toNat 49999, by omega⟩

/-- Lane `d` of head `h`, and the head of lane `k`. -/
def lane (h : Fin 8) (d : Fin 16) : Fin 128 := ⟨16 * h.val + d.val, by omega⟩
def headOf (k : Fin 128) : Fin 8 := ⟨k.val / 16, by omega⟩

section
variable (nf : Mat 50000 128) (ef : Mat 800000 128) (Wq Wk Wv We : Mat 128 128) (si di dr : Col)

/-- The score of edge `e` on lane `k`. -/
def score (e : Fin 800000) (k : Fin 128) : EReal :=
  clip (proj nf Wk (row si e) k * proj nf Wq (row di e) k * quarter) * proj ef We e k

/-- The weight of head `h` on edge `e`. -/
def weight (e : Fin 800000) (h : Fin 8) : EReal :=
  Ideal.exp (clip (∑ d : Fin 16, score nf ef Wq Wk We si di e (lane h d)))

/-- The message of edge `e` on lane `k`. -/
def msg (e : Fin 800000) (k : Fin 128) : EReal :=
  proj nf Wv (row si e) k * weight nf ef Wq Wk We si di e (headOf k)

/-- The edges whose message is added into node `n`. -/
def into (n : Fin 50000) : Finset (Fin 800000) :=
  Finset.univ.filter fun e => (dr (ix2 e 0)).toInt = (n.val : Int)

/-- Node `n`'s output on lane `k`. -/
def node (n : Fin 50000) (k : Fin 128) : EReal :=
  Ideal.div (∑ e ∈ into dr n, msg nf ef Wq Wk Wv We si di e k)
    ((∑ e ∈ into dr n, weight nf ef Wq Wk We si di e (headOf k)) + eps)

/-- The two results, heads and lanes apart. -/
def nodeOut : (⟨3, ![50000, 8, 16]⟩ : Shape).Idx → EReal :=
  fun i => node nf ef Wq Wk Wv We si di dr (i 0) (lane (i 1) (i 2))
def edgeOut : (⟨3, ![800000, 8, 16]⟩ : Shape).Idx → EReal :=
  fun i => score nf ef Wq Wk We si di (i 0) (lane (i 1) (i 2))

end

end Cert.EdgeAttention

end
-- ==== Proof.ArrayFns.lean ====
/-
  The region's three result arrays as functions of its six operand arrays, row by row: an edge's scores from its own
  feature row, the edge weights and its gathered key and query rows; its head weights from its scores and the 128 × 8
  grouping table; its messages from its gathered value row, its head weights and the 8 × 128 table.
-/
import proofs.«410480_j64037962384023_3_alg».proof.KernelIdeal
import proofs.«410480_j64037962384023_3_alg».proof.Proof.Spec

noncomputable section

open scoped BigOperators

namespace Cert.KernelIdeal.Arrays

open Idealize.ShloMosaic Idealize.ShloMosaic.ValueIdx Cert.KernelIdeal Cert.EdgeAttention

section
variable (EF : S800000x128.Idx → EReal) (WE : S128x128.Idx → EReal) (KV : S800000x256.Idx → EReal)
  (QD : S800000x128.Idx → EReal) (G : S128x8.Idx → EReal) (Gb : S8x128.Idx → EReal)

/-- The score of edge `e` on lane `k`: key lane times query lane, scaled, clamped, times the edge's projection. -/
def scoreAt (e : Fin 800000) (k : Fin 128) : EReal :=
  clip (KV (ix2 e (Fin.castLE (by omega) k)) * QD (ix2 e k) * quarter) * ∑ j : Fin 128, EF (ix2 e j) * WE (ix2 j k)

/-- The weight of head `h` on edge `e`: the exponential of the clamped sum of the scores against column `h` of the table. -/
def headAt (e : Fin 800000) (h : Fin 8) : EReal :=
  Ideal.exp (clip (∑ k : Fin 128, scoreAt EF WE KV QD e k * G (ix2 k h)))

/-- The message of edge `e` on lane `k`: the value lane times the head weights against column `k` of the second table. -/
def msgAt (e : Fin 800000) (k : Fin 128) : EReal :=
  KV (ix2 e ⟨128 + k.val, by omega⟩) * ∑ h : Fin 8, headAt EF WE KV QD G e h * Gb (ix2 h k)

/-- The same as arrays. -/
def scoreArr : S800000x128.Idx → EReal := fun i => scoreAt EF WE KV QD (i 0) (i 1)
def headArr : S800000x8.Idx → EReal := fun i => headAt EF WE KV QD G (i 0) (i 1)
def msgArr : S800000x128.Idx → EReal := fun i => msgAt EF WE KV QD G Gb (i 0) (i 1)

end

end Cert.KernelIdeal.Arrays

end
-- ==== Proof.BodyValue.lean ====
/-
  The kernel body's three computed blocks read at one element, on the extended reals.

  The body holds one block of 4000 edges. From the edge rows `v0` and the edge weights `v2` it forms the edges' own
  projection (a matrix product into a zero accumulator: the plain sum of products); from the source block `v5` (key lanes
  0–127, value lanes 128–255) and the destination's query `v10` it forms key times query, scaled by a quarter and
  clamped, and multiplies the two: the SCORE block. The score block against the 0/1 lane-to-head table `v21` gives each
  head's lane sum; clamped and exponentiated that is the WEIGHT block. The weight block against the head-to-lane table
  `v28` puts each lane's head weight back on the lane, and times the source's value lane that is the MESSAGE block.
  A change of float format is the identity on the extended reals, and a shape cast to the same shape is the identity.
-/
import proofs.«410480_j64037962384023_3_alg».proof.Proof.Gen.KernelIdeal.Skeleton
import proofs.«410480_j64037962384023_3_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.KernelIdeal.BodyValue

open Idealize.ShloMosaic Idealize.ShloMosaic.ValueIdx Cert.KernelIdeal Cert.KernelIdeal.Gen Cert.EdgeAttention

variable [Cert.KernelIdeal.Facts]

/-! ## The three contractions' operand indices, axis by axis -/

/-- Edge rows against edge weights: the left operand's row is the output's row. -/
theorem lhs_ew_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
/-- Its column is the summed coordinate. -/
theorem lhs_ew_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
/-- The right operand's row is the summed coordinate. -/
theorem rhs_ew_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
/-- Its column is the output's column. -/
theorem rhs_ew_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- Scores against the lane-to-head table: the left operand's row is the output's row. -/
theorem lhs_lh_0 (i : S4000x8.Idx) (q : dot_S4000x128_S128x8_S4000x8_1_0_0_1_n_n.contr.Idx) :
    (dot_S4000x128_S128x8_S4000x8_1_0_0_1_n_n.lhsIdx i q 0).val = (i 0).val := by
  unfold DotDims.lhsIdx
  rw [dif_neg (show ¬(0 : Fin S4000x128.rank) ∈ dot_S4000x128_S128x8_S4000x8_1_0_0_1_n_n.lhsBatch by decide), dif_pos (show (0 : Fin S4000x128.rank) ∈ dot_S4000x128_S128x8_S4000x8_1_0_0_1_n_n.lhsNonContracting by decide)]
  rfl
theorem lhs_lh_1 (i : S4000x8.Idx) (q : dot_S4000x128_S128x8_S4000x8_1_0_0_1_n_n.contr.Idx) :
    (dot_S4000x128_S128x8_S4000x8_1_0_0_1_n_n.lhsIdx i q 1).val = (q ⟨0, by decide⟩).val :=
  dot_S4000x128_S128x8_S4000x8_1_0_0_1_n_n.lhsIdx_val_of_single rfl i q
theorem rhs_lh_0 (i : S4000x8.Idx) (q : dot_S4000x128_S128x8_S4000x8_1_0_0_1_n_n.contr.Idx) :
    (dot_S4000x128_S128x8_S4000x8_1_0_0_1_n_n.rhsIdx i q 0).val = (q ⟨0, by decide⟩).val :=
  dot_S4000x128_S128x8_S4000x8_1_0_0_1_n_n.rhsIdx_val_of_single rfl i q
theorem rhs_lh_1 (i : S4000x8.Idx) (q : dot_S4000x128_S128x8_S4000x8_1_0_0_1_n_n.contr.Idx) :
    (dot_S4000x128_S128x8_S4000x8_1_0_0_1_n_n.rhsIdx i q 1).val = (i 1).val := by
  unfold DotDims.rhsIdx
  rw [dif_neg (show ¬(1 : Fin S128x8.rank) ∈ dot_S4000x128_S128x8_S4000x8_1_0_0_1_n_n.rhsBatch by decide), dif_pos (show (1 : Fin S128x8.rank) ∈ dot_S4000x128_S128x8_S4000x8_1_0_0_1_n_n.rhsNonContracting by decide)]
  rfl

/-- Weights against the head-to-lane table: the left operand's row is the output's row. -/
theorem lhs_hl_0 (i : S4000x128.Idx) (q : dot_S4000x8_S8x128_S4000x128_1_0_0_1_n_n.contr.Idx) :
    (dot_S4000x8_S8x128_S4000x128_1_0_0_1_n_n.lhsIdx i q 0).val = (i 0).val := by
  unfold DotDims.lhsIdx
  rw [dif_neg (show ¬(0 : Fin S4000x8.rank) ∈ dot_S4000x8_S8x128_S4000x128_1_0_0_1_n_n.lhsBatch by decide), dif_pos (show (0 : Fin S4000x8.rank) ∈ dot_S4000x8_S8x128_S4000x128_1_0_0_1_n_n.lhsNonContracting by decide)]
  rfl
theorem lhs_hl_1 (i : S4000x128.Idx) (q : dot_S4000x8_S8x128_S4000x128_1_0_0_1_n_n.contr.Idx) :
    (dot_S4000x8_S8x128_S4000x128_1_0_0_1_n_n.lhsIdx i q 1).val = (q ⟨0, by decide⟩).val :=
  dot_S4000x8_S8x128_S4000x128_1_0_0_1_n_n.lhsIdx_val_of_single rfl i q
theorem rhs_hl_0 (i : S4000x128.Idx) (q : dot_S4000x8_S8x128_S4000x128_1_0_0_1_n_n.contr.Idx) :
    (dot_S4000x8_S8x128_S4000x128_1_0_0_1_n_n.rhsIdx i q 0).val = (q ⟨0, by decide⟩).val :=
  dot_S4000x8_S8x128_S4000x128_1_0_0_1_n_n.rhsIdx_val_of_single rfl i q
theorem rhs_hl_1 (i : S4000x128.Idx) (q : dot_S4000x8_S8x128_S4000x128_1_0_0_1_n_n.contr.Idx) :
    (dot_S4000x8_S8x128_S4000x128_1_0_0_1_n_n.rhsIdx i q 1).val = (i 1).val := by
  unfold DotDims.rhsIdx
  rw [dif_neg (show ¬(1 : Fin S8x128.rank) ∈ dot_S4000x8_S8x128_S4000x128_1_0_0_1_n_n.rhsBatch by decide), dif_pos (show (1 : Fin S8x128.rank) ∈ dot_S4000x8_S8x128_S4000x128_1_0_0_1_n_n.rhsNonContracting by decide)]
  rfl

/-! ## Each matrix product into the zero accumulator, at an element: the plain sum of products -/

theorem mm_ew_apply (prec : Option ContractPrecision) (a : FVec Ideal S4000x128 .bf16) (b : FVec Ideal S128x128 .bf16)
    (r : Fin 4000) (k : Fin 128) :
    matmul dot_S4000x128_S128x128_S4000x128_1_0_0_1_n_n prec a b (constant (F := Ideal) S4000x128 .f32 0x00000000#32) (ix2 r k)
      = ∑ j : Fin 128, a (ix2 r j) * b (ix2 j k) := by
  refine (Ideal.matmul_constant_zero_apply dot_S4000x128_S128x128_S4000x128_1_0_0_1_n_n prec a b (ix2 r k)).trans ?_
  rw [← Equiv.sum_comp (contrEquiv1 dot_S4000x128_S128x128_S4000x128_1_0_0_1_n_n 128 rfl rfl).symm]
  refine Finset.sum_congr rfl fun j _ => ?_
  have hk := contrEquiv1_symm_val dot_S4000x128_S128x128_S4000x128_1_0_0_1_n_n 128 rfl rfl j
  have el : dot_S4000x128_S128x128_S4000x128_1_0_0_1_n_n.lhsIdx (ix2 r k) ((contrEquiv1 dot_S4000x128_S128x128_S4000x128_1_0_0_1_n_n 128 rfl rfl).symm j) = ix2 r j := funext fun a => Fin.ext (by
    match a with
    | ⟨0, _⟩ => exact lhs_ew_0 _ _
    | ⟨1, _⟩ => exact (lhs_ew_1 _ _).trans hk)
  have er : dot_S4000x128_S128x128_S4000x128_1_0_0_1_n_n.rhsIdx (ix2 r k) ((contrEquiv1 dot_S4000x128_S128x128_S4000x128_1_0_0_1_n_n 128 rfl rfl).symm j) = ix2 j k := funext fun a => Fin.ext (by
    match a with
    | ⟨0, _⟩ => exact (rhs_ew_0 _ _).trans hk
    | ⟨1, _⟩ => exact rhs_ew_1 _ _)
  rw [el, er]

theorem mm_lh_apply (prec : Option ContractPrecision) (a : FVec Ideal S4000x128 .f32) (b : FVec Ideal S128x8 .f32)
    (r : Fin 4000) (h : Fin 8) :
    matmul dot_S4000x128_S128x8_S4000x8_1_0_0_1_n_n prec a b (constant (F := Ideal) S4000x8 .f32 0x00000000#32) (ix2 r h)
      = ∑ k : Fin 128, a (ix2 r k) * b (ix2 k h) := by
  refine (Ideal.matmul_constant_zero_apply dot_S4000x128_S128x8_S4000x8_1_0_0_1_n_n prec a b (ix2 r h)).trans ?_
  rw [← Equiv.sum_comp (contrEquiv1 dot_S4000x128_S128x8_S4000x8_1_0_0_1_n_n 128 rfl rfl).symm]
  refine Finset.sum_congr rfl fun k _ => ?_
  have hk := contrEquiv1_symm_val dot_S4000x128_S128x8_S4000x8_1_0_0_1_n_n 128 rfl rfl k
  have el : dot_S4000x128_S128x8_S4000x8_1_0_0_1_n_n.lhsIdx (ix2 r h) ((contrEquiv1 dot_S4000x128_S128x8_S4000x8_1_0_0_1_n_n 128 rfl rfl).symm k) = ix2 r k := funext fun a => Fin.ext (by
    match a with
    | ⟨0, _⟩ => exact lhs_lh_0 _ _
    | ⟨1, _⟩ => exact (lhs_lh_1 _ _).trans hk)
  have er : dot_S4000x128_S128x8_S4000x8_1_0_0_1_n_n.rhsIdx (ix2 r h) ((contrEquiv1 dot_S4000x128_S128x8_S4000x8_1_0_0_1_n_n 128 rfl rfl).symm k) = ix2 k h := funext fun a => Fin.ext (by
    match a with
    | ⟨0, _⟩ => exact (rhs_lh_0 _ _).trans hk
    | ⟨1, _⟩ => exact rhs_lh_1 _ _)
  rw [el, er]

theorem mm_hl_apply (prec : Option ContractPrecision) (a : FVec Ideal S4000x8 .f32) (b : FVec Ideal S8x128 .f32)
    (r : Fin 4000) (k : Fin 128) :
    matmul dot_S4000x8_S8x128_S4000x128_1_0_0_1_n_n prec a b (constant (F := Ideal) S4000x128 .f32 0x00000000#32) (ix2 r k)
      = ∑ h : Fin 8, a (ix2 r h) * b (ix2 h k) := by
  refine (Ideal.matmul_constant_zero_apply dot_S4000x8_S8x128_S4000x128_1_0_0_1_n_n prec a b (ix2 r k)).trans ?_
  rw [← Equiv.sum_comp (contrEquiv1 dot_S4000x8_S8x128_S4000x128_1_0_0_1_n_n 8 rfl rfl).symm]
  refine Finset.sum_congr rfl fun h _ => ?_
  have hk := contrEquiv1_symm_val dot_S4000x8_S8x128_S4000x128_1_0_0_1_n_n 8 rfl rfl h
  have el : dot_S4000x8_S8x128_S4000x128_1_0_0_1_n_n.lhsIdx (ix2 r k) ((contrEquiv1 dot_S4000x8_S8x128_S4000x128_1_0_0_1_n_n 8 rfl rfl).symm h) = ix2 r h := funext fun a => Fin.ext (by
    match a with
    | ⟨0, _⟩ => exact lhs_hl_0 _ _
    | ⟨1, _⟩ => exact (lhs_hl_1 _ _).trans hk)
  have er : dot_S4000x8_S8x128_S4000x128_1_0_0_1_n_n.rhsIdx (ix2 r k) ((contrEquiv1 dot_S4000x8_S8x128_S4000x128_1_0_0_1_n_n 8 rfl rfl).symm h) = ix2 h k := funext fun a => Fin.ext (by
    match a with
    | ⟨0, _⟩ => exact (rhs_hl_0 _ _).trans hk
    | ⟨1, _⟩ => exact rhs_hl_1 _ _)
  rw [el, er]

/-! ## The source block widened: the identity -/

theorem pay1_apply (v5 : Vec Ideal S4000x256 .bf16) (j : S4000x256.Idx) : k0_pay1 v5 j = v5 j := by
  unfold k0_pay1
  simp only [shapeCast_self]
  rfl

/-- The key lanes of the widened source block. -/
theorem keySlice_apply (v5 : Vec Ideal S4000x256 .bf16) (r : Fin 4000) (k : Fin 128) :
    extractStridedSlice S4000x128 ![0, 0] (k0_pay1 v5) Facts₀.slices_S4000x256_o0_0_S4000x128 (ix2 r k)
      = v5 (ix2 r (Fin.castLE (by omega) k)) := by
  have hle : (128 : Nat) ≤ 256 := by omega
  have e := extractStridedSlice_apply ![0, 0] (k0_pay1 v5) Facts₀.slices_S4000x256_o0_0_S4000x128 (ix2 r k)
    (ix2 r (Fin.castLE hle k)) (fun a => by
      match a with
      | ⟨0, _⟩ => show r.val = 0 + r.val; omega
      | ⟨1, _⟩ => show k.val = 0 + k.val; omega)
  exact e.trans (pay1_apply v5 _)

/-- The value lanes of the widened source block. -/
theorem valSlice_apply (v5 : Vec Ideal S4000x256 .bf16) (r : Fin 4000) (k : Fin 128) :
    extractStridedSlice S4000x128 ![0, 128] (k0_pay1 v5) Facts₀.slices_S4000x256_o0_128_S4000x128 (ix2 r k)
      = v5 (ix2 r ⟨128 + k.val, by omega⟩) := by
  have e := extractStridedSlice_apply ![0, 128] (k0_pay1 v5) Facts₀.slices_S4000x256_o0_128_S4000x128 (ix2 r k)
    (ix2 r ⟨128 + k.val, by omega⟩) (fun a => by
      match a with
      | ⟨0, _⟩ => show r.val = 0 + r.val; omega
      | ⟨1, _⟩ => show 128 + k.val = 128 + k.val; rfl)
  exact e.trans (pay1_apply v5 _)

/-! ## The three blocks at an element -/

/-- The exponential of a block, at an element. -/
theorem exp_apply {s : Shape} {φ : FTy} (a : FVec Ideal s φ) (i : s.Idx) : Idealize.ShloMosaic.exp a i = Ideal.exp (a i) := rfl

/-- The score block: key times query, scaled and clamped, times the edge's own projection. -/
theorem pay2_apply (v0 : Vec Ideal S4000x128 .f32) (v2 : Vec Ideal S128x128 .bf16) (v5 : Vec Ideal S4000x256 .bf16)
    (v10 : Vec Ideal S4000x128 .bf16) (r : Fin 4000) (k : Fin 128) :
    k0_pay2 v0 v2 v5 v10 (ix2 r k)
      = clip (v5 (ix2 r (Fin.castLE (by omega) k)) * v10 (ix2 r k) * quarter) * ∑ j : Fin 128, v0 (ix2 r j) * v2 (ix2 j k) := by
  unfold k0_pay2
  simp only [mulf_apply, minimumf_apply, maximumf_apply, broadcast_apply, shapeCast_self, keySlice_apply, mm_ew_apply]
  rfl

/-- The weight block: the exponential of the clamped sum of a row's scores against a column of the lane-to-head table. -/
theorem pay3_apply (v0 : Vec Ideal S4000x128 .f32) (v2 : Vec Ideal S128x128 .bf16) (v5 : Vec Ideal S4000x256 .bf16)
    (v10 : Vec Ideal S4000x128 .bf16) (v21 : Vec Ideal S128x8 .f32) (r : Fin 4000) (h : Fin 8) :
    k0_pay3 v0 v2 v5 v10 v21 (ix2 r h)
      = Ideal.exp (clip (∑ k : Fin 128, k0_pay2 v0 v2 v5 v10 (ix2 r k) * v21 (ix2 k h))) := by
  unfold k0_pay3
  simp only [exp_apply, minimumf_apply, maximumf_apply, broadcast_apply, mm_lh_apply]
  rfl

/-- The message block: the source's value lane times the row's weights against a column of the head-to-lane table. -/
theorem pay4_apply (v0 : Vec Ideal S4000x128 .f32) (v2 : Vec Ideal S128x128 .bf16) (v5 : Vec Ideal S4000x256 .bf16)
    (v10 : Vec Ideal S4000x128 .bf16) (v21 : Vec Ideal S128x8 .f32) (v28 : Vec Ideal S8x128 .f32) (r : Fin 4000) (k : Fin 128) :
    k0_pay4 v0 v2 v5 v10 v21 v28 (ix2 r k)
      = v5 (ix2 r ⟨128 + k.val, by omega⟩) * ∑ h : Fin 8, k0_pay3 v0 v2 v5 v10 v21 (ix2 r h) * v28 (ix2 h k) := by
  unfold k0_pay4
  simp only [mulf_apply, valSlice_apply, mm_hl_apply]

end Cert.KernelIdeal.BodyValue

end
-- ==== Proof.KernelArrays.lean ====
/-
  What the region leaves in its three result arrays. Grid point `t` hands the body rows `4000·t … 4000·t + 3999` of the
  edge rows, of the gathered key|value rows and of the gathered query rows, and the edge weights and the two grouping
  tables whole; the body's scores, head weights and messages of those 4000 rows are, row by row, one function of the six
  operand arrays; point `t` writes them back to the same rows of the result arrays, and the 200 points' blocks cover the
  800000 rows. So each result array ends at that function of the operand arrays as the region finds them.
-/
import proofs.«410480_j64037962384023_3_alg».proof.Proof.Frame
import proofs.«410480_j64037962384023_3_alg».proof.Proof.ArrayFns
import proofs.«410480_j64037962384023_3_alg».proof.Proof.BodyValue
import Idealize.ShloMosaic.Lib.Pipeline.Value
import Idealize.ShloMosaic.Lib.ValueIdx

noncomputable section

open scoped BigOperators

namespace Cert.KernelIdeal.Arrays

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand Cert.KernelIdeal.BodyValue Cert.EdgeAttention

/-! ## One point's block of rows, as a function of the operand arrays -/

section Point
variable (EF : S800000x128.Idx → EReal) (WE : S128x128.Idx → EReal) (KV : S800000x256.Idx → EReal)
  (QD : S800000x128.Idx → EReal) (G : S128x8.Idx → EReal) (Gb : S8x128.Idx → EReal)
variable (x0 : Vec Ideal S4000x128 .f32) (x1 : Vec Ideal S128x128 .bf16) (x2 : Vec Ideal S4000x256 .bf16)
  (x3 : Vec Ideal S4000x128 .bf16) (x4 : Vec Ideal S128x8 .f32) (x5 : Vec Ideal S8x128 .f32)
variable (row : Fin 4000 → Fin 800000)

/-- If the four blocks the scores read are the rows `row r` of the edge rows, of the key|value rows and of the query
    rows, and the edge weights whole, the body's score at row `r` of the block is the score of edge `row r`. -/
theorem score_point (h0 : ∀ (r : Fin 4000) (k : Fin 128), x0 (ix2 r k) = EF (ix2 (row r) k))
    (h1 : ∀ (j k : Fin 128), x1 (ix2 j k) = WE (ix2 j k))
    (h2 : ∀ (r : Fin 4000) (k : Fin 256), x2 (ix2 r k) = KV (ix2 (row r) k))
    (h3 : ∀ (r : Fin 4000) (k : Fin 128), x3 (ix2 r k) = QD (ix2 (row r) k))
    (r : Fin 4000) (k : Fin 128) :
    k0_pay2 x0 x1 x2 x3 (ix2 r k) = scoreAt EF WE KV QD (row r) k := by
  rw [pay2_apply]
  unfold scoreAt
  rw [h2, h3]
  congr 1
  exact Finset.sum_congr rfl fun j _ => by rw [h0, h1]

/-- Likewise the head weights, with the lane-to-head table whole. -/
theorem head_point (h0 : ∀ (r : Fin 4000) (k : Fin 128), x0 (ix2 r k) = EF (ix2 (row r) k))
    (h1 : ∀ (j k : Fin 128), x1 (ix2 j k) = WE (ix2 j k))
    (h2 : ∀ (r : Fin 4000) (k : Fin 256), x2 (ix2 r k) = KV (ix2 (row r) k))
    (h3 : ∀ (r : Fin 4000) (k : Fin 128), x3 (ix2 r k) = QD (ix2 (row r) k))
    (h4 : ∀ (k : Fin 128) (h : Fin 8), x4 (ix2 k h) = G (ix2 k h))
    (r : Fin 4000) (h : Fin 8) :
    k0_pay3 x0 x1 x2 x3 x4 (ix2 r h) = headAt EF WE KV QD G (row r) h := by
  rw [pay3_apply]
  unfold headAt
  congr 2
  exact Finset.sum_congr rfl fun k _ => by rw [score_point EF WE KV QD x0 x1 x2 x3 row h0 h1 h2 h3, h4]

/-- Likewise the messages, with the head-to-lane table whole. -/
theorem msg_point (h0 : ∀ (r : Fin 4000) (k : Fin 128), x0 (ix2 r k) = EF (ix2 (row r) k))
    (h1 : ∀ (j k : Fin 128), x1 (ix2 j k) = WE (ix2 j k))
    (h2 : ∀ (r : Fin 4000) (k : Fin 256), x2 (ix2 r k) = KV (ix2 (row r) k))
    (h3 : ∀ (r : Fin 4000) (k : Fin 128), x3 (ix2 r k) = QD (ix2 (row r) k))
    (h4 : ∀ (k : Fin 128) (h : Fin 8), x4 (ix2 k h) = G (ix2 k h))
    (h5 : ∀ (h : Fin 8) (k : Fin 128), x5 (ix2 h k) = Gb (ix2 h k))
    (r : Fin 4000) (k : Fin 128) :
    k0_pay4 x0 x1 x2 x3 x4 x5 (ix2 r k) = msgAt EF WE KV QD G Gb (row r) k := by
  rw [pay4_apply]
  unfold msgAt
  rw [h2]
  congr 1
  exact Finset.sum_congr rfl fun h _ => by rw [head_point EF WE KV QD G x0 x1 x2 x3 x4 row h0 h1 h2 h3 h4, h5]

end Point

/-! ## The windows' blocks as rows of their arrays -/

variable (m : (ℓ : Loc nD τ sig) → Buf (Elt Ideal) ℓ)

theorem hz : (![0, 0] : Fin 2 → Nat) = fun _ => 0 := funext fun a => by fin_cases a <;> rfl

/-- The printed index maps, decided over the 200 grid points: the three row-blocked operands and the three results are at
    block `(t, 0)`, the edge weights and the two tables at block `(0, 0)`. -/
theorem idx_rows : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0) :=
  (by decide +kernel : ∀ t : Fin grid0.N, _)

theorem point_lt (t : Fin cfg0.N) : t.val < 200 := lt_of_lt_of_eq t.isLt N_0

/-- Row `r` of point `t`'s block of rows is row `4000·t + r` of the array. -/
def rowOf (t : Fin cfg0.N) (r : Fin 4000) : Fin 800000 :=
  ⟨4000 * t.val + r.val, by have := point_lt t; omega⟩

/-- Point `t`'s block of the edge rows. -/
theorem edge_rows (c : Dev nD) (t : Fin cfg0.N) (r : Fin 4000) (k : Fin 128) :
    (iblk m c 0 t : Vec Ideal S4000x128 .f32) (ix2 r k) = (V m c main_arg1 : S800000x128.Idx → EReal) (ix2 (rowOf t r) k) := by
  obtain ⟨⟨e0, e1⟩, -⟩ := idx_rows t
  unfold iblk
  rw [View.read_apply]
  show V m c main_arg1 _ = V m c main_arg1 _
  congr 1
  funext a; apply Fin.ext
  match a with
  | ⟨0, _⟩ => show win0_0.index t (0 : Fin 2) * 4000 + 1 * r.val = 4000 * t.val + r.val; omega
  | ⟨1, _⟩ => show win0_0.index t (1 : Fin 2) * 128 + 1 * k.val = k.val; omega

/-- The edge weights' one block is the array. -/
theorem weight_rows (c : Dev nD) (t : Fin cfg0.N) (r : Fin 128) (k : Fin 128) :
    (iblk m c 1 t : Vec Ideal S128x128 .bf16) (ix2 r k) = (V m c main_v22 : S128x128.Idx → EReal) (ix2 r k) := by
  obtain ⟨-, ⟨e0, e1⟩, -⟩ := idx_rows t
  unfold iblk
  rw [View.read_apply]
  show V m c main_v22 _ = V m c main_v22 _
  congr 1
  funext a; apply Fin.ext
  match a with
  | ⟨0, _⟩ => show win0_1.index t (0 : Fin 2) * 128 + 1 * r.val = r.val; omega
  | ⟨1, _⟩ => show win0_1.index t (1 : Fin 2) * 128 + 1 * k.val = k.val; omega

/-- Point `t`'s block of the gathered key|value rows. -/
theorem kv_rows (c : Dev nD) (t : Fin cfg0.N) (r : Fin 4000) (k : Fin 256) :
    (iblk m c 2 t : Vec Ideal S4000x256 .bf16) (ix2 r k) = (V m c main_v14 : S800000x256.Idx → EReal) (ix2 (rowOf t r) k) := by
  obtain ⟨-, -, ⟨e0, e1⟩, -⟩ := idx_rows t
  unfold iblk
  rw [View.read_apply]
  show V m c main_v14 _ = V m c main_v14 _
  congr 1
  funext a; apply Fin.ext
  match a with
  | ⟨0, _⟩ => show win0_2.index t (0 : Fin 2) * 4000 + 1 * r.val = 4000 * t.val + r.val; omega
  | ⟨1, _⟩ => show win0_2.index t (1 : Fin 2) * 256 + 1 * k.val = k.val; omega

/-- Point `t`'s block of the gathered query rows. -/
theorem query_rows (c : Dev nD) (t : Fin cfg0.N) (r : Fin 4000) (k : Fin 128) :
    (iblk m c 3 t : Vec Ideal S4000x128 .bf16) (ix2 r k) = (V m c main_v21 : S800000x128.Idx → EReal) (ix2 (rowOf t r) k) := by
  obtain ⟨-, -, -, ⟨e0, e1⟩, -⟩ := idx_rows t
  unfold iblk
  rw [View.read_apply]
  show V m c main_v21 _ = V m c main_v21 _
  congr 1
  funext a; apply Fin.ext
  match a with
  | ⟨0, _⟩ => show win0_3.index t (0 : Fin 2) * 4000 + 1 * r.val = 4000 * t.val + r.val; omega
  | ⟨1, _⟩ => show win0_3.index t (1 : Fin 2) * 128 + 1 * k.val = k.val; omega

/-- The lane-to-head table's one block is the array. -/
theorem lanehead_rows (c : Dev nD) (t : Fin cfg0.N) (r : Fin 128) (k : Fin 8) :
    (iblk m c 4 t : Vec Ideal S128x8 .f32) (ix2 r k) = (V m c main_cst : S128x8.Idx → EReal) (ix2 r k) := by
  obtain ⟨-, -, -, -, ⟨e0, e1⟩, -⟩ := idx_rows t
  unfold iblk
  rw [View.read_apply]
  show V m c main_cst _ = V m c main_cst _
  congr 1
  funext a; apply Fin.ext
  match a with
  | ⟨0, _⟩ => show win0_4.index t (0 : Fin 2) * 128 + 1 * r.val = r.val; omega
  | ⟨1, _⟩ => show win0_4.index t (1 : Fin 2) * 8 + 1 * k.val = k.val; omega

/-- The head-to-lane table's one block is the array. -/
theorem headlane_rows (c : Dev nD) (t : Fin cfg0.N) (r : Fin 8) (k : Fin 128) :
    (iblk m c 5 t : Vec Ideal S8x128 .f32) (ix2 r k) = (V m c main_cst_0 : S8x128.Idx → EReal) (ix2 r k) := by
  obtain ⟨-, -, -, -, -, ⟨e0, e1⟩, -⟩ := idx_rows t
  unfold iblk
  rw [View.read_apply]
  show V m c main_cst_0 _ = V m c main_cst_0 _
  congr 1
  funext a; apply Fin.ext
  match a with
  | ⟨0, _⟩ => show win0_5.index t (0 : Fin 2) * 8 + 1 * r.val = r.val; omega
  | ⟨1, _⟩ => show win0_5.index t (1 : Fin 2) * 128 + 1 * k.val = k.val; omega

/-! ## What each point writes back -/

/-- Point `t` writes back to the scores' array its block of `scoreArr` of the operand arrays. -/
theorem flushed6_eq (c : Dev nD) (t : Fin cfg0.N) :
    (dats m 0 c).flushed 6 t = ((cfg0.win 6).blk t).view.read (Elt Ideal)
      (scoreArr (V m c main_arg1) (V m c main_v22) (V m c main_v14) (V m c main_v21)) := by
  obtain ⟨-, -, -, -, -, -, ⟨e0, e1⟩, -⟩ := idx_rows t
  show (cfg0.win 6).cut (grid0.coords t) ((dats m 0 c).after 6 t) = _
  rw [after6]
  unfold scoreBlk
  rw [View.canon_unit_zero hz]
  simp only [View.ld_unit_zero (S := S4000x128) hz, View.ld_unit_zero (S := S128x128) hz, View.ld_unit_zero (S := S4000x256) hz]
  funext j
  obtain ⟨r, k, rfl⟩ : ∃ (r : Fin 4000) (k : Fin 128), j = ix2 r k := ⟨j 0, j 1, eq_ix2 j⟩
  show k0_pay2 (iblk m c 0 t) (iblk m c 1 t) (iblk m c 2 t) (iblk m c 3 t) (ix2 r k)
    = scoreArr (V m c main_arg1) (V m c main_v22) (V m c main_v14) (V m c main_v21) (((cfg0.win 6).blk t).view.emb (ix2 r k))
  refine (score_point (V m c main_arg1) (V m c main_v22) (V m c main_v14) (V m c main_v21) (iblk m c 0 t) (iblk m c 1 t)
    (iblk m c 2 t) (iblk m c 3 t) (rowOf t) (edge_rows m c t) (weight_rows m c t) (kv_rows m c t) (query_rows m c t) r k).trans ?_
  unfold scoreArr
  congr 1 <;> apply Fin.ext
  · show 4000 * t.val + r.val = win0_6.index t (0 : Fin 2) * 4000 + 1 * r.val; omega
  · show k.val = win0_6.index t (1 : Fin 2) * 128 + 1 * k.val; omega

/-- Point `t` writes back to the messages' array its block of `msgArr` of the operand arrays. -/
theorem flushed7_eq (c : Dev nD) (t : Fin cfg0.N) :
    (dats m 0 c).flushed 7 t = ((cfg0.win 7).blk t).view.read (Elt Ideal)
      (msgArr (V m c main_arg1) (V m c main_v22) (V m c main_v14) (V m c main_v21) (V m c main_cst) (V m c main_cst_0)) := by
  obtain ⟨-, -, -, -, -, -, -, ⟨e0, e1⟩, -⟩ := idx_rows t
  show (cfg0.win 7).cut (grid0.coords t) ((dats m 0 c).after 7 t) = _
  rw [after7]
  unfold msgBlk
  rw [View.canon_unit_zero hz]
  simp only [View.ld_unit_zero (S := S4000x128) hz, View.ld_unit_zero (S := S128x128) hz, View.ld_unit_zero (S := S4000x256) hz,
    View.ld_unit_zero (S := S128x8) hz, View.ld_unit_zero (S := S8x128) hz]
  funext j
  obtain ⟨r, k, rfl⟩ : ∃ (r : Fin 4000) (k : Fin 128), j = ix2 r k := ⟨j 0, j 1, eq_ix2 j⟩
  show k0_pay4 (iblk m c 0 t) (iblk m c 1 t) (iblk m c 2 t) (iblk m c 3 t) (iblk m c 4 t) (iblk m c 5 t) (ix2 r k)
    = msgArr (V m c main_arg1) (V m c main_v22) (V m c main_v14) (V m c main_v21) (V m c main_cst) (V m c main_cst_0)
        (((cfg0.win 7).blk t).view.emb (ix2 r k))
  refine (msg_point (V m c main_arg1) (V m c main_v22) (V m c main_v14) (V m c main_v21) (V m c main_cst) (V m c main_cst_0)
    (iblk m c 0 t) (iblk m c 1 t) (iblk m c 2 t) (iblk m c 3 t) (iblk m c 4 t) (iblk m c 5 t) (rowOf t) (edge_rows m c t)
    (weight_rows m c t) (kv_rows m c t) (query_rows m c t) (lanehead_rows m c t) (headlane_rows m c t) r k).trans ?_
  unfold msgArr
  congr 1 <;> apply Fin.ext
  · show 4000 * t.val + r.val = win0_7.index t (0 : Fin 2) * 4000 + 1 * r.val; omega
  · show k.val = win0_7.index t (1 : Fin 2) * 128 + 1 * k.val; omega

/-- Point `t` writes back to the head weights' array its block of `headArr` of the operand arrays. -/
theorem flushed8_eq (c : Dev nD) (t : Fin cfg0.N) :
    (dats m 0 c).flushed 8 t = ((cfg0.win 8).blk t).view.read (Elt Ideal)
      (headArr (V m c main_arg1) (V m c main_v22) (V m c main_v14) (V m c main_v21) (V m c main_cst)) := by
  obtain ⟨-, -, -, -, -, -, -, -, ⟨e0, e1⟩⟩ := idx_rows t
  show (cfg0.win 8).cut (grid0.coords t) ((dats m 0 c).after 8 t) = _
  rw [after8]
  unfold headBlk
  rw [View.canon_unit_zero hz]
  simp only [View.ld_unit_zero (S := S4000x128) hz, View.ld_unit_zero (S := S128x128) hz, View.ld_unit_zero (S := S4000x256) hz,
    View.ld_unit_zero (S := S128x8) hz]
  funext j
  obtain ⟨r, h, rfl⟩ : ∃ (r : Fin 4000) (h : Fin 8), j = ix2 r h := ⟨j 0, j 1, eq_ix2 j⟩
  show k0_pay3 (iblk m c 0 t) (iblk m c 1 t) (iblk m c 2 t) (iblk m c 3 t) (iblk m c 4 t) (ix2 r h)
    = headArr (V m c main_arg1) (V m c main_v22) (V m c main_v14) (V m c main_v21) (V m c main_cst)
        (((cfg0.win 8).blk t).view.emb (ix2 r h))
  refine (head_point (V m c main_arg1) (V m c main_v22) (V m c main_v14) (V m c main_v21) (V m c main_cst)
    (iblk m c 0 t) (iblk m c 1 t) (iblk m c 2 t) (iblk m c 3 t) (iblk m c 4 t) (rowOf t) (edge_rows m c t)
    (weight_rows m c t) (kv_rows m c t) (query_rows m c t) (lanehead_rows m c t) r h).trans ?_
  unfold headArr
  congr 1 <;> apply Fin.ext
  · show 4000 * t.val + r.val = win0_8.index t (0 : Fin 2) * 4000 + 1 * r.val; omega
  · show h.val = win0_8.index t (1 : Fin 2) * 8 + 1 * h.val; omega

/-! ## The 200 blocks cover the rows -/

/-- An index of the array is in point `t`'s block iff each coordinate is in the block's range on its axis. -/
theorem mem_blk6 (t : Fin cfg0.N) (i : S800000x128.Idx) :
    i ∈ ((cfg0.win 6).blk t).view.set ↔ ∀ a : Fin 2, win0_6.index t a * S4000x128.size a ≤ (i a).val
      ∧ (i a).val < win0_6.index t a * S4000x128.size a + S4000x128.size a := by
  show i ∈ ((View.whole main_v23_0).slice (win0_6.rect t)).set ↔ _
  rw [View.set_slice_whole, Rect.mem_set_unit]
  exact Iff.rfl

/-- Every index of the array is in the block of the point that holds its row: row `e` is in block `e / 4000`. -/
theorem cover6 (i : S800000x128.Idx) :
    ∃ t : Fin cfg0.N, (cfg0.win 6).flush t = true ∧ i ∈ ((cfg0.win 6).blk t).view.set := by
  have hi0 : (i 0).val < 800000 := (i 0).isLt
  have hi1 : (i 1).val < 128 := (i 1).isLt
  let t : Fin cfg0.N := ⟨(i 0).val / 4000, by rw [show cfg0.N = 200 from N_0]; omega⟩
  obtain ⟨-, -, -, -, -, -, ⟨e0, e1⟩, -⟩ := idx_rows t
  have ht : t.val = (i 0).val / 4000 := rfl
  refine ⟨t, flush0_6 t, ?_⟩
  rw [mem_blk6]
  intro a
  match a with
  | ⟨0, _⟩ =>
    show win0_6.index t (0 : Fin 2) * 4000 ≤ (i 0).val ∧ (i 0).val < win0_6.index t (0 : Fin 2) * 4000 + 4000
    omega
  | ⟨1, _⟩ =>
    show win0_6.index t (1 : Fin 2) * 128 ≤ (i 1).val ∧ (i 1).val < win0_6.index t (1 : Fin 2) * 128 + 128
    omega

/-- An index of the array is in point `t`'s block iff each coordinate is in the block's range on its axis. -/
theorem mem_blk7 (t : Fin cfg0.N) (i : S800000x128.Idx) :
    i ∈ ((cfg0.win 7).blk t).view.set ↔ ∀ a : Fin 2, win0_7.index t a * S4000x128.size a ≤ (i a).val
      ∧ (i a).val < win0_7.index t a * S4000x128.size a + S4000x128.size a := by
  show i ∈ ((View.whole main_v23_1).slice (win0_7.rect t)).set ↔ _
  rw [View.set_slice_whole, Rect.mem_set_unit]
  exact Iff.rfl

/-- Every index of the array is in the block of the point that holds its row: row `e` is in block `e / 4000`. -/
theorem cover7 (i : S800000x128.Idx) :
    ∃ t : Fin cfg0.N, (cfg0.win 7).flush t = true ∧ i ∈ ((cfg0.win 7).blk t).view.set := by
  have hi0 : (i 0).val < 800000 := (i 0).isLt
  have hi1 : (i 1).val < 128 := (i 1).isLt
  let t : Fin cfg0.N := ⟨(i 0).val / 4000, by rw [show cfg0.N = 200 from N_0]; omega⟩
  obtain ⟨-, -, -, -, -, -, -, ⟨e0, e1⟩, -⟩ := idx_rows t
  have ht : t.val = (i 0).val / 4000 := rfl
  refine ⟨t, flush0_7 t, ?_⟩
  rw [mem_blk7]
  intro a
  match a with
  | ⟨0, _⟩ =>
    show win0_7.index t (0 : Fin 2) * 4000 ≤ (i 0).val ∧ (i 0).val < win0_7.index t (0 : Fin 2) * 4000 + 4000
    omega
  | ⟨1, _⟩ =>
    show win0_7.index t (1 : Fin 2) * 128 ≤ (i 1).val ∧ (i 1).val < win0_7.index t (1 : Fin 2) * 128 + 128
    omega

/-- An index of the array is in point `t`'s block iff each coordinate is in the block's range on its axis. -/
theorem mem_blk8 (t : Fin cfg0.N) (i : S800000x8.Idx) :
    i ∈ ((cfg0.win 8).blk t).view.set ↔ ∀ a : Fin 2, win0_8.index t a * S4000x8.size a ≤ (i a).val
      ∧ (i a).val < win0_8.index t a * S4000x8.size a + S4000x8.size a := by
  show i ∈ ((View.whole main_v23_2).slice (win0_8.rect t)).set ↔ _
  rw [View.set_slice_whole, Rect.mem_set_unit]
  exact Iff.rfl

/-- Every index of the array is in the block of the point that holds its row: row `e` is in block `e / 4000`. -/
theorem cover8 (i : S800000x8.Idx) :
    ∃ t : Fin cfg0.N, (cfg0.win 8).flush t = true ∧ i ∈ ((cfg0.win 8).blk t).view.set := by
  have hi0 : (i 0).val < 800000 := (i 0).isLt
  have hi1 : (i 1).val < 8 := (i 1).isLt
  let t : Fin cfg0.N := ⟨(i 0).val / 4000, by rw [show cfg0.N = 200 from N_0]; omega⟩
  obtain ⟨-, -, -, -, -, -, -, -, ⟨e0, e1⟩⟩ := idx_rows t
  have ht : t.val = (i 0).val / 4000 := rfl
  refine ⟨t, flush0_8 t, ?_⟩
  rw [mem_blk8]
  intro a
  match a with
  | ⟨0, _⟩ =>
    show win0_8.index t (0 : Fin 2) * 4000 ≤ (i 0).val ∧ (i 0).val < win0_8.index t (0 : Fin 2) * 4000 + 4000
    omega
  | ⟨1, _⟩ =>
    show win0_8.index t (1 : Fin 2) * 8 ≤ (i 1).val ∧ (i 1).val < win0_8.index t (1 : Fin 2) * 8 + 8
    omega

/-! ## The three result arrays after the region -/

/-- The scores' array ends at `scoreArr` of the operand arrays as the region finds them. -/
theorem final6 (c : Dev nD) :
    (dats m 0 c).arrAt 6 cfg0.N = scoreArr (V m c main_arg1) (V m c main_v22) (V m c main_v14) (V m c main_v21) :=
  (dats m 0 c).arrAt_eq_of_cover 6 (scoreArr (V m c main_arg1) (V m c main_v22) (V m c main_v14) (V m c main_v21))
    (fun t _ => flushed6_eq m c t) cover6

/-- The messages' array ends at `msgArr` of the operand arrays. -/
theorem final7 (c : Dev nD) :
    (dats m 0 c).arrAt 7 cfg0.N
      = msgArr (V m c main_arg1) (V m c main_v22) (V m c main_v14) (V m c main_v21) (V m c main_cst) (V m c main_cst_0) :=
  (dats m 0 c).arrAt_eq_of_cover 7
    (msgArr (V m c main_arg1) (V m c main_v22) (V m c main_v14) (V m c main_v21) (V m c main_cst) (V m c main_cst_0))
    (fun t _ => flushed7_eq m c t) cover7

/-- The head weights' array ends at `headArr` of the operand arrays. -/
theorem final8 (c : Dev nD) :
    (dats m 0 c).arrAt 8 cfg0.N = headArr (V m c main_arg1) (V m c main_v22) (V m c main_v14) (V m c main_v21) (V m c main_cst) :=
  (dats m 0 c).arrAt_eq_of_cover 8 (headArr (V m c main_arg1) (V m c main_v22) (V m c main_v14) (V m c main_v21) (V m c main_cst))
    (fun t _ => flushed8_eq m c t) cover8

end Cert.KernelIdeal.Arrays

end
-- ==== Proof.RowScatter.lean ====
/-
  A row scatter-add on the extended reals, read at one element.

  The operand has a row axis of 50000 and one or two window axes; each of the 800000 updates is a whole row window
  whose start row is one signed 32-bit word. The element at row `n` and window position `k` ends as what it held plus
  the sum, over the updates whose word is exactly `n`, of the update's element at `k`; an update whose word names no
  row adds nothing anywhere.

  The road: with the row axis inserted and the only axis the start index names, an update's window starts at its word
  on the row axis and at 0 on every window axis, and its window coordinate is 0 on the row axis and the update index's
  own coordinate on a window axis. So update index (e, k…) lands on (n, k'…) exactly when the word of e is n and
  k… = k'…, and the sum over the update indices that land on (n, k…) is, coordinate by coordinate, the sum over the
  edges whose word is n.
-/
import Idealize.ShloMosaic.PureOps.Ideal
import Idealize.ShloMosaic.Lib.ValueIdx

noncomputable section

open scoped BigOperators

namespace Cert.RowScatter

open Idealize.ShloMosaic Idealize.ShloMosaic.ValueIdx

/-! ## One window axis -/

section Rows2

variable {C : Nat}
    (d : ScatterDims (⟨2, ![50000, C]⟩ : Shape) (⟨2, ![800000, 1]⟩ : Shape) (⟨2, ![800000, C]⟩ : Shape))
    (huw : d.updateWindowDims = [1]) (hiw : d.insertedWindowDims = [0]) (hsd : d.scatterDimsToOperandDims = [0])
    (hiv : d.indexVectorDim = 1)
    (idx : IVec (⟨2, ![800000, 1]⟩ : Shape) 32) (j : (⟨2, ![800000, C]⟩ : Shape).Idx)

include huw hiw hsd hiv

/-- On the row axis the window starts at the update's word, read signed. -/
theorem start2_row : d.start j idx 0 = (idx (ix2 (j 0) 0)).toInt := by
  obtain ⟨uw, iw, sd, iv, wf⟩ := d
  simp only at huw hiw hsd hiv
  subst huw hiw hsd hiv
  unfold ScatterDims.start
  rw [dif_pos (by simp)]
  congr 2
  funext b
  refine Fin.ext ?_
  match b with
  | ⟨0, _⟩ => simp only [ScatterDims.siIdx, ScatterDims.siCoord]; rfl
  | ⟨1, _⟩ => simp [ScatterDims.siIdx]

/-- On the window axis the window starts at 0. -/
theorem start2_win : d.start j idx 1 = 0 := by
  obtain ⟨uw, iw, sd, iv, wf⟩ := d
  simp only at huw hiw hsd hiv
  subst huw hiw hsd hiv
  unfold ScatterDims.start
  rw [dif_neg (by simp)]

/-- The row axis is inserted: no window coordinate there. -/
theorem window2_row : d.window j 0 = 0 := by
  obtain ⟨uw, iw, sd, iv, wf⟩ := d
  simp only at huw hiw hsd hiv
  subst huw hiw hsd hiv
  unfold ScatterDims.window
  rw [dif_neg (by simp [Shape.kept])]

/-- The window axis carries the update index's second coordinate. -/
theorem window2_win : d.window j 1 = (j 1).val := by
  obtain ⟨uw, iw, sd, iv, wf⟩ := d
  simp only at huw hiw hsd hiv
  subst huw hiw hsd hiv
  unfold ScatterDims.window
  rw [dif_pos (by simp [Shape.kept])]
  rfl

/-- Update index `j` lands on `i` exactly when its word is `i`'s row and the window coordinates agree. -/
theorem resultIdx_rows2 (i : (⟨2, ![50000, C]⟩ : Shape).Idx) :
    d.resultIdx? j idx = some i ↔ (idx (ix2 (j 0) 0)).toInt = ((i 0).val : Int) ∧ j 1 = i 1 := by
  have hs0 := start2_row d huw hiw hsd hiv idx j
  have hs1 := start2_win d huw hiw hsd hiv idx j
  have hw0 := window2_row d huw hiw hsd hiv j
  have hw1 := window2_win d huw hiw hsd hiv j
  have hi0 : (i 0).val < 50000 := (i 0).isLt
  have hj1 : (j 1).val < C := (j 1).isLt
  unfold ScatterDims.resultIdx?
  constructor
  · intro h
    split_ifs at h with hall
    have hf := Option.some.inj h
    have e0 : (d.start j idx 0 + d.window j 0).toNat = (i 0).val := congrArg (fun f => (f 0).val) hf
    have e1 : (d.start j idx 1 + d.window j 1).toNat = (i 1).val := congrArg (fun f => (f 1).val) hf
    have h0 := hall 0
    rw [hs0, hw0] at h0 e0
    rw [hs1, hw1] at e1
    exact ⟨by omega, Fin.ext (by omega)⟩
  · rintro ⟨h0, h1⟩
    have e1 : (j 1).val = (i 1).val := congrArg Fin.val h1
    have hall : ∀ a, 0 ≤ d.start j idx a + d.window j a ∧ d.start j idx a + d.window j a < (⟨2, ![50000, C]⟩ : Shape).size a := by
      intro a
      match a with
      | ⟨0, _⟩ =>
        show 0 ≤ d.start j idx 0 + d.window j 0 ∧ d.start j idx 0 + d.window j 0 < ((50000 : Nat) : Int)
        rw [hs0, hw0]; omega
      | ⟨1, _⟩ =>
        show 0 ≤ d.start j idx 1 + d.window j 1 ∧ d.start j idx 1 + d.window j 1 < ((C : Nat) : Int)
        rw [hs1, hw1]; omega
    rw [dif_pos hall]
    congr 1
    funext a
    refine Fin.ext ?_
    match a with
    | ⟨0, _⟩ =>
      show (d.start j idx 0 + d.window j 0).toNat = (i 0).val
      rw [hs0, hw0]; omega
    | ⟨1, _⟩ =>
      show (d.start j idx 1 + d.window j 1).toNat = (i 1).val
      rw [hs1, hw1]; omega

end Rows2

/-- One window axis. -/
theorem scatterAdd_rows2 {C : Nat}
    (d : ScatterDims (⟨2, ![50000, C]⟩ : Shape) (⟨2, ![800000, 1]⟩ : Shape) (⟨2, ![800000, C]⟩ : Shape))
    (huw : d.updateWindowDims = [1]) (hiw : d.insertedWindowDims = [0]) (hsd : d.scatterDimsToOperandDims = [0])
    (hiv : d.indexVectorDim = 1)
    (x : (⟨2, ![50000, C]⟩ : Shape).Idx → EReal) (idx : IVec (⟨2, ![800000, 1]⟩ : Shape) 32)
    (upd : (⟨2, ![800000, C]⟩ : Shape).Idx → EReal) (n : Fin 50000) (k : Fin C) :
    Ideal.hostScatterAdd d x idx upd (ix2 n k)
      = x (ix2 n k) + ∑ e ∈ Finset.univ.filter (fun e : Fin 800000 => (idx (ix2 e 0)).toInt = (n.val : Int)), upd (ix2 e k) := by
  unfold Ideal.hostScatterAdd
  refine congrArg (fun t => x (ix2 n k) + t) ?_
  rw [Finset.sum_filter, sum_idx2, Finset.sum_filter]
  refine Finset.sum_congr rfl fun e _ => ?_
  have hiff : ∀ c : Fin C, d.resultIdx? (ix2 e c) idx = some (ix2 n k) ↔ ((idx (ix2 e 0)).toInt = (n.val : Int) ∧ c = k) :=
    fun c => resultIdx_rows2 d huw hiw hsd hiv idx (ix2 e c) (ix2 n k)
  rw [Finset.sum_congr rfl (fun c _ => if_congr (hiff c) rfl rfl)]
  by_cases hP : (idx (ix2 e 0)).toInt = (n.val : Int)
  · simp [hP]
  · simp [hP]

/-! ## Two window axes -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A double sum of a function switched on at one pair only is the function there. -/
theorem sum_sum_ite_pair {M : Type*} [AddCommMonoid M] {A B : Nat} (a : Fin A) (b : Fin B) (f : Fin A → Fin B → M) :
    (∑ p, ∑ q, if p = a ∧ q = b then f p q else 0) = f a b := by
  rw [Finset.sum_eq_single a (fun p _ hp => by simp [hp]) (fun h => absurd (Finset.mem_univ a) h)]
  rw [Finset.sum_eq_single b (fun q _ hq => by simp [hq]) (fun h => absurd (Finset.mem_univ b) h)]
  simp

section Rows3

variable {A B : Nat}
    (d : ScatterDims (⟨3, ![50000, A, B]⟩ : Shape) (⟨2, ![800000, 1]⟩ : Shape) (⟨3, ![800000, A, B]⟩ : Shape))
    (huw : d.updateWindowDims = [1, 2]) (hiw : d.insertedWindowDims = [0]) (hsd : d.scatterDimsToOperandDims = [0])
    (hiv : d.indexVectorDim = 1)
    (idx : IVec (⟨2, ![800000, 1]⟩ : Shape) 32) (j : (⟨3, ![800000, A, B]⟩ : Shape).Idx)

include huw hiw hsd hiv

/-- On the row axis the window starts at the update's word, read signed. -/
theorem start3_row : d.start j idx 0 = (idx (ix2 (j 0) 0)).toInt := by
  obtain ⟨uw, iw, sd, iv, wf⟩ := d
  simp only at huw hiw hsd hiv
  subst huw hiw hsd hiv
  unfold ScatterDims.start
  rw [dif_pos (by simp)]
  congr 2
  funext b
  refine Fin.ext ?_
  match b with
  | ⟨0, _⟩ => simp only [ScatterDims.siIdx, ScatterDims.siCoord]; rfl
  | ⟨1, _⟩ => simp [ScatterDims.siIdx]

/-- On the first window axis the window starts at 0 … -/
theorem start3_win1 : d.start j idx 1 = 0 := by
  obtain ⟨uw, iw, sd, iv, wf⟩ := d
  simp only at huw hiw hsd hiv
  subst huw hiw hsd hiv
  unfold ScatterDims.start
  rw [dif_neg (by simp)]

/-- … and on the second. -/
theorem start3_win2 : d.start j idx 2 = 0 := by
  obtain ⟨uw, iw, sd, iv, wf⟩ := d
  simp only at huw hiw hsd hiv
  subst huw hiw hsd hiv
  unfold ScatterDims.start
  rw [dif_neg (by simp)]

/-- The row axis is inserted: no window coordinate there. -/
theorem window3_row : d.window j 0 = 0 := by
  obtain ⟨uw, iw, sd, iv, wf⟩ := d
  simp only at huw hiw hsd hiv
  subst huw hiw hsd hiv
  unfold ScatterDims.window
  rw [dif_neg (by simp [Shape.kept])]

/-- The first window axis carries the update index's second coordinate … -/
theorem window3_win1 : d.window j 1 = (j 1).val := by
  obtain ⟨uw, iw, sd, iv, wf⟩ := d
  simp only at huw hiw hsd hiv
  subst huw hiw hsd hiv
  unfold ScatterDims.window
  rw [dif_pos (by simp [Shape.kept])]
  rfl

/-- … and the second window axis its third. -/
theorem window3_win2 : d.window j 2 = (j 2).val := by
  obtain ⟨uw, iw, sd, iv, wf⟩ := d
  simp only at huw hiw hsd hiv
  subst huw hiw hsd hiv
  unfold ScatterDims.window
  rw [dif_pos (by simp [Shape.kept])]
  rfl

/-- Update index `j` lands on `i` exactly when its word is `i`'s row and the window coordinates agree. -/
theorem resultIdx_rows3 (i : (⟨3, ![50000, A, B]⟩ : Shape).Idx) :
    d.resultIdx? j idx = some i ↔ (idx (ix2 (j 0) 0)).toInt = ((i 0).val : Int) ∧ j 1 = i 1 ∧ j 2 = i 2 := by
  have hs0 := start3_row d huw hiw hsd hiv idx j
  have hs1 := start3_win1 d huw hiw hsd hiv idx j
  have hs2 := start3_win2 d huw hiw hsd hiv idx j
  have hw0 := window3_row d huw hiw hsd hiv j
  have hw1 := window3_win1 d huw hiw hsd hiv j
  have hw2 := window3_win2 d huw hiw hsd hiv j
  have hi0 : (i 0).val < 50000 := (i 0).isLt
  have hj1 : (j 1).val < A := (j 1).isLt
  have hj2 : (j 2).val < B := (j 2).isLt
  unfold ScatterDims.resultIdx?
  constructor
  · intro h
    split_ifs at h with hall
    have hf := Option.some.inj h
    have e0 : (d.start j idx 0 + d.window j 0).toNat = (i 0).val := congrArg (fun f => (f 0).val) hf
    have e1 : (d.start j idx 1 + d.window j 1).toNat = (i 1).val := congrArg (fun f => (f 1).val) hf
    have e2 : (d.start j idx 2 + d.window j 2).toNat = (i 2).val := congrArg (fun f => (f 2).val) hf
    have h0 := hall 0
    rw [hs0, hw0] at h0 e0
    rw [hs1, hw1] at e1
    rw [hs2, hw2] at e2
    exact ⟨by omega, Fin.ext (by omega), Fin.ext (by omega)⟩
  · rintro ⟨h0, h1, h2⟩
    have e1 : (j 1).val = (i 1).val := congrArg Fin.val h1
    have e2 : (j 2).val = (i 2).val := congrArg Fin.val h2
    have hall : ∀ a, 0 ≤ d.start j idx a + d.window j a ∧
        d.start j idx a + d.window j a < (⟨3, ![50000, A, B]⟩ : Shape).size a := by
      intro a
      match a with
      | ⟨0, _⟩ =>
        show 0 ≤ d.start j idx 0 + d.window j 0 ∧ d.start j idx 0 + d.window j 0 < ((50000 : Nat) : Int)
        rw [hs0, hw0]; omega
      | ⟨1, _⟩ =>
        show 0 ≤ d.start j idx 1 + d.window j 1 ∧ d.start j idx 1 + d.window j 1 < ((A : Nat) : Int)
        rw [hs1, hw1]; omega
      | ⟨2, _⟩ =>
        show 0 ≤ d.start j idx 2 + d.window j 2 ∧ d.start j idx 2 + d.window j 2 < ((B : Nat) : Int)
        rw [hs2, hw2]; omega
    rw [dif_pos hall]
    congr 1
    funext a
    refine Fin.ext ?_
    match a with
    | ⟨0, _⟩ =>
      show (d.start j idx 0 + d.window j 0).toNat = (i 0).val
      rw [hs0, hw0]; omega
    | ⟨1, _⟩ =>
      show (d.start j idx 1 + d.window j 1).toNat = (i 1).val
      rw [hs1, hw1]; omega
    | ⟨2, _⟩ =>
      show (d.start j idx 2 + d.window j 2).toNat = (i 2).val
      rw [hs2, hw2]; omega

end Rows3

/-- Two window axes. -/
theorem scatterAdd_rows3 {A B : Nat}
    (d : ScatterDims (⟨3, ![50000, A, B]⟩ : Shape) (⟨2, ![800000, 1]⟩ : Shape) (⟨3, ![800000, A, B]⟩ : Shape))
    (huw : d.updateWindowDims = [1, 2]) (hiw : d.insertedWindowDims = [0]) (hsd : d.scatterDimsToOperandDims = [0])
    (hiv : d.indexVectorDim = 1)
    (x : (⟨3, ![50000, A, B]⟩ : Shape).Idx → EReal) (idx : IVec (⟨2, ![800000, 1]⟩ : Shape) 32)
    (upd : (⟨3, ![800000, A, B]⟩ : Shape).Idx → EReal) (n : Fin 50000) (a : Fin A) (b : Fin B) :
    Ideal.hostScatterAdd d x idx upd (ix3 n a b)
      = x (ix3 n a b) + ∑ e ∈ Finset.univ.filter (fun e : Fin 800000 => (idx (ix2 e 0)).toInt = (n.val : Int)), upd (ix3 e a b) := by
  unfold Ideal.hostScatterAdd
  refine congrArg (fun t => x (ix3 n a b) + t) ?_
  rw [Finset.sum_filter, sum_idx3, Finset.sum_filter]
  refine Finset.sum_congr rfl fun e _ => ?_
  have hiff : ∀ (p : Fin A) (q : Fin B), d.resultIdx? (ix3 e p q) idx = some (ix3 n a b) ↔
      ((idx (ix2 e 0)).toInt = (n.val : Int) ∧ p = a ∧ q = b) :=
    fun p q => resultIdx_rows3 d huw hiw hsd hiv idx (ix3 e p q) (ix3 n a b)
  rw [Finset.sum_congr rfl (fun p _ => Finset.sum_congr rfl (fun q _ => if_congr (hiff p q) rfl rfl))]
  by_cases hP : (idx (ix2 e 0)).toInt = (n.val : Int)
  · simp only [hP, true_and, if_true]
    exact sum_sum_ite_pair a b fun p q => upd (ix3 e p q)
  · simp [hP]

end Cert.RowScatter

end
-- ==== Proof.KernelTail.lean ====
/-
  The host operations after the region, read at one element of each result.

  The region leaves three arrays: the edges' scores and messages, 128 lanes a row, and the edges' head weights, 8 a row.
  After it the host adds every edge's message row, and every edge's head-weight row, into the row of the node its
  destination word names, starting from zero rows (a word that names no node adds nothing); it splits the 128 lanes of
  a node's summed messages into 8 heads of 16, lane 16 h + d going to (h, d); it adds a small constant to the summed
  weights, repeats each head's value over its 16 lanes, and divides. That quotient is the first result. The second
  result is the score array with its lanes split into heads in the same way.
-/
import proofs.«410480_j64037962384023_3_alg».proof.Proof.Frame
import proofs.«410480_j64037962384023_3_alg».proof.Proof.Spec
import proofs.«410480_j64037962384023_3_alg».proof.Proof.RowScatter
import Idealize.ShloMosaic.Lib.StableHlo.Run
import Idealize.ShloMosaic.Lib.Pipeline.Value
import Idealize.ShloMosaic.Lib.ValueIdx
import Idealize.ShloMosaic.PureOps.Ideal
import Idealize.ShloMosaic.PureOps.Ideal.Laws

set_option maxRecDepth 16384

noncomputable section

open scoped BigOperators

namespace Cert.KernelIdeal.Tail

open Idealize.ShloMosaic Idealize.ShloMosaic.TcCoe Idealize.ShloMosaic.ValueIdx Idealize.ShloMosaic.StableHlo
open Idealize.SL Idealize.SL.Sem
open Cert.KernelIdeal Cert.KernelIdeal.Gen Cert.KernelIdeal.Hand Cert.EdgeAttention

/-! ## The operations, over any three arrays and any column of words -/

/-- The destination words as a column. -/
def rawCol (x : IVec S800000 32) : Col := broadcastInDim S800000x1 ![0] bcast_S800000_S800000x1_0 x

/-- The first result as a function of the column of destination words, the message rows and the head-weight rows:
    both scattered into zero rows and summed, the lanes split into heads, the constant added to the weights, the
    weights repeated over a head's lanes, the quotient. -/
def nodeOf (col : Col) (msgs : FVec Idealize.ShloMosaic.Ideal S800000x128 .f32)
    (heads : FVec Idealize.ShloMosaic.Ideal S800000x8 .f32) : FVec Idealize.ShloMosaic.Ideal S50000x8x16 .f32 :=
  Host.divf
    (shapeCast S50000x8x16
      (Host.scatterAdd scatter_S50000x128_S800000x1_S800000x128_1_0_0_1
        (broadcastInDim S50000x128 ![] bcast_S_S50000x128 (constant S_ .f32 0x00000000#32)) col msgs)
      shapeCasts_S50000x128_S50000x8x16)
    (broadcastInDim S50000x8x16 ![0, 1, 2] bcast_S50000x8x1_S50000x8x16_0_1_2
      (addf
        (shapeCast S50000x8x1
          (Host.scatterAdd scatter_S50000x8_S800000x1_S800000x8_1_0_0_1
            (broadcastInDim S50000x8 ![] bcast_S_S50000x8 (constant S_ .f32 0x00000000#32)) col heads)
          shapeCasts_S50000x8_S50000x8x1)
        (broadcastInDim S50000x8x1 ![] bcast_S_S50000x8x1 (constant S_ .f32 0x358637BD#32))))

/-- The constant by its word. -/
theorem eps_def : eps = Ideal.ofBits .f32 0x358637BD#32 := by unfold eps; rfl

/-- The host's quotient and scatter-add at the extended reals, elementwise. -/
theorem hostDivf_apply {s : Shape} (a b : FVec Idealize.ShloMosaic.Ideal s .f32) (i : s.Idx) :
    Host.divf a b i = Ideal.div (a i) (b i) := rfl
theorem hostScatterAdd_eq {s si su : Shape} (d : ScatterDims s si su) (x : FVec Idealize.ShloMosaic.Ideal s .f32)
    (idx : IVec si 32) (upd : FVec Idealize.ShloMosaic.Ideal su .f32) :
    Host.scatterAdd d x idx upd = Ideal.hostScatterAdd d x idx upd := rfl

/-- A scalar zero repeated over any shape is zero everywhere. -/
theorem zeros_apply {s : Shape} (hb : S_.BroadcastsInDim s (![] : Fin 0 → Fin s.rank)) (i : s.Idx) :
    broadcastInDim s ![] hb (constant (F := Idealize.ShloMosaic.Ideal) S_ .f32 0x00000000#32) i = 0 :=
  by
  rw [broadcastInDim_apply (![] : Fin 0 → Fin s.rank) hb _ i ix0 (fun a => a.elim0), constant_apply]
  exact Ideal.ofBits_zero_f32

/-- The constant added to the weights, repeated, is that constant everywhere. -/
theorem epsArr_apply (i : S50000x8x1.Idx) :
    broadcastInDim S50000x8x1 ![] bcast_S_S50000x8x1 (constant (F := Idealize.ShloMosaic.Ideal) S_ .f32 0x358637BD#32) i = eps :=
  by
  rw [broadcastInDim_apply (![] : Fin 0 → Fin S50000x8x1.rank) bcast_S_S50000x8x1 _ i ix0 (fun a => a.elim0), constant_apply,
    eps_def]

/-- Node n's summed messages on lane d of head h: the sum of lane 16 h + d over the edges whose word is n. The split
    of 128 lanes into 8 × 16 keeps row-major positions: 128 n + (16 h + d) = 16 (8 n + h) + d. -/
theorem msgSum_apply (col : Col) (upd : FVec Idealize.ShloMosaic.Ideal S800000x128 .f32) (n : Fin 50000) (h : Fin 8) (d : Fin 16) :
    shapeCast S50000x8x16
        (Host.scatterAdd scatter_S50000x128_S800000x1_S800000x128_1_0_0_1
          (broadcastInDim S50000x128 ![] bcast_S_S50000x128 (constant S_ .f32 0x00000000#32)) col upd)
        shapeCasts_S50000x128_S50000x8x16 (ix3 n h d)
      = ∑ e ∈ Finset.univ.filter (fun e : Fin 800000 => (col (ix2 e 0)).toInt = (n.val : Int)), upd (ix2 e (lane h d)) := by
  refine (shapeCast_apply _ shapeCasts_S50000x128_S50000x8x16 (ix3 n h d) (ix2 n (lane h d)) ?_).trans ?_
  · rw [Shape.rowMajor_val_two, Shape.rowMajor_val_three]
    show n.val * 128 + (16 * h.val + d.val) = (n.val * 8 + h.val) * 16 + d.val
    omega
  · rw [hostScatterAdd_eq]
    refine (Cert.RowScatter.scatterAdd_rows2 scatter_S50000x128_S800000x1_S800000x128_1_0_0_1 rfl rfl rfl rfl _ col upd n
      (lane h d)).trans ?_
    rw [zeros_apply, zero_add]

/-- Node n's summed weight of head h: the sum of the head's weight over the edges whose word is n. -/
theorem headSum_apply (col : Col) (upd : FVec Idealize.ShloMosaic.Ideal S800000x8 .f32) (n : Fin 50000) (h : Fin 8) :
    shapeCast S50000x8x1
        (Host.scatterAdd scatter_S50000x8_S800000x1_S800000x8_1_0_0_1
          (broadcastInDim S50000x8 ![] bcast_S_S50000x8 (constant S_ .f32 0x00000000#32)) col upd)
        shapeCasts_S50000x8_S50000x8x1 (ix3 n h (0 : Fin 1))
      = ∑ e ∈ Finset.univ.filter (fun e : Fin 800000 => (col (ix2 e 0)).toInt = (n.val : Int)), upd (ix2 e h) := by
  refine (shapeCast_apply _ shapeCasts_S50000x8_S50000x8x1 (ix3 n h (0 : Fin 1)) (ix2 n h) ?_).trans ?_
  · rw [Shape.rowMajor_val_two, Shape.rowMajor_val_three]
    show n.val * 8 + h.val = (n.val * 8 + h.val) * 1 + 0
    omega
  · rw [hostScatterAdd_eq]
    refine (Cert.RowScatter.scatterAdd_rows2 scatter_S50000x8_S800000x1_S800000x8_1_0_0_1 rfl rfl rfl rfl _ col upd n h).trans ?_
    rw [zeros_apply, zero_add]

/-- The divisor on lane d of head h of node n: the head's summed weight plus the constant, whatever d. -/
theorem denom_apply (col : Col) (upd : FVec Idealize.ShloMosaic.Ideal S800000x8 .f32) (n : Fin 50000) (h : Fin 8) (d : Fin 16) :
    broadcastInDim S50000x8x16 ![0, 1, 2] bcast_S50000x8x1_S50000x8x16_0_1_2
        (addf
          (shapeCast S50000x8x1
            (Host.scatterAdd scatter_S50000x8_S800000x1_S800000x8_1_0_0_1
              (broadcastInDim S50000x8 ![] bcast_S_S50000x8 (constant S_ .f32 0x00000000#32)) col upd)
            shapeCasts_S50000x8_S50000x8x1)
          (broadcastInDim S50000x8x1 ![] bcast_S_S50000x8x1 (constant S_ .f32 0x358637BD#32))) (ix3 n h d)
      = (∑ e ∈ Finset.univ.filter (fun e : Fin 800000 => (col (ix2 e 0)).toInt = (n.val : Int)), upd (ix2 e h)) + eps := by
  have e := broadcastInDim_apply ![0, 1, 2] bcast_S50000x8x1_S50000x8x16_0_1_2
    (addf
      (shapeCast S50000x8x1
        (Host.scatterAdd scatter_S50000x8_S800000x1_S800000x8_1_0_0_1
          (broadcastInDim S50000x8 ![] bcast_S_S50000x8 (constant (F := Idealize.ShloMosaic.Ideal) S_ .f32 0x00000000#32)) col upd)
        shapeCasts_S50000x8_S50000x8x1)
      (broadcastInDim S50000x8x1 ![] bcast_S_S50000x8x1 (constant (F := Idealize.ShloMosaic.Ideal) S_ .f32 0x358637BD#32)))
    (ix3 n h d) (ix3 n h (0 : Fin 1)) (by
      intro a
      match a with
      | ⟨0, _⟩ => rfl
      | ⟨1, _⟩ => rfl
      | ⟨2, _⟩ => rfl)
  rw [e, addf_apply, headSum_apply, epsArr_apply]

/-- The first result at node n, head h, lane d. -/
theorem nodeOf_apply (col : Col) (msgs : FVec Idealize.ShloMosaic.Ideal S800000x128 .f32)
    (heads : FVec Idealize.ShloMosaic.Ideal S800000x8 .f32) (n : Fin 50000) (h : Fin 8) (d : Fin 16) :
    nodeOf col msgs heads (ix3 n h d)
      = Ideal.div (∑ e ∈ Finset.univ.filter (fun e : Fin 800000 => (col (ix2 e 0)).toInt = (n.val : Int)), msgs (ix2 e (lane h d)))
          ((∑ e ∈ Finset.univ.filter (fun e : Fin 800000 => (col (ix2 e 0)).toInt = (n.val : Int)), heads (ix2 e h)) + eps) :=
  (hostDivf_apply _ _ _).trans (congrArg₂ Ideal.div (msgSum_apply col msgs n h d) (denom_apply col heads n h d))

/-! ## The two results of the run -/

variable (m : (ℓ : Loc nD τ sig) → Buf (Elt Idealize.ShloMosaic.Ideal) ℓ) (c : Dev nD)

/-- The region's three result arrays as it leaves them. -/
abbrev scoreArr : FVec Idealize.ShloMosaic.Ideal S800000x128 .f32 := (dats m 0 c).arrAt 6 cfg0.N
abbrev msgArr : FVec Idealize.ShloMosaic.Ideal S800000x128 .f32 := (dats m 0 c).arrAt 7 cfg0.N
abbrev headArr : FVec Idealize.ShloMosaic.Ideal S800000x8 .f32 := (dats m 0 c).arrAt 8 cfg0.N

/-- The second result is the score array, its lanes split into heads. -/
theorem v36_term : Pipeline.afterTail₀ cfgs (dats m) 0 (V0 m) [hostOps1] c main_v36
    = shapeCast S800000x8x16 (scoreArr m c) shapeCasts_S800000x128_S800000x8x16 := by
  unfold Pipeline.afterTail₀
  simp only [List.flatten_cons, List.flatten_nil, List.append_nil]
  show StableHlo.after hostOps1 _ (Proc.devRef .tc main_v36) = _
  after_results
  exact congrArg (fun a : FVec Idealize.ShloMosaic.Ideal S800000x128 .f32 => shapeCast S800000x8x16 a shapeCasts_S800000x128_S800000x8x16)
    (Pipeline.withArrays_arr spec0 launch0.win.arr_inj c (V0 m c) (fun w => (dats m 0 c).arrAt w cfg0.N) 6)

/-- Lane 16 h + d of edge e's scores is entry (e, h, d) of the second result: 128 e + (16 h + d) = 16 (8 e + h) + d. -/
theorem tail_edge (e : Fin 800000) (h : Fin 8) (d : Fin 16) :
    Pipeline.afterTail₀ cfgs (dats m) 0 (V0 m) [hostOps1] c main_v36 (ix3 e h d)
      = (dats m 0 c).arrAt 6 cfg0.N (ix2 e (lane h d)) := by
  rw [v36_term]
  refine (shapeCast_apply (scoreArr m c) shapeCasts_S800000x128_S800000x8x16 (ix3 e h d) (ix2 e (lane h d)) ?_).trans rfl
  rw [Shape.rowMajor_val_two, Shape.rowMajor_val_three]
  show e.val * 128 + (16 * h.val + d.val) = (e.val * 8 + h.val) * 16 + d.val
  omega

set_option maxHeartbeats 4000000 in
/-- The first result is the operations above at the launch's destination words and the region's message and
    head-weight arrays: no operation before or after the region writes the destination words. -/
theorem v35_term : Pipeline.afterTail₀ cfgs (dats m) 0 (V0 m) [hostOps1] c main_v35
    = nodeOf (rawCol (m ((c.tc : Thread nD τ).loc main_arg7))) (msgArr m c) (headArr m c) := by
  unfold Pipeline.afterTail₀
  simp only [List.flatten_cons, List.flatten_nil, List.append_nil]
  show StableHlo.after hostOps1 _ (Proc.devRef .tc main_v35) = _
  after_results_simp
  have e7 : Pipeline.withArrays (cfgs 0).spec c (V0 m c) (fun w => (dats m 0 c).arrAt w (cfgs 0).N) (Proc.devRef .tc main_v23_1)
      = msgArr m c :=
    Pipeline.withArrays_arr spec0 launch0.win.arr_inj c (V0 m c) (fun w => (dats m 0 c).arrAt w cfg0.N) 7
  have e8 : Pipeline.withArrays (cfgs 0).spec c (V0 m c) (fun w => (dats m 0 c).arrAt w (cfgs 0).N) (Proc.devRef .tc main_v23_2)
      = headArr m c :=
    Pipeline.withArrays_arr spec0 launch0.win.arr_inj c (V0 m c) (fun w => (dats m 0 c).arrAt w cfg0.N) 8
  have ea : Pipeline.withArrays (cfgs 0).spec c (V0 m c) (fun w => (dats m 0 c).arrAt w (cfgs 0).N) (Proc.devRef .tc main_arg7)
      = m ((c.tc : Thread nD τ).loc main_arg7) :=
    (Pipeline.withArrays_of_ne spec0 c (V0 m c) (fun w => (dats m 0 c).arrAt w cfg0.N) main_arg7 (by decide)).trans
      (V_main_arg7 m c)
  rw [e7, e8, ea]
  unfold nodeOf rawCol
  rfl

/-- Entry (n, h, d) of the first result: the messages on lane 16 h + d of the edges whose word is n, summed, over
    their weights of head h, summed, plus the constant. -/
theorem tail_node (n : Fin 50000) (h : Fin 8) (d : Fin 16) :
    Pipeline.afterTail₀ cfgs (dats m) 0 (V0 m) [hostOps1] c main_v35 (ix3 n h d)
      = Ideal.div
          (∑ e ∈ Finset.univ.filter (fun e : Fin 800000 =>
              (rawCol (m ((c.tc : Thread nD τ).loc main_arg7)) (ix2 e 0)).toInt = (n.val : Int)),
            (dats m 0 c).arrAt 7 cfg0.N (ix2 e (lane h d)))
          ((∑ e ∈ Finset.univ.filter (fun e : Fin 800000 =>
              (rawCol (m ((c.tc : Thread nD τ).loc main_arg7)) (ix2 e 0)).toInt = (n.val : Int)),
            (dats m 0 c).arrAt 8 cfg0.N (ix2 e h) : EReal) + eps) := by
  rw [v35_term]
  exact nodeOf_apply (rawCol (m ((c.tc : Thread nD τ).loc main_arg7))) (msgArr m c) (headArr m c) n h d

end Cert.KernelIdeal.Tail

end
-- ==== Proof.Grouping.lean ====
/-
  The two grouping tables of zeros and ones.

  A row has 128 lanes, 8 heads of 16 lanes each: lane k belongs to head k / 16. The 128 × 8 table G has a one at
  (k, h) exactly when lane k belongs to head h, so multiplying a row by G sums it head by head; the 8 × 128 table Gb
  is its transpose, so multiplying a row of 8 head values by Gb copies each head's value to its 16 lanes. Both are
  printed as words, 0x3F800000 for 1.0 and 0 for 0.0, row-major.
-/
import proofs.«410480_j64037962384023_3_alg».proof.KernelIdeal
import proofs.«410480_j64037962384023_3_alg».proof.Proof.Spec
import Idealize.ShloMosaic.PureOps.Ideal
import Idealize.ShloMosaic.PureOps.Ideal.Laws
import Idealize.ShloMosaic.Lib.ValueIdx

noncomputable section

open scoped BigOperators

namespace Cert.KernelIdeal.Grouping

open Idealize.ShloMosaic Idealize.ShloMosaic.ValueIdx Cert.KernelIdeal

/-! ## The words of the tables -/

/-- Entry 8 k + h of the first table is the word of one when lane k lies in head h, the zero word otherwise. -/
theorem lit0_word : ∀ k : Fin 128, ∀ h : Fin 8,
    lit0t (8 * k.val + h.val) = if k.val / 16 = h.val then 0x3F800000#32 else 0x00000000#32 := by
  decide +kernel

/-- Entry 128 h + k of the second table likewise. -/
theorem lit1_word : ∀ h : Fin 8, ∀ k : Fin 128,
    lit1t (128 * h.val + k.val) = if k.val / 16 = h.val then 0x3F800000#32 else 0x00000000#32 := by
  decide +kernel

/-! ## The words as extended reals -/

/-- The word 0x3F800000 is the float 1.0: sign 0, exponent 127, mantissa 0. -/
theorem ofBits_one_f32 : Ideal.ofBits .f32 0x3F800000#32 = 1 := by
  simp [Ideal.ofBits, Ideal.ieee, -EReal.coe_mul]; norm_num

/-- A word that is the one word or the zero word by a condition denotes one or zero by that condition. -/
theorem ofBits_ite (c : Prop) [Decidable c] :
    (FloatOps.ofBits (F := Ideal) .f32 (if c then 0x3F800000#32 else 0x00000000#32) : EReal) = if c then 1 else 0 := by
  split
  · exact ofBits_one_f32
  · exact Ideal.ofBits_zero_f32

/-- G(k, h) is one exactly when lane k lies in head h. -/
theorem G_apply (k : Fin 128) (h : Fin 8) :
    (FloatOps.ofBits (F := Ideal) .f32 (lit0 (S128x8.rowMajor (ix2 k h))) : EReal)
      = if k.val / 16 = h.val then 1 else 0 := by
  have hv : (S128x8.rowMajor (ix2 k h)).val = 8 * k.val + h.val := by
    rw [Shape.rowMajor_val_two]
    show k.val * 8 + h.val = _
    omega
  have hw : lit0 (S128x8.rowMajor (ix2 k h)) = lit0t (8 * k.val + h.val) := by
    rw [← hv]
  rw [hw, lit0_word k h]
  exact ofBits_ite _

/-- Gb(h, k) is one exactly when lane k lies in head h. -/
theorem Gb_apply (h : Fin 8) (k : Fin 128) :
    (FloatOps.ofBits (F := Ideal) .f32 (lit1 (S8x128.rowMajor (ix2 h k))) : EReal)
      = if k.val / 16 = h.val then 1 else 0 := by
  have hv : (S8x128.rowMajor (ix2 h k)).val = 128 * h.val + k.val := by
    rw [Shape.rowMajor_val_two]
    show h.val * 128 + k.val = _
    omega
  have hw : lit1 (S8x128.rowMajor (ix2 h k)) = lit1t (128 * h.val + k.val) := by
    rw [← hv]
  rw [hw, lit1_word h k]
  exact ofBits_ite _

/-! ## Sums against a table's column and row -/

/-- Summing a row against column h of G keeps the 16 lanes of head h: lane k = 16 h + d corresponds to d = k mod 16. -/
theorem sum_group (a : Fin 128 → EReal) (h : Fin 8) :
    ∑ k : Fin 128, a k * (if k.val / 16 = h.val then (1 : EReal) else 0)
      = ∑ d : Fin 16, a (Cert.EdgeAttention.lane h d) := by
  simp only [mul_ite, mul_one, mul_zero]
  rw [← Finset.sum_filter]
  symm
  refine Finset.sum_nbij' (fun d => Cert.EdgeAttention.lane h d)
    (fun k => (⟨k.val % 16, Nat.mod_lt _ (by norm_num)⟩ : Fin 16)) ?_ ?_ ?_ ?_ ?_
  · intro d _
    have := d.isLt
    simp only [Finset.mem_filter, Finset.mem_univ, true_and, Cert.EdgeAttention.lane]
    omega
  · intro k _
    exact Finset.mem_univ _
  · intro d _
    have := d.isLt
    apply Fin.ext
    simp only [Cert.EdgeAttention.lane]
    omega
  · intro k hk
    have hk' : k.val / 16 = h.val := by simpa using hk
    apply Fin.ext
    simp only [Cert.EdgeAttention.lane]
    omega
  · intro d _
    rfl

/-- Summing 8 head values against column k of Gb keeps the one head lane k lies in. -/
theorem sum_spread (s : Fin 8 → EReal) (k : Fin 128) :
    ∑ h : Fin 8, s h * (if k.val / 16 = h.val then (1 : EReal) else 0) = s (Cert.EdgeAttention.headOf k) := by
  simp only [mul_ite, mul_one, mul_zero]
  have hc : ∀ h : Fin 8, (k.val / 16 = h.val) ↔ (Cert.EdgeAttention.headOf k = h) := fun h => by
    simp only [Cert.EdgeAttention.headOf, Fin.ext_iff]
  simp only [hc]
  rw [Finset.sum_ite_eq]
  simp

end Cert.KernelIdeal.Grouping

end
-- ==== Proof.RowGather.lean ====
/-
  A row gather read at one element: result row `e` is the operand's row named by the start word of `e`, read signed
  and clamped into the operand's 50000 rows (a gather clamps its start so that the one-row slice fits), the window
  position kept.
-/
import Idealize.ShloMosaic.PureOps.ShapeOps
import Idealize.ShloMosaic.Lib.ValueIdx

noncomputable section

namespace Cert.RowGather

open Idealize.ShloMosaic Idealize.ShloMosaic.ValueIdx

/-- One window axis. -/
theorem gather_rows2 {α : Type} {C : Nat}
    (d : GatherDims (⟨2, ![50000, C]⟩ : Shape) (⟨2, ![800000, 1]⟩ : Shape) (⟨2, ![800000, C]⟩ : Shape))
    (hod : d.offsetDims = [1]) (hcs : d.collapsedSliceDims = [0]) (hob : d.operandBatchingDims = [])
    (hsb : d.startIndicesBatchingDims = []) (hsm : d.startIndexMap = [0]) (hiv : d.indexVectorDim = 1)
    (hss : d.sliceSizes = ![1, C])
    (x : (⟨2, ![50000, C]⟩ : Shape).Idx → α) (idx : IVec (⟨2, ![800000, 1]⟩ : Shape) 32) (e : Fin 800000) (k : Fin C) :
    Host.gather d x idx (ix2 e k) = x (ix2 (⟨min (idx (ix2 e 0)).toInt.toNat 49999, by omega⟩ : Fin 50000) k) := by
  obtain ⟨od, cs, ob, sb, sm, iv, ss, wf⟩ := d
  simp only at hod hcs hob hsb hsm hiv hss
  subst hod hcs hob hsb hsm hiv hss
  unfold Host.gather
  congr 1
  funext a
  refine Fin.ext ?_
  match a with
  | ⟨0, h0⟩ =>
    -- the row axis: collapsed, so no window position; the start is the clamped word
    show GatherDims.start _ (ix2 e k) idx ⟨0, h0⟩ + GatherDims.batchCoord _ (ix2 e k) ⟨0, h0⟩
      + GatherDims.offCoord _ (ix2 e k) ⟨0, h0⟩ = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    dsimp only
    rw [dif_pos (show (⟨0, h0⟩ : Fin 2) ∈ ([0] : List (Fin 2)) from List.mem_singleton.mpr rfl)]
    refine congrArg₂ min (congrArg (fun v => (idx v).toInt.toNat) ?_) rfl
    funext b
    refine Fin.ext ?_
    match b with
    | ⟨0, _⟩ => rfl
    | ⟨1, _⟩ => rfl
  | ⟨1, h1⟩ =>
    -- the window axis: no start, the window position alone
    show GatherDims.start _ (ix2 e k) idx ⟨1, h1⟩ + GatherDims.batchCoord _ (ix2 e k) ⟨1, h1⟩
      + GatherDims.offCoord _ (ix2 e k) ⟨1, h1⟩ = _
    rw [GatherDims.batchCoord_eq_zero _ _ _ List.not_mem_nil]
    unfold GatherDims.start
    dsimp only
    rw [dif_neg (show (⟨1, h1⟩ : Fin 2) ∉ ([0] : List (Fin 2)) from
      fun h => absurd (congrArg Fin.val (List.mem_singleton.mp h)) Nat.one_ne_zero)]
    simp only [Nat.zero_add]
    unfold GatherDims.offCoord
    split
    · rfl
    · rename_i hn
      exact absurd ((GatherDims.mem_sKept _ _).mpr
        ⟨fun h => absurd (congrArg Fin.val (List.mem_singleton.mp h)) Nat.one_ne_zero, List.not_mem_nil⟩) hn

/-- Two window axes. -/
theorem gather_rows3 {α : Type} {A B : Nat}
    (d : GatherDims (⟨3, ![50000, A, B]⟩ : Shape) (⟨2, ![800000, 1]⟩ : Shape) (⟨3, ![800000, A, B]⟩ : Shape))
    (hod : d.offsetDims = [1, 2]) (hcs : d.collapsedSliceDims = [0]) (hob : d.operandBatchingDims = [])
    (hsb : d.startIndicesBatchingDims = []) (hsm : d.startIndexMap = [0]) (hiv : d.indexVectorDim = 1)
    (hss : d.sliceSizes = ![1, A, B])
    (x : (⟨3, ![50000, A, B]⟩ : Shape).Idx → α) (idx : IVec (⟨2, ![800000, 1]⟩ : Shape) 32) (e : Fin 800000)
    (a : Fin A) (b : Fin B) :
    Host.gather d x idx (ix3 e a b) = x (ix3 (⟨min (idx (ix2 e 0)).toInt.toNat 49999, by omega⟩ : Fin 50000) a b) := by
  obtain ⟨od, cs, ob, sb, sm, iv, ss, wf⟩ := d
  simp only at hod hcs hob hsb hsm hiv hss
  subst hod hcs hob hsb hsm hiv hss
  unfold Host.gather
  congr 1
  funext c
  refine Fin.ext ?_
  match c with
  | ⟨0, h0⟩ =>
    -- the row axis: collapsed, so no window position; the start is the clamped word
    show GatherDims.start _ (ix3 e a b) idx ⟨0, h0⟩ + GatherDims.batchCoord _ (ix3 e a b) ⟨0, h0⟩
      + GatherDims.offCoord _ (ix3 e a b) ⟨0, h0⟩ = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    dsimp only
    rw [dif_pos (show (⟨0, h0⟩ : Fin 3) ∈ ([0] : List (Fin 3)) from List.mem_singleton.mpr rfl)]
    refine congrArg₂ min (congrArg (fun v => (idx v).toInt.toNat) ?_) rfl
    funext r
    refine Fin.ext ?_
    match r with
    | ⟨0, _⟩ => rfl
    | ⟨1, _⟩ => rfl
  | ⟨1, h1⟩ =>
    -- the first window axis: no start, the window position alone
    show GatherDims.start _ (ix3 e a b) idx ⟨1, h1⟩ + GatherDims.batchCoord _ (ix3 e a b) ⟨1, h1⟩
      + GatherDims.offCoord _ (ix3 e a b) ⟨1, h1⟩ = _
    rw [GatherDims.batchCoord_eq_zero _ _ _ List.not_mem_nil]
    unfold GatherDims.start
    dsimp only
    rw [dif_neg (show (⟨1, h1⟩ : Fin 3) ∉ ([0] : List (Fin 3)) from
      fun h => absurd (congrArg Fin.val (List.mem_singleton.mp h)) (Nat.succ_ne_zero _))]
    simp only [Nat.zero_add]
    unfold GatherDims.offCoord
    split
    · rfl
    · rename_i hn
      exact absurd ((GatherDims.mem_sKept _ _).mpr
        ⟨fun h => absurd (congrArg Fin.val (List.mem_singleton.mp h)) (Nat.succ_ne_zero _), List.not_mem_nil⟩) hn
  | ⟨2, h2⟩ =>
    -- the second window axis, likewise
    show GatherDims.start _ (ix3 e a b) idx ⟨2, h2⟩ + GatherDims.batchCoord _ (ix3 e a b) ⟨2, h2⟩
      + GatherDims.offCoord _ (ix3 e a b) ⟨2, h2⟩ = _
    rw [GatherDims.batchCoord_eq_zero _ _ _ List.not_mem_nil]
    unfold GatherDims.start
    dsimp only
    rw [dif_neg (show (⟨2, h2⟩ : Fin 3) ∉ ([0] : List (Fin 3)) from
      fun h => absurd (congrArg Fin.val (List.mem_singleton.mp h)) (Nat.succ_ne_zero _))]
    simp only [Nat.zero_add]
    unfold GatherDims.offCoord
    split
    · rfl
    · rename_i hn
      exact absurd ((GatherDims.mem_sKept _ _).mpr
        ⟨fun h => absurd (congrArg Fin.val (List.mem_singleton.mp h)) (Nat.succ_ne_zero _), List.not_mem_nil⟩) hn

end Cert.RowGather

end
-- ==== Proof.EntryValue.lean ====
/-
  What the host operations before the region leave in each buffer the region reads, at the ideal instance: the gathered
  key, value and query rows as projections of the node rows, the edge weights and edge rows unchanged, and the two 0/1
  grouping tables by their printed words.
-/
import proofs.«410480_j64037962384023_3_alg».proof.Proof.Entry
import proofs.«410480_j64037962384023_3_alg».proof.Proof.Spec
import proofs.«410480_j64037962384023_3_alg».proof.Proof.RowGather
import Idealize.ShloMosaic.Lib.StableHlo.Run
import Idealize.ShloMosaic.Lib.ValueIdx
import Idealize.ShloMosaic.Lib.Pipeline.Value
import Idealize.ShloMosaic.PureOps.Ideal.Laws

noncomputable section

open scoped BigOperators

namespace Cert.KernelIdeal.EntryValue

open Idealize.ShloMosaic Idealize.ShloMosaic.TcCoe Idealize.SL.Sem Idealize.ShloMosaic.StableHlo
open Cert.KernelIdeal Cert.KernelIdeal.Gen Cert.KernelIdeal.Hand Cert.EdgeAttention Idealize.ShloMosaic.ValueIdx

variable (m : (ℓ : Loc nD τ sig) → Buf (Elt Ideal) ℓ) (c : Dev nD)

/-- The node rows at launch, as an array of extended reals. -/
abbrev nf : FVec Ideal S50000x128 .f32 := m ((c.tc : Thread nD τ).loc main_arg0)
/-- The query, key, value and edge weight matrices. -/
abbrev wq : FVec Ideal S128x128 .f32 := m ((c.tc : Thread nD τ).loc main_arg2)
abbrev wk : FVec Ideal S128x128 .f32 := m ((c.tc : Thread nD τ).loc main_arg3)
abbrev wv : FVec Ideal S128x128 .f32 := m ((c.tc : Thread nD τ).loc main_arg4)
abbrev we : FVec Ideal S128x128 .f32 := m ((c.tc : Thread nD τ).loc main_arg5)

/-! ## Each buffer as the host operations' term of the arguments -/

/-- The edge weights' buffer: the argument, rounded to the narrower format. -/
theorem we_term : @Eq (FVec Ideal S128x128 .bf16) (V m c main_v22) (truncf .bf16 (we m c) bitsLt_bf16_f32) := by
  dsimp only [V, V0]
  simp only [hostOps0, List.flatten_cons, List.flatten_nil, List.append_nil]
  after_results <;> rfl

/-- The edge rows' buffer: the argument itself. -/
theorem ef_term : @Eq (FVec Ideal S800000x128 .f32) (V m c main_arg1) (m ((c.tc : Thread nD τ).loc main_arg1)) := by
  dsimp only [V, V0]
  simp only [hostOps0, List.flatten_cons, List.flatten_nil, List.append_nil]
  after_results

/-- The lane-to-head table, word by word in row-major order. -/
theorem g_term : @Eq (FVec Ideal S128x8 .f32) (V m c main_cst) (fun i => FloatOps.ofBits (F := Ideal) .f32 (lit0 (S128x8.rowMajor i))) := by
  dsimp only [V, V0]
  simp only [hostOps0, List.flatten_cons, List.flatten_nil, List.append_nil]
  after_results <;> rfl

/-- The head-to-lane table, word by word in row-major order. -/
theorem gb_term : @Eq (FVec Ideal S8x128 .f32) (V m c main_cst_0) (fun i => FloatOps.ofBits (F := Ideal) .f32 (lit1 (S8x128.rowMajor i))) := by
  dsimp only [V, V0]
  simp only [hostOps0, List.flatten_cons, List.flatten_nil, List.append_nil]
  after_results <;> rfl

/-- An endpoint word made a row index the way the program does: a negative word has the node count added; then as a
    one-column array. -/
def wrapCol (x : IVec S800000 32) : Col :=
  broadcastInDim S800000x1 ![0] bcast_S800000_S800000x1_0
    (select (cmpi .slt x (broadcastInDim S800000 ![] bcast_S_S800000 (constantI S_ 32 0#32)))
      (addi x (broadcastInDim S800000 ![] bcast_S_S800000 (constantI S_ 32 50000#32))) x)

/-- The three weight matrices side by side. -/
def wcat : FVec Ideal S128x384 .f32 :=
  concatenate S128x384 1 [⟨S128x128, wq m c⟩, ⟨S128x128, wk m c⟩, ⟨S128x128, wv m c⟩] concatenates_S128x128_S128x128_S128x128_S128x384_d1

/-- The node rows times the three matrices side by side. -/
def qkv : FVec Ideal S50000x384 .f32 :=
  Host.dotGeneral dot_S50000x128_S128x384_S50000x384_1_0_0_1_n_n none (nf m c) (wcat m c)

/-- The gathered queries: rows of the product's first 128 columns, taken at the wrapped destination words. -/
theorem q_term : @Eq (FVec Ideal S800000x128 .bf16) (V m c main_v21)
    (Host.gather gather_S50000x128_S800000x1_S800000x128_1_0_n_n_0_1_1128
      (truncf .bf16 (extractStridedSlice S50000x128 ![0, 0] (qkv m c) slices_S50000x384_S50000x128_0_0) bitsLt_bf16_f32)
      (wrapCol (m ((c.tc : Thread nD τ).loc main_arg7)))) := by
  dsimp only [V, V0]
  simp only [hostOps0, List.flatten_cons, List.flatten_nil, List.append_nil]
  after_results_simp
  rfl

/-- The gathered keys and values: rows of the product's columns 128–255 beside its columns 256–383, taken at the
    wrapped source words. -/
theorem kv_term : @Eq (FVec Ideal S800000x256 .bf16) (V m c main_v14)
    (Host.gather gather_S50000x256_S800000x1_S800000x256_1_0_n_n_0_1_1256
      (truncf .bf16 (concatenate S50000x256 1
        [⟨S50000x128, extractStridedSlice S50000x128 ![0, 128] (qkv m c) slices_S50000x384_S50000x128_0_128⟩,
         ⟨S50000x128, extractStridedSlice S50000x128 ![0, 256] (qkv m c) slices_S50000x384_S50000x128_0_256⟩]
        concatenates_S50000x128_S50000x128_S50000x256_d1) bitsLt_bf16_f32)
      (wrapCol (m ((c.tc : Thread nD τ).loc main_arg6)))) := by
  dsimp only [V, V0]
  simp only [hostOps0, List.flatten_cons, List.flatten_nil, List.append_nil]
  after_results_simp
  rfl

/-! ## The product of the node rows with the three matrices, read at an element -/

/-- The product's row coordinate is the result's, its contracted coordinate the contraction's, on either operand. -/
theorem lhs_0 (i : S50000x384.Idx) (q : dot_S50000x128_S128x384_S50000x384_1_0_0_1_n_n.contr.Idx) :
    (dot_S50000x128_S128x384_S50000x384_1_0_0_1_n_n.lhsIdx i q 0).val = (i 0).val := by
  unfold DotDims.lhsIdx
  rw [dif_neg (show ¬(0 : Fin S50000x128.rank) ∈ dot_S50000x128_S128x384_S50000x384_1_0_0_1_n_n.lhsBatch by decide),
    dif_pos (show (0 : Fin S50000x128.rank) ∈ dot_S50000x128_S128x384_S50000x384_1_0_0_1_n_n.lhsNonContracting by decide)]
  rfl
theorem lhs_1 (i : S50000x384.Idx) (q : dot_S50000x128_S128x384_S50000x384_1_0_0_1_n_n.contr.Idx) :
    (dot_S50000x128_S128x384_S50000x384_1_0_0_1_n_n.lhsIdx i q 1).val = (q ⟨0, by decide⟩).val :=
  dot_S50000x128_S128x384_S50000x384_1_0_0_1_n_n.lhsIdx_val_of_single rfl i q
theorem rhs_0 (i : S50000x384.Idx) (q : dot_S50000x128_S128x384_S50000x384_1_0_0_1_n_n.contr.Idx) :
    (dot_S50000x128_S128x384_S50000x384_1_0_0_1_n_n.rhsIdx i q 0).val = (q ⟨0, by decide⟩).val :=
  dot_S50000x128_S128x384_S50000x384_1_0_0_1_n_n.rhsIdx_val_of_single rfl i q
theorem rhs_1 (i : S50000x384.Idx) (q : dot_S50000x128_S128x384_S50000x384_1_0_0_1_n_n.contr.Idx) :
    (dot_S50000x128_S128x384_S50000x384_1_0_0_1_n_n.rhsIdx i q 1).val = (i 1).val := by
  unfold DotDims.rhsIdx
  rw [dif_neg (show ¬(1 : Fin S128x384.rank) ∈ dot_S50000x128_S128x384_S50000x384_1_0_0_1_n_n.rhsBatch by decide),
    dif_pos (show (1 : Fin S128x384.rank) ∈ dot_S50000x128_S128x384_S50000x384_1_0_0_1_n_n.rhsNonContracting by decide)]
  rfl

/-- An element of a product of a 50000 × 128 by a 128 × 384 matrix is the row against the column. -/
theorem dot_apply (X : FVec Ideal S50000x128 .f32) (W : FVec Ideal S128x384 .f32) (r : Fin 50000) (col : Fin 384) :
    Host.dotGeneral dot_S50000x128_S128x384_S50000x384_1_0_0_1_n_n none X W (ix2 r col)
      = ∑ j : Fin 128, X (ix2 r j) * W (ix2 j col) := by
  simp only [Host.dotGeneral]
  rw [Ideal.dotGeneral_apply, ← Equiv.sum_comp (contrEquiv1 dot_S50000x128_S128x384_S50000x384_1_0_0_1_n_n 128 rfl rfl).symm]
  refine Finset.sum_congr rfl fun j _ => ?_
  have hj := contrEquiv1_symm_val dot_S50000x128_S128x384_S50000x384_1_0_0_1_n_n 128 rfl rfl j
  have el : dot_S50000x128_S128x384_S50000x384_1_0_0_1_n_n.lhsIdx (ix2 r col)
      ((contrEquiv1 dot_S50000x128_S128x384_S50000x384_1_0_0_1_n_n 128 rfl rfl).symm j) = ix2 r j := funext fun a => Fin.ext (by
    match a with
    | ⟨0, _⟩ => exact lhs_0 _ _
    | ⟨1, _⟩ => exact (lhs_1 _ _).trans hj)
  have er : dot_S50000x128_S128x384_S50000x384_1_0_0_1_n_n.rhsIdx (ix2 r col)
      ((contrEquiv1 dot_S50000x128_S128x384_S50000x384_1_0_0_1_n_n 128 rfl rfl).symm j) = ix2 j col := funext fun a => Fin.ext (by
    match a with
    | ⟨0, _⟩ => exact (rhs_0 _ _).trans hj
    | ⟨1, _⟩ => exact rhs_1 _ _)
  rw [el, er]

/-- An element of the product of the node rows with the three matrices side by side. -/
theorem qkv_apply (r : Fin 50000) (col : Fin 384) :
    qkv m c (ix2 r col) = ∑ j : Fin 128, nf m c (ix2 r j) * wcat m c (ix2 j col) :=
  dot_apply (nf m c) (wcat m c) r col

/-! ## The three matrices side by side, read at a column of each part -/

/-- Column `k` of the side-by-side matrix is the first matrix's column `k`. -/
theorem wcat_q (j k : Fin 128) : wcat m c (ix2 j (Fin.castLE (by omega) k : Fin 384)) = wq m c (ix2 j k) := by
  unfold wcat
  exact concatenate_apply_piece (α := Ideal .f32) (1 : Fin S128x384.rank)
    [⟨S128x128, wq m c⟩, ⟨S128x128, wk m c⟩, ⟨S128x128, wv m c⟩] concatenates_S128x128_S128x128_S128x128_S128x384_d1
    (ix2 j (Fin.castLE (by omega) k : Fin 384)) 0 (by show 0 < 3; omega) S128x128 (wq m c) rfl rfl 0 rfl (ix2 j k)
    (fun b hb => by
      match b with
      | ⟨0, _⟩ => rfl
      | ⟨1, _⟩ => exact absurd rfl hb)
    (by show 0 + k.val = k.val; omega)

/-- Column `128 + k` is the second matrix's column `k`. -/
theorem wcat_k (j k : Fin 128) : wcat m c (ix2 j (⟨128 + k.val, by omega⟩ : Fin 384)) = wk m c (ix2 j k) := by
  unfold wcat
  exact concatenate_apply_piece (α := Ideal .f32) (1 : Fin S128x384.rank)
    [⟨S128x128, wq m c⟩, ⟨S128x128, wk m c⟩, ⟨S128x128, wv m c⟩] concatenates_S128x128_S128x128_S128x128_S128x384_d1
    (ix2 j (⟨128 + k.val, by omega⟩ : Fin 384)) 1 (by show 1 < 3; omega) S128x128 (wk m c) rfl rfl 128 rfl (ix2 j k)
    (fun b hb => by
      match b with
      | ⟨0, _⟩ => rfl
      | ⟨1, _⟩ => exact absurd rfl hb)
    (by show 128 + k.val = 128 + k.val; rfl)

/-- Column `256 + k` is the third matrix's column `k`. -/
theorem wcat_v (j k : Fin 128) : wcat m c (ix2 j (⟨256 + k.val, by omega⟩ : Fin 384)) = wv m c (ix2 j k) := by
  unfold wcat
  exact concatenate_apply_piece (α := Ideal .f32) (1 : Fin S128x384.rank)
    [⟨S128x128, wq m c⟩, ⟨S128x128, wk m c⟩, ⟨S128x128, wv m c⟩] concatenates_S128x128_S128x128_S128x128_S128x384_d1
    (ix2 j (⟨256 + k.val, by omega⟩ : Fin 384)) 2 (by show 2 < 3; omega) S128x128 (wv m c) rfl rfl 256 rfl (ix2 j k)
    (fun b hb => by
      match b with
      | ⟨0, _⟩ => rfl
      | ⟨1, _⟩ => exact absurd rfl hb)
    (by show 256 + k.val = 256 + k.val; rfl)

/-! ## The three projections as slices of the product -/

/-- A 128-column slice of a 384-column array read at an element: the array at the column shifted by the slice's start. -/
theorem slice0_apply (Q : FVec Ideal S50000x384 .f32) (r : Fin 50000) (k : Fin 128) :
    extractStridedSlice S50000x128 ![0, 0] Q slices_S50000x384_S50000x128_0_0 (ix2 r k)
      = Q (ix2 r (Fin.castLE (by omega) k : Fin 384)) :=
  extractStridedSlice_apply ![0, 0] Q slices_S50000x384_S50000x128_0_0 (ix2 r k)
    (ix2 r (Fin.castLE (by omega) k : Fin 384)) (fun a => by
      match a with
      | ⟨0, _⟩ => show r.val = 0 + r.val; omega
      | ⟨1, _⟩ => show k.val = 0 + k.val; omega)

theorem slice128_apply (Q : FVec Ideal S50000x384 .f32) (r : Fin 50000) (k : Fin 128) :
    extractStridedSlice S50000x128 ![0, 128] Q slices_S50000x384_S50000x128_0_128 (ix2 r k)
      = Q (ix2 r (⟨128 + k.val, by omega⟩ : Fin 384)) :=
  extractStridedSlice_apply ![0, 128] Q slices_S50000x384_S50000x128_0_128 (ix2 r k)
    (ix2 r (⟨128 + k.val, by omega⟩ : Fin 384)) (fun a => by
      match a with
      | ⟨0, _⟩ => show r.val = 0 + r.val; omega
      | ⟨1, _⟩ => show 128 + k.val = 128 + k.val; rfl)

theorem slice256_apply (Q : FVec Ideal S50000x384 .f32) (r : Fin 50000) (k : Fin 128) :
    extractStridedSlice S50000x128 ![0, 256] Q slices_S50000x384_S50000x128_0_256 (ix2 r k)
      = Q (ix2 r (⟨256 + k.val, by omega⟩ : Fin 384)) :=
  extractStridedSlice_apply ![0, 256] Q slices_S50000x384_S50000x128_0_256 (ix2 r k)
    (ix2 r (⟨256 + k.val, by omega⟩ : Fin 384)) (fun a => by
      match a with
      | ⟨0, _⟩ => show r.val = 0 + r.val; omega
      | ⟨1, _⟩ => show 256 + k.val = 256 + k.val; rfl)

/-- The product's three 128-column slices are the query, key and value projections of the node rows. -/
theorem slice_q (r : Fin 50000) (k : Fin 128) :
    extractStridedSlice S50000x128 ![0, 0] (qkv m c) slices_S50000x384_S50000x128_0_0 (ix2 r k) = proj (nf m c) (wq m c) r k := by
  rw [slice0_apply, qkv_apply]
  unfold proj
  exact Finset.sum_congr rfl fun j _ => by rw [wcat_q]

theorem slice_k (r : Fin 50000) (k : Fin 128) :
    extractStridedSlice S50000x128 ![0, 128] (qkv m c) slices_S50000x384_S50000x128_0_128 (ix2 r k) = proj (nf m c) (wk m c) r k := by
  rw [slice128_apply, qkv_apply]
  unfold proj
  exact Finset.sum_congr rfl fun j _ => by rw [wcat_k]

theorem slice_v (r : Fin 50000) (k : Fin 128) :
    extractStridedSlice S50000x128 ![0, 256] (qkv m c) slices_S50000x384_S50000x128_0_256 (ix2 r k) = proj (nf m c) (wv m c) r k := by
  rw [slice256_apply, qkv_apply]
  unfold proj
  exact Finset.sum_congr rfl fun j _ => by rw [wcat_v]

/-! ## What the region finds -/

/-- The first 128 columns of a gathered key-and-value row: the source node's key. -/
theorem kv_key (e : Fin 800000) (k : Fin 128) :
    V m c main_v14 (ix2 e (Fin.castLE (by omega) k : Fin 256))
      = proj (m ((c.tc : Thread nD τ).loc main_arg0)) (m ((c.tc : Thread nD τ).loc main_arg3))
          (row (wrapCol (m ((c.tc : Thread nD τ).loc main_arg6))) e) k := by
  refine (congrFun (kv_term m c) (ix2 e (Fin.castLE (by omega) k : Fin 256))).trans ?_
  refine (Cert.RowGather.gather_rows2 gather_S50000x256_S800000x1_S800000x256_1_0_n_n_0_1_1256 rfl rfl rfl rfl rfl rfl rfl
    _ _ e (Fin.castLE (by omega) k : Fin 256)).trans ?_
  refine (truncf_apply (ψ := .bf16) (φ := .f32) _ bitsLt_bf16_f32 _).trans ?_
  refine (concatenate_pair_apply_left (1 : Fin S50000x256.rank) _ _ concatenates_S50000x128_S50000x128_S50000x256_d1 _ rfl
    (ix2 (row (wrapCol (m ((c.tc : Thread nD τ).loc main_arg6))) e) k) (fun b => by
      match b with
      | ⟨0, _⟩ => rfl
      | ⟨1, _⟩ => rfl)).trans ?_
  exact slice_k m c _ k

/-- The last 128 columns: the source node's value. -/
theorem kv_value (e : Fin 800000) (k : Fin 128) :
    V m c main_v14 (ix2 e (⟨128 + k.val, by omega⟩ : Fin 256))
      = proj (m ((c.tc : Thread nD τ).loc main_arg0)) (m ((c.tc : Thread nD τ).loc main_arg4))
          (row (wrapCol (m ((c.tc : Thread nD τ).loc main_arg6))) e) k := by
  refine (congrFun (kv_term m c) (ix2 e (⟨128 + k.val, by omega⟩ : Fin 256))).trans ?_
  refine (Cert.RowGather.gather_rows2 gather_S50000x256_S800000x1_S800000x256_1_0_n_n_0_1_1256 rfl rfl rfl rfl rfl rfl rfl
    _ _ e (⟨128 + k.val, by omega⟩ : Fin 256)).trans ?_
  refine (truncf_apply (ψ := .bf16) (φ := .f32) _ bitsLt_bf16_f32 _).trans ?_
  refine (concatenate_pair_apply_right (1 : Fin S50000x256.rank) _ _ concatenates_S50000x128_S50000x128_S50000x256_d1 _ rfl rfl
    (ix2 (row (wrapCol (m ((c.tc : Thread nD τ).loc main_arg6))) e) k) (fun b hb => by
      match b with
      | ⟨0, _⟩ => rfl
      | ⟨1, _⟩ => exact absurd rfl hb)
    (by show k.val + 128 = 128 + k.val; omega)).trans ?_
  exact slice_v m c _ k

/-- A gathered query row: the destination node's query. -/
theorem q_dst (e : Fin 800000) (k : Fin 128) :
    V m c main_v21 (ix2 e k)
      = proj (m ((c.tc : Thread nD τ).loc main_arg0)) (m ((c.tc : Thread nD τ).loc main_arg2))
          (row (wrapCol (m ((c.tc : Thread nD τ).loc main_arg7))) e) k := by
  refine (congrFun (q_term m c) (ix2 e k)).trans ?_
  refine (Cert.RowGather.gather_rows2 gather_S50000x128_S800000x1_S800000x128_1_0_n_n_0_1_1128 rfl rfl rfl rfl rfl rfl rfl
    _ _ e k).trans ?_
  refine (truncf_apply (ψ := .bf16) (φ := .f32) _ bitsLt_bf16_f32 _).trans ?_
  exact slice_q m c _ k

/-- The edge weights: a rounding to the narrower format is the identity on the extended reals. -/
theorem we_entry : @Eq (S128x128.Idx → EReal) (V m c main_v22) (m ((c.tc : Thread nD τ).loc main_arg5)) :=
  (we_term m c).trans (funext fun i => truncf_apply _ _ i)

/-- The edge rows: no host operation writes an argument. -/
theorem ef_entry : V m c main_arg1 = m ((c.tc : Thread nD τ).loc main_arg1) := ef_term m c

/-- The two 0/1 tables by their printed words. -/
theorem g_entry (k : Fin 128) (h : Fin 8) :
    V m c main_cst (ix2 k h) = FloatOps.ofBits (F := Ideal) .f32 (lit0 (S128x8.rowMajor (ix2 k h))) :=
  congrFun (g_term m c) (ix2 k h)
theorem gb_entry (h : Fin 8) (k : Fin 128) :
    V m c main_cst_0 (ix2 h k) = FloatOps.ofBits (F := Ideal) .f32 (lit1 (S8x128.rowMajor (ix2 h k))) :=
  congrFun (gb_term m c) (ix2 h k)

end Cert.KernelIdeal.EntryValue

end
-- ==== Proof.KernelBridge.lean ====
/-
  The region's three array functions, fed with what the region finds in its operand arrays, are the specification's
  score, head weight and message.

  The key and value lanes of an edge's gathered row are the projections of the node row its source word names, the
  gathered query row the projection of the node row its destination word names; the edge rows and the edge weights
  arrive as they are; the two tables hold a one exactly where a lane lies in a head. So an edge's score is the
  specification's factor by factor; the sum of its scores against a column of the first table keeps the 16 lanes of one
  head, which is the head's clamped lane sum; and the sum of its head weights against a column of the second table keeps
  the one head the lane lies in.
-/
import proofs.«410480_j64037962384023_3_alg».proof.Proof.ArrayFns
import proofs.«410480_j64037962384023_3_alg».proof.Proof.Grouping
import proofs.«410480_j64037962384023_3_alg».proof.Proof.EntryValue

noncomputable section

open scoped BigOperators

namespace Cert.KernelIdeal.Bridge

open Idealize.ShloMosaic Idealize.ShloMosaic.ValueIdx Cert.KernelIdeal Cert.EdgeAttention

/-! ## Over any six arrays that hold what the region finds -/

section Abstract

variable (EF : S800000x128.Idx → EReal) (WE : S128x128.Idx → EReal) (KV : S800000x256.Idx → EReal)
  (QD : S800000x128.Idx → EReal) (G : S128x8.Idx → EReal) (Gb : S8x128.Idx → EReal)
  (nf : Mat 50000 128) (ef : Mat 800000 128) (Wq Wk Wv We : Mat 128 128) (si di : Col)
  (hkey : ∀ (e : Fin 800000) (k : Fin 128), KV (ix2 e (Fin.castLE (by omega) k)) = proj nf Wk (row si e) k)
  (hval : ∀ (e : Fin 800000) (k : Fin 128), KV (ix2 e ⟨128 + k.val, by omega⟩) = proj nf Wv (row si e) k)
  (hq : ∀ (e : Fin 800000) (k : Fin 128), QD (ix2 e k) = proj nf Wq (row di e) k)
  (hwe : WE = We) (hef : EF = ef)
  (hg : ∀ (k : Fin 128) (h : Fin 8), G (ix2 k h) = FloatOps.ofBits (F := Ideal) .f32 (lit0 (S128x8.rowMajor (ix2 k h))))
  (hgb : ∀ (h : Fin 8) (k : Fin 128), Gb (ix2 h k) = FloatOps.ofBits (F := Ideal) .f32 (lit1 (S8x128.rowMajor (ix2 h k))))

include hkey hq hwe hef in
/-- The score: the key lane, the query lane and the edge's projection are the specification's. -/
theorem score_eq_of (e : Fin 800000) (k : Fin 128) :
    Arrays.scoreAt EF WE KV QD e k = score nf ef Wq Wk We si di e k := by
  unfold Arrays.scoreAt score
  rw [hkey, hq, hwe, hef]
  rfl

include hkey hq hwe hef hg in
/-- The head weight: against column `h` of the first table the scores of head `h`'s 16 lanes remain. -/
theorem weight_eq_of (e : Fin 800000) (h : Fin 8) :
    Arrays.headAt EF WE KV QD G e h = weight nf ef Wq Wk We si di e h := by
  unfold Arrays.headAt weight
  refine congrArg Ideal.exp (congrArg clip ?_)
  rw [Finset.sum_congr rfl (fun k _ => by
    rw [score_eq_of EF WE KV QD nf ef Wq Wk We si di hkey hq hwe hef e k, hg k h, Grouping.G_apply k h])]
  exact Grouping.sum_group (fun k => score nf ef Wq Wk We si di e k) h

include hkey hval hq hwe hef hg hgb in
/-- The message: the value lane times, against column `k` of the second table, the weight of the head lane `k` lies in. -/
theorem msg_eq_of (e : Fin 800000) (k : Fin 128) :
    Arrays.msgAt EF WE KV QD G Gb e k = msg nf ef Wq Wk Wv We si di e k := by
  unfold Arrays.msgAt msg
  rw [hval]
  refine congrArg (fun t => proj nf Wv (row si e) k * t) ?_
  rw [Finset.sum_congr rfl (fun h _ => by
    rw [weight_eq_of EF WE KV QD G nf ef Wq Wk We si di hkey hq hwe hef hg e h, hgb h k, Grouping.Gb_apply h k])]
  exact Grouping.sum_spread (fun h => weight nf ef Wq Wk We si di e h) k

end Abstract

/-! ## At the region's entry -/

section AtEntry

open Idealize.ShloMosaic.TcCoe Idealize.SL Idealize.SL.Sem Cert.KernelIdeal.Gen Cert.KernelIdeal.Hand

variable (m : (ℓ : Loc nD τ sig) → Buf (Elt Ideal) ℓ) (c : Dev nD)

/-- The region's scores are the specification's, with each endpoint word made a row index the way the program does. -/
theorem score_eq (e : Fin 800000) (k : Fin 128) :
    Arrays.scoreAt (V m c main_arg1) (V m c main_v22) (V m c main_v14) (V m c main_v21) e k
      = score (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg5))
          (EntryValue.wrapCol (m ((c.tc : Thread nD τ).loc main_arg6))) (EntryValue.wrapCol (m ((c.tc : Thread nD τ).loc main_arg7))) e k :=
  score_eq_of _ _ _ _ _ _ _ _ _ _ _ (EntryValue.kv_key m c) (EntryValue.q_dst m c) (EntryValue.we_entry m c)
    (EntryValue.ef_entry m c) e k

/-- The region's head weights are the specification's. -/
theorem weight_eq (e : Fin 800000) (h : Fin 8) :
    Arrays.headAt (V m c main_arg1) (V m c main_v22) (V m c main_v14) (V m c main_v21) (V m c main_cst) e h
      = weight (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg5))
          (EntryValue.wrapCol (m ((c.tc : Thread nD τ).loc main_arg6))) (EntryValue.wrapCol (m ((c.tc : Thread nD τ).loc main_arg7))) e h :=
  weight_eq_of _ _ _ _ _ _ _ _ _ _ _ _ (EntryValue.kv_key m c) (EntryValue.q_dst m c) (EntryValue.we_entry m c)
    (EntryValue.ef_entry m c) (EntryValue.g_entry m c) e h

/-- The region's messages are the specification's. -/
theorem msg_eq (e : Fin 800000) (k : Fin 128) :
    Arrays.msgAt (V m c main_arg1) (V m c main_v22) (V m c main_v14) (V m c main_v21) (V m c main_cst)
        (V m c main_cst_0) e k
      = msg (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) (m ((c.tc : Thread nD τ).loc main_arg5))
          (EntryValue.wrapCol (m ((c.tc : Thread nD τ).loc main_arg6))) (EntryValue.wrapCol (m ((c.tc : Thread nD τ).loc main_arg7))) e k :=
  msg_eq_of _ _ _ _ _ _ _ _ _ _ _ _ _ _ (EntryValue.kv_key m c) (EntryValue.kv_value m c) (EntryValue.q_dst m c)
    (EntryValue.we_entry m c) (EntryValue.ef_entry m c) (EntryValue.g_entry m c) (EntryValue.gb_entry m c) e k

end AtEntry

end Cert.KernelIdeal.Bridge

end
-- ==== Proof.KernelValue.lean ====
/-
  The idealized kernel's two results as the edge-attention functions of its arguments.

  The region's three arrays are the score, head-weight and message functions of what the region finds in its six
  operand arrays; those are the specification's score, weight and message of the program's arguments; and the host
  operations after the region scatter the messages and the weights into the nodes, divide, and lay heads and lanes
  apart. So the run ends with the first result at the node outputs and the second at the edge scores.
-/
import proofs.«410480_j64037962384023_3_alg».proof.Proof.Frame
import proofs.«410480_j64037962384023_3_alg».proof.Proof.KernelArrays
import proofs.«410480_j64037962384023_3_alg».proof.Proof.KernelTail
import proofs.«410480_j64037962384023_3_alg».proof.Proof.KernelBridge
import proofs.«410480_j64037962384023_3_alg».proof.Proof.EntryValue
import proofs.«410480_j64037962384023_3_alg».proof.Proof.Spec

noncomputable section

open scoped BigOperators

namespace Cert.KernelIdeal.Result

open Idealize.ShloMosaic Idealize.ShloMosaic.TcCoe Idealize.ShloMosaic.ValueIdx
open Idealize.SL Idealize.SL.Sem
open Cert.KernelIdeal Cert.KernelIdeal.Gen Cert.KernelIdeal.Hand Cert.EdgeAttention

variable (m : (ℓ : Loc nD τ sig) → Buf (Elt Ideal) ℓ) (ρ : Dev nD → PrngReg)

/-- The node outputs and the edge scores of core `c`'s arguments. -/
abbrev nodeRes (c : Dev nD) : (⟨3, ![50000, 8, 16]⟩ : Shape).Idx → EReal :=
  nodeOut (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (EntryValue.wrapCol (m ((c.tc : Thread nD τ).loc main_arg6))) (EntryValue.wrapCol (m ((c.tc : Thread nD τ).loc main_arg7)))
    (Tail.rawCol (m ((c.tc : Thread nD τ).loc main_arg7)))
abbrev edgeRes (c : Dev nD) : (⟨3, ![800000, 8, 16]⟩ : Shape).Idx → EReal :=
  edgeOut (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg5))
    (EntryValue.wrapCol (m ((c.tc : Thread nD τ).loc main_arg6))) (EntryValue.wrapCol (m ((c.tc : Thread nD τ).loc main_arg7)))

/-- Lane `d` of head `h` lies in head `h`. -/
theorem headOf_lane (h : Fin 8) (d : Fin 16) : headOf (lane h d) = h :=
  Fin.ext (by have := d.isLt; simp only [headOf, lane]; omega)

/-- The second result: the score array with heads and lanes apart. -/
theorem edge_result (c : Dev nD) :
    Pipeline.afterTail₀ cfgs (dats m) 0 (V0 m) [hostOps1] c main_v36 = edgeRes m c := by
  funext i
  obtain ⟨e, h, d, rfl⟩ : ∃ (e : Fin 800000) (h : Fin 8) (d : Fin 16), i = ix3 e h d := ⟨i 0, i 1, i 2, eq_ix3 i⟩
  rw [Tail.tail_edge, Arrays.final6]
  exact Bridge.score_eq m c e (lane h d)

/-- The first result: the messages that arrive at a node over the weights that arrive plus the constant. -/
theorem node_result (c : Dev nD) :
    Pipeline.afterTail₀ cfgs (dats m) 0 (V0 m) [hostOps1] c main_v35 = nodeRes m c := by
  funext i
  obtain ⟨n, h, d, rfl⟩ : ∃ (n : Fin 50000) (h : Fin 8) (d : Fin 16), i = ix3 n h d := ⟨i 0, i 1, i 2, eq_ix3 i⟩
  rw [Tail.tail_node, Arrays.final7, Arrays.final8]
  have hm : ∀ e : Fin 800000,
      Arrays.msgArr (V m c main_arg1) (V m c main_v22) (V m c main_v14) (V m c main_v21) (V m c main_cst) (V m c main_cst_0)
          (ix2 e (lane h d))
        = msg (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (EntryValue.wrapCol (m ((c.tc : Thread nD τ).loc main_arg6))) (EntryValue.wrapCol (m ((c.tc : Thread nD τ).loc main_arg7)))
            e (lane h d) :=
    fun e => Bridge.msg_eq m c e (lane h d)
  have hw : ∀ e : Fin 800000,
      Arrays.headArr (V m c main_arg1) (V m c main_v22) (V m c main_v14) (V m c main_v21) (V m c main_cst) (ix2 e h)
        = weight (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg5))
            (EntryValue.wrapCol (m ((c.tc : Thread nD τ).loc main_arg6))) (EntryValue.wrapCol (m ((c.tc : Thread nD τ).loc main_arg7)))
            e h :=
    fun e => Bridge.weight_eq m c e h
  simp only [hm, hw]
  show _ = node _ _ _ _ _ _ _ _ _ n (lane h d)
  unfold node into
  rw [headOf_lane]

/-- Every weakly fair execution of the idealized kernel's @main terminates without a fault, with the two results at the
    node outputs and the edge scores of the arguments and every argument as launched. -/
theorem run : θ_run defs (onTc (τ := τ) (main (F := Ideal))) ⟨m, fun _ => 0, ρ⟩ (fun r => ∀ c : Dev nD,
      r.2.mem ((c.tc : Thread nD τ).loc main_v35) = nodeRes m c
      ∧ r.2.mem ((c.tc : Thread nD τ).loc main_v36) = edgeRes m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
      ⟨(result_of_post m r h c main_v35 (Pipeline.mem_restRefs_of main_v35 (by decide) (by decide))).trans (node_result m c),
        (result_of_post m r h c main_v36 (Pipeline.mem_restRefs_of main_v36 (by decide) (by decide))).trans (edge_result m c),
        kept_of_post m r h c⟩)
    (run_main m ρ)

end Cert.KernelIdeal.Result

end
-- ==== Proof.RefValue.lean ====
/-
  The reference program's two results, read on the extended reals, are the edge attention of the specification.

  The three projections of the node rows and the projection of the edge rows are sums over the 128 input features;
  reshaped to 8 heads of 16 lanes, element (row, h, d) is the projection at lane 16 h + d. Each of the three gathers
  reads the row named by its start word (a wrapped endpoint), so the clamped scaled product times the edge projection
  is the score; the lane sum of a head, clamped and exponentiated, is the weight; the gathered value times the weight
  is the message. The two scatter-adds start from zero and add every edge's row into the row its destination word
  names, which gives the two sums of a node's output, and the quotient is the same on both sides.
-/
import proofs.«410480_j64037962384023_3_alg».proof.Proof.Gen.ReferenceIdeal.Read
import proofs.«410480_j64037962384023_3_alg».proof.Proof.Spec
import proofs.«410480_j64037962384023_3_alg».proof.Proof.RowScatter
import proofs.«410480_j64037962384023_3_alg».proof.Proof.RowGather

noncomputable section

open scoped BigOperators

namespace Cert.ReferenceIdeal.RefValue

open Cert.ReferenceIdeal Cert.ReferenceIdeal.Gen Cert.ReferenceIdeal.Read Idealize.ShloMosaic Idealize.ShloMosaic.ValueIdx

/-- An endpoint array with its negative entries wrapped (a negative word has the node count 50000 added), as a column. -/
def wrapCol (x : IVec S800000 32) : Cert.EdgeAttention.Col :=
  broadcastInDim S800000x1 ![0] bcast_S800000_S800000x1_0 (select (cmpi .slt x (broadcastInDim S800000 ![] bcast_S_S800000 (constantI S_ 32 0#32))) (addi x (broadcastInDim S800000 ![] bcast_S_S800000 (constantI S_ 32 50000#32))) x)

/-- An endpoint array as it stands, as a column. -/
def rawCol (x : IVec S800000 32) : Cert.EdgeAttention.Col :=
  broadcastInDim S800000x1 ![0] bcast_S800000_S800000x1_0 x

variable (x0 : (⟨S50000x128, .f32⟩ : BufTy).Contents (Elt Ideal)) (x1 : (⟨S800000x128, .f32⟩ : BufTy).Contents (Elt Ideal))
  (x2 x3 x4 x5 : (⟨S128x128, .f32⟩ : BufTy).Contents (Elt Ideal)) (x6 x7 : (⟨S800000, .i32⟩ : BufTy).Contents (Elt Ideal))

/-- The index columns of the program are these: three wrapped ones for the gathers, two plain ones for the scatters. -/
theorem v13_eq : val_main_v13 (F := Ideal) x6 = wrapCol x6 := rfl
theorem v20_eq : val_main_v20 (F := Ideal) x7 = wrapCol x7 := rfl
theorem v36_eq : val_main_v36 (F := Ideal) x6 = wrapCol x6 := rfl
theorem v41_eq : val_main_v41 (F := Ideal) x7 = rawCol x7 := rfl
theorem v44_eq : val_main_v44 (F := Ideal) x7 = rawCol x7 := rfl

/-- Lane arithmetic: the flat position of (row, h, d) in rows of 128, and the head of lane 16 h + d. -/
theorem flat_div (n h d : Nat) (hh : h < 8) (hd : d < 16) : ((n * 8 + h) * 16 + d) / 128 = n := by omega
theorem flat_mod (n h d : Nat) (hh : h < 8) (hd : d < 16) : ((n * 8 + h) * 16 + d) % 128 = 16 * h + d := by omega
theorem headOf_lane (h : Fin 8) (d : Fin 16) : Cert.EdgeAttention.headOf (Cert.EdgeAttention.lane h d) = h :=
  Fin.ext (by show (16 * h.val + d.val) / 16 = h.val; omega)

/-! ## The four projections, reshaped -/

/-- The key projection of the node rows at (n, h, d). -/
theorem v3_at (n : Fin 50000) (h : Fin 8) (d : Fin 16) :
    val_main_v3 (F := Ideal) x0 x3 (ix3 n h d) = Cert.EdgeAttention.proj x0 x3 n (Cert.EdgeAttention.lane h d) := by
  rw [val_main_v3_apply, val_main_v2_apply]
  unfold Cert.EdgeAttention.proj
  refine Finset.sum_congr rfl fun k _ => ?_
  congr 2
  · funext a
    match a with
    | ⟨0, _⟩ => exact Fin.ext (flat_div n.val h.val d.val h.isLt d.isLt)
    | ⟨1, _⟩ => rfl
  · funext a
    match a with
    | ⟨0, _⟩ => rfl
    | ⟨1, _⟩ => exact Fin.ext (flat_mod n.val h.val d.val h.isLt d.isLt)

/-- The query projection of the node rows at (n, h, d). -/
theorem v1_at (n : Fin 50000) (h : Fin 8) (d : Fin 16) :
    val_main_v1 (F := Ideal) x0 x2 (ix3 n h d) = Cert.EdgeAttention.proj x0 x2 n (Cert.EdgeAttention.lane h d) := by
  rw [val_main_v1_apply, val_main_v0_apply]
  unfold Cert.EdgeAttention.proj
  refine Finset.sum_congr rfl fun k _ => ?_
  congr 2
  · funext a
    match a with
    | ⟨0, _⟩ => exact Fin.ext (flat_div n.val h.val d.val h.isLt d.isLt)
    | ⟨1, _⟩ => rfl
  · funext a
    match a with
    | ⟨0, _⟩ => rfl
    | ⟨1, _⟩ => exact Fin.ext (flat_mod n.val h.val d.val h.isLt d.isLt)

/-- The value projection of the node rows at (n, h, d). -/
theorem v5_at (n : Fin 50000) (h : Fin 8) (d : Fin 16) :
    val_main_v5 (F := Ideal) x0 x4 (ix3 n h d) = Cert.EdgeAttention.proj x0 x4 n (Cert.EdgeAttention.lane h d) := by
  rw [val_main_v5_apply, val_main_v4_apply]
  unfold Cert.EdgeAttention.proj
  refine Finset.sum_congr rfl fun k _ => ?_
  congr 2
  · funext a
    match a with
    | ⟨0, _⟩ => exact Fin.ext (flat_div n.val h.val d.val h.isLt d.isLt)
    | ⟨1, _⟩ => rfl
  · funext a
    match a with
    | ⟨0, _⟩ => rfl
    | ⟨1, _⟩ => exact Fin.ext (flat_mod n.val h.val d.val h.isLt d.isLt)

/-- The projection of the edge rows at (e, h, d). -/
theorem v7_at (e : Fin 800000) (h : Fin 8) (d : Fin 16) :
    val_main_v7 (F := Ideal) x1 x5 (ix3 e h d) = Cert.EdgeAttention.proj x1 x5 e (Cert.EdgeAttention.lane h d) := by
  rw [val_main_v7_apply, val_main_v6_apply]
  unfold Cert.EdgeAttention.proj
  refine Finset.sum_congr rfl fun k _ => ?_
  congr 2
  · funext a
    match a with
    | ⟨0, _⟩ => exact Fin.ext (flat_div e.val h.val d.val h.isLt d.isLt)
    | ⟨1, _⟩ => rfl
  · funext a
    match a with
    | ⟨0, _⟩ => rfl
    | ⟨1, _⟩ => exact Fin.ext (flat_mod e.val h.val d.val h.isLt d.isLt)

/-! ## The three gathers -/

/-- The key at the edge's source. -/
theorem v14_at (e : Fin 800000) (h : Fin 8) (d : Fin 16) :
    val_main_v14 (F := Ideal) x0 x3 x6 (ix3 e h d)
      = Cert.EdgeAttention.proj x0 x3 (Cert.EdgeAttention.row (wrapCol x6) e) (Cert.EdgeAttention.lane h d) := by
  unfold val_main_v14
  refine (Cert.RowGather.gather_rows3 _ rfl rfl rfl rfl rfl rfl rfl (val_main_v3 (F := Ideal) x0 x3) (val_main_v13 (F := Ideal) x6) e h d).trans ?_
  rw [v13_eq]
  exact v3_at x0 x3 _ h d

/-- The query at the edge's destination. -/
theorem v21_at (e : Fin 800000) (h : Fin 8) (d : Fin 16) :
    val_main_v21 (F := Ideal) x0 x2 x7 (ix3 e h d)
      = Cert.EdgeAttention.proj x0 x2 (Cert.EdgeAttention.row (wrapCol x7) e) (Cert.EdgeAttention.lane h d) := by
  unfold val_main_v21
  refine (Cert.RowGather.gather_rows3 _ rfl rfl rfl rfl rfl rfl rfl (val_main_v1 (F := Ideal) x0 x2) (val_main_v20 (F := Ideal) x7) e h d).trans ?_
  rw [v20_eq]
  exact v1_at x0 x2 _ h d

/-- The value at the edge's source. -/
theorem v37_at (e : Fin 800000) (h : Fin 8) (d : Fin 16) :
    val_main_v37 (F := Ideal) x0 x4 x6 (ix3 e h d)
      = Cert.EdgeAttention.proj x0 x4 (Cert.EdgeAttention.row (wrapCol x6) e) (Cert.EdgeAttention.lane h d) := by
  unfold val_main_v37
  refine (Cert.RowGather.gather_rows3 _ rfl rfl rfl rfl rfl rfl rfl (val_main_v5 (F := Ideal) x0 x4) (val_main_v36 (F := Ideal) x6) e h d).trans ?_
  rw [v36_eq]
  exact v5_at x0 x4 _ h d

/-! ## Score, weight, message -/

/-- The second result at (e, h, d) is the score of edge e on lane 16 h + d. -/
theorem v26_at (e : Fin 800000) (h : Fin 8) (d : Fin 16) :
    val_main_v26 (F := Ideal) x0 x1 x2 x3 x5 x6 x7 (ix3 e h d)
      = Cert.EdgeAttention.score x0 x1 x2 x3 x5 (wrapCol x6) (wrapCol x7) e (Cert.EdgeAttention.lane h d) := by
  rw [val_main_v26_apply, val_main_v25_apply, val_main_call0_v4_apply, val_main_call0_v3_apply, val_main_cst_4_apply,
    val_main_call0_v2_apply, val_main_call0_v1_apply, val_main_call0_v0_apply, val_main_cst_3_apply,
    val_main_v24_apply, val_main_v22_apply, val_main_v23_apply, val_main_cst_apply, v14_at, v21_at, v7_at]
  rfl

/-- The exponential of the clamped lane sum of head h is the weight. -/
theorem v30_at (e : Fin 800000) (h : Fin 8) :
    val_main_v30 (F := Ideal) x0 x1 x2 x3 x5 x6 x7 (ix3 e h (0 : Fin 1))
      = Cert.EdgeAttention.weight x0 x1 x2 x3 x5 (wrapCol x6) (wrapCol x7) e h := by
  rw [val_main_v30_apply, val_main_v29_apply, val_main_call1_v4_apply, val_main_call1_v3_apply, val_main_cst_7_apply,
    val_main_call1_v2_apply, val_main_call1_v1_apply, val_main_call1_v0_apply, val_main_cst_6_apply,
    val_main_v28_apply, val_main_v27_apply, val_main_cst_5_apply]
  have hs : ∀ k : Fin 16, val_main_v26 (F := Ideal) x0 x1 x2 x3 x5 x6 x7 (idx_main_v27 (idx_main_v28 (ix3 e h (0 : Fin 1))) k)
      = Cert.EdgeAttention.score x0 x1 x2 x3 x5 (wrapCol x6) (wrapCol x7) e (Cert.EdgeAttention.lane h k) := fun k => by
    have hi : idx_main_v27 (idx_main_v28 (ix3 e h (0 : Fin 1))) k = ix3 e h k := by
      funext a
      match a with
      | ⟨0, _⟩ => rfl
      | ⟨1, _⟩ => rfl
      | ⟨2, _⟩ => rfl
    rw [hi, v26_at]
  rw [Finset.sum_congr rfl fun k _ => hs k, Ideal.ofBits_def (φ := .f32) 0x00000000#32, Ideal.ofBits_zero_f32, zero_add, Ideal.hostUnary_exp_def]
  rfl

/-- The gathered value times the broadcast weight is the message. -/
theorem v39_at (e : Fin 800000) (h : Fin 8) (d : Fin 16) :
    val_main_v39 (F := Ideal) x0 x1 x2 x3 x4 x5 x6 x7 (ix3 e h d)
      = Cert.EdgeAttention.msg x0 x1 x2 x3 x4 x5 (wrapCol x6) (wrapCol x7) e (Cert.EdgeAttention.lane h d) := by
  have hi : idx_main_v38 (ix3 e h d) = ix3 e h (0 : Fin 1) := by
    funext a
    match a with
    | ⟨0, _⟩ => rfl
    | ⟨1, _⟩ => rfl
    | ⟨2, _⟩ => rfl
  rw [val_main_v39_apply, v37_at, val_main_v38_apply, hi, v30_at]
  unfold Cert.EdgeAttention.msg
  rw [headOf_lane]
  rfl

/-! ## The two scatter-adds -/

/-- The messages' scatter-add at the program's dimension numbers, over any operand, index column and updates. -/
theorem scat_lanes (x : S50000x8x16.Idx → EReal) (idx : IVec S800000x1 32) (upd : S800000x8x16.Idx → EReal)
    (n : Fin 50000) (h : Fin 8) (d : Fin 16) :
    Ideal.hostScatterAdd scatter_S50000x8x16_S800000x1_S800000x8x16_12_0_0_1 x idx upd (ix3 n h d)
      = x (ix3 n h d) + ∑ e ∈ Finset.univ.filter (fun e : Fin 800000 => (idx (ix2 e 0)).toInt = (n.val : Int)), upd (ix3 e h d) :=
  Cert.RowScatter.scatterAdd_rows3 (A := 8) (B := 16) scatter_S50000x8x16_S800000x1_S800000x8x16_12_0_0_1 rfl rfl rfl rfl x idx upd n h d

/-- The weights' scatter-add at the program's dimension numbers, over any operand, index column and updates. -/
theorem scat_heads (x : S50000x8x1.Idx → EReal) (idx : IVec S800000x1 32) (upd : S800000x8x1.Idx → EReal)
    (n : Fin 50000) (h : Fin 8) (d : Fin 1) :
    Ideal.hostScatterAdd scatter_S50000x8x1_S800000x1_S800000x8x1_12_0_0_1 x idx upd (ix3 n h d)
      = x (ix3 n h d) + ∑ e ∈ Finset.univ.filter (fun e : Fin 800000 => (idx (ix2 e 0)).toInt = (n.val : Int)), upd (ix3 e h d) :=
  Cert.RowScatter.scatterAdd_rows3 (A := 8) (B := 1) scatter_S50000x8x1_S800000x1_S800000x8x1_12_0_0_1 rfl rfl rfl rfl x idx upd n h d

theorem v42_open :
    val_main_v42 (F := Ideal) x0 x1 x2 x3 x4 x5 x6 x7
      = Ideal.hostScatterAdd scatter_S50000x8x16_S800000x1_S800000x8x16_12_0_0_1 (val_main_v40 (F := Ideal))
          (val_main_v41 (F := Ideal) x7) (val_main_v39 (F := Ideal) x0 x1 x2 x3 x4 x5 x6 x7) := rfl

theorem v45_open :
    val_main_v45 (F := Ideal) x0 x1 x2 x3 x5 x6 x7
      = Ideal.hostScatterAdd scatter_S50000x8x1_S800000x1_S800000x8x1_12_0_0_1 (val_main_v43 (F := Ideal))
          (val_main_v44 (F := Ideal) x7) (val_main_v30 (F := Ideal) x0 x1 x2 x3 x5 x6 x7) := rfl

/-- The scattered messages at (n, h, d): the sum over the edges that arrive at n. -/
theorem v42_at (n : Fin 50000) (h : Fin 8) (d : Fin 16) :
    val_main_v42 (F := Ideal) x0 x1 x2 x3 x4 x5 x6 x7 (ix3 n h d)
      = ∑ e ∈ Cert.EdgeAttention.into (rawCol x7) n,
          Cert.EdgeAttention.msg x0 x1 x2 x3 x4 x5 (wrapCol x6) (wrapCol x7) e (Cert.EdgeAttention.lane h d) := by
  rw [v42_open, scat_lanes, val_main_v40_apply, val_main_cst_10_apply, Ideal.ofBits_def (φ := .f32) 0x00000000#32,
    Ideal.ofBits_zero_f32, zero_add, v41_eq]
  exact Finset.sum_congr rfl fun e _ => v39_at x0 x1 x2 x3 x4 x5 x6 x7 e h d

/-- The scattered weights at (n, h): the sum over the edges that arrive at n. -/
theorem v45_at (n : Fin 50000) (h : Fin 8) :
    val_main_v45 (F := Ideal) x0 x1 x2 x3 x5 x6 x7 (ix3 n h (0 : Fin 1))
      = ∑ e ∈ Cert.EdgeAttention.into (rawCol x7) n,
          Cert.EdgeAttention.weight x0 x1 x2 x3 x5 (wrapCol x6) (wrapCol x7) e h := by
  rw [v45_open, scat_heads, val_main_v43_apply, val_main_cst_11_apply, Ideal.ofBits_def (φ := .f32) 0x00000000#32,
    Ideal.ofBits_zero_f32, zero_add, v44_eq]
  exact Finset.sum_congr rfl fun e _ => v30_at x0 x1 x2 x3 x5 x6 x7 e h

/-! ## The two results -/

/-- The first result is the specification's node output. -/
theorem nodeOut_eq :
    val_main_v49 (F := Ideal) x0 x1 x2 x3 x4 x5 x6 x7
      = Cert.EdgeAttention.nodeOut x0 x1 x2 x3 x4 x5 (wrapCol x6) (wrapCol x7) (rawCol x7) := by
  funext i
  obtain ⟨n, h, d, rfl⟩ : ∃ (n : Fin 50000) (h : Fin 8) (d : Fin 16), i = ix3 n h d := ⟨i 0, i 1, i 2, eq_ix3 i⟩
  have hi : idx_main_v48 (ix3 n h d) = ix3 n h (0 : Fin 1) := by
    funext a
    match a with
    | ⟨0, _⟩ => rfl
    | ⟨1, _⟩ => rfl
    | ⟨2, _⟩ => rfl
  rw [val_main_v49_apply, v42_at, val_main_v48_apply, hi, val_main_v47_apply, v45_at, val_main_v46_apply,
    val_main_cst_12_apply, Ideal.hostDivf_def]
  show _ = Cert.EdgeAttention.node x0 x1 x2 x3 x4 x5 (wrapCol x6) (wrapCol x7) (rawCol x7) n (Cert.EdgeAttention.lane h d)
  unfold Cert.EdgeAttention.node
  rw [headOf_lane]
  rfl

/-- The second result is the specification's edge output. -/
theorem edgeOut_eq :
    val_main_v26 (F := Ideal) x0 x1 x2 x3 x5 x6 x7
      = Cert.EdgeAttention.edgeOut x0 x1 x2 x3 x5 (wrapCol x6) (wrapCol x7) := by
  funext i
  obtain ⟨e, h, d, rfl⟩ : ∃ (e : Fin 800000) (h : Fin 8) (d : Fin 16), i = ix3 e h d := ⟨i 0, i 1, i 2, eq_ix3 i⟩
  exact v26_at x0 x1 x2 x3 x5 x6 x7 e h d

end Cert.ReferenceIdeal.RefValue

end
-- ==== Proof.lean ====
/-
  The certificate: a fused edge-attention kernel over a graph of 50000 nodes and 800000 edges against its plain
  reference, equal over the extended reals.

  Both programs project the node rows to queries, keys and values and the edge rows once; on every edge multiply the
  key at its source by the query at its destination, scale by 1/4, clamp to [-5, 5] and multiply by the edge's
  projection (the edge scores: the second result); exponentiate each head's clamped lane sum (the head weights);
  weight the source's value by it (the messages); add messages and weights into the destination nodes and divide
  (the first result). The kernel does the node projections as one product with the three weight matrices side by side,
  gathers keys and values in one gather, runs the per-edge arithmetic in a 200-point pipelined region over blocks of
  4000 edges, sums a head's 16 lanes and spreads a head's weight back by products with two 0/1 tables, and scatters
  flat 128-lane rows; the reference works on [·, 8, 16] arrays throughout. At the ideal instance a product with a 0/1
  table is the selected sum (x · 1 = x and x · 0 = 0 hold on all extended reals, so no input need be finite), a
  rounding to a narrower float format is the identity, and a scatter-add is the sum over the updates that land on an
  element in either layout; nothing else differs.

  The three frames: the two kernel programs by the run of their region between the host operations (written once,
  generic in the float instance); the reference by its run read back. The idealization rewrote nothing, so it is
  preserved trivially.
-/
import proofs.«410480_j64037962384023_3_alg».proof.Defs
import proofs.«410480_j64037962384023_3_alg».proof.Proof.Gen.Kernel
import proofs.«410480_j64037962384023_3_alg».proof.Proof.Gen.KernelIdeal
import proofs.«410480_j64037962384023_3_alg».proof.Proof.Gen.ReferenceIdeal
import proofs.«410480_j64037962384023_3_alg».proof.Proof.Gen.Pre_finite_inputs
import proofs.«410480_j64037962384023_3_alg».proof.Proof.Gen.ReferenceIdeal.Run
import proofs.«410480_j64037962384023_3_alg».proof.Proof.Gen.ReferenceIdeal.Read
import proofs.«410480_j64037962384023_3_alg».proof.Proof.FrameBits
import proofs.«410480_j64037962384023_3_alg».proof.Proof.Frame
import proofs.«410480_j64037962384023_3_alg».proof.Proof.KernelValue
import proofs.«410480_j64037962384023_3_alg».proof.Proof.RefValue
import Idealize.ShloMosaic.Adequacy
import Idealize.ShloMosaic.Init

noncomputable section

namespace Cert.Proof

open Idealize.ShloMosaic Idealize.SL.Sem

/-- The word-level kernel runs to the end, faults nowhere and leaves its arguments as launched. -/
theorem frame_kernel : Cert.frame_Kernel := fun m ρ _ => Cert.Kernel.Hand.frame m ρ

/-- So does the idealized kernel. -/
theorem frame_kernelIdeal : Cert.frame_KernelIdeal := fun m ρ _ => Cert.KernelIdeal.Hand.frame m ρ

/-- And the reference: its run read back, the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From arguments that agree, both idealized programs end with the node outputs and the edge scores of those
    arguments: the kernel by its region's arrays and the host operations around it, the reference by its stages. The
    index columns are built by the same operations in both programs. -/
theorem algebraic : Cert.algebraic_KernelIdeal_ReferenceIdeal := by
  intro m ρ m' ρ' _ hagree
  refine ⟨fun c => Cert.KernelIdeal.Result.nodeRes m c, fun c => Cert.KernelIdeal.Result.edgeRes m c,
    Cert.KernelIdeal.Result.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7⟩ := hagree c
    rw [Cert.ReferenceIdeal.Read.val_main_v49_eq, Cert.ReferenceIdeal.RefValue.nodeOut_eq, h0, h1, h2, h3, h4, h5, h6, h7]
    rfl
  · obtain ⟨h0, h1, h2, h3, h4, h5, h6, h7⟩ := hagree c
    rw [Cert.ReferenceIdeal.Read.val_main_v26_eq, Cert.ReferenceIdeal.RefValue.edgeOut_eq, h0, h1, h2, h3, h5, h6, h7]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
